-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x512 : Shape := ⟨4, ![8, 19, 512, 512]⟩
abbrev S8x512x512 : Shape := ⟨3, ![8, 512, 512]⟩
abbrev S19 : Shape := ⟨1, ![19]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel
  bcast_S_S19 : S_.BroadcastsInDim S19 (![] : Fin 0 → Fin S19.rank)
  reducesTo_S19_S_d0 : S19.ReducesTo [0] S_
  bcast_S_S8x512x512 : S_.BroadcastsInDim S8x512x512 (![] : Fin 0 → Fin S8x512x512.rank)
  reducesTo_S8x512x512_S_d0_1_2 : S8x512x512.ReducesTo [0, 1, 2] S_

variable [Facts]

def fn_part1 {F : FTy → Type} [FloatOps F] (main_arg1 : IVec S8x512x512 32) (main_v13 : IVec S_ 1) (main_v15 : IVec S8x512x512 1) (main_c_5 : IVec S_ 32) : IVec S_ 1 :=
  let main_v16 : IVec S8x512x512 32 := broadcastInDim S8x512x512 ![] bcast_S_S8x512x512 main_c_5
  let main_v17 : IVec S8x512x512 1 := cmpi .slt main_arg1 main_v16
  let main_v18 : IVec S8x512x512 1 := andi main_v15 main_v17
  let main_c_6 : IVec S_ 1 := constantI S_ 1 1#1
  let main_v19 : IVec S_ 1 := (fun x v => Host.reduce IntOp.andi x v reducesTo_S8x512x512_S_d0_1_2 h_S_) main_v18 main_c_6
  let main_v20 : IVec S_ 1 := andi main_v13 main_v19
  main_v20

def fn {F : FTy → Type} [FloatOps F] (main_arg0 : FVec F S8x19x512x512 .f32) (main_arg1 : IVec S8x512x512 32) (main_arg2 : FVec F S19 .f32) (main_arg3 : FVec F S19 .f32) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  let main_v4 : FVec F S19 .f32 := Host.absf main_arg2
  let main_cst_0 : FVec F S_ .f32 := constant S_ .f32 0x7F800000#32
  let main_v5 : FVec F S19 .f32 := broadcastInDim S19 ![] bcast_S_S19 main_cst_0
  let main_v6 : IVec S19 1 := cmpf .olt main_v4 main_v5
  let main_c_1 : IVec S_ 1 := constantI S_ 1 1#1
  let main_v7 : IVec S_ 1 := (fun x v => Host.reduce IntOp.andi x v reducesTo_S19_S_d0 h_S_) main_v6 main_c_1
  let main_v8 : IVec S_ 1 := andi main_v3 main_v7
  let main_v9 : FVec F S19 .f32 := Host.absf main_arg3
  let main_cst_2 : FVec F S_ .f32 := constant S_ .f32 0x7F800000#32
  let main_v10 : FVec F S19 .f32 := broadcastInDim S19 ![] bcast_S_S19 main_cst_2
  let main_v11 : IVec S19 1 := cmpf .olt main_v9 main_v10
  let main_c_3 : IVec S_ 1 := constantI S_ 1 1#1
  let main_v12 : IVec S_ 1 := (fun x v => Host.reduce IntOp.andi x v reducesTo_S19_S_d0 h_S_) main_v11 main_c_3
  let main_v13 : IVec S_ 1 := andi main_v8 main_v12
  let main_c_4 : IVec S_ 32 := constantI S_ 32 0#32
  let main_v14 : IVec S8x512x512 32 := broadcastInDim S8x512x512 ![] bcast_S_S8x512x512 main_c_4
  let main_v15 : IVec S8x512x512 1 := cmpi .sge main_arg1 main_v14
  let main_c_5 : IVec S_ 32 := constantI S_ 32 19#32
  fn_part1 (F := F) main_arg1 main_v13 main_v15 main_c_5
-- ==== Kernel.lean ====
abbrev S8x19x512x512 : Shape := ⟨4, ![8, 19, 512, 512]⟩
abbrev S8x512x512 : Shape := ⟨3, ![8, 512, 512]⟩
abbrev S19 : Shape := ⟨1, ![19]⟩
abbrev S2x19x1x1 : Shape := ⟨4, ![2, 19, 1, 1]⟩
abbrev S1x19x128x512 : Shape := ⟨4, ![1, 19, 128, 512]⟩
abbrev S1x128x512 : Shape := ⟨3, ![1, 128, 512]⟩
abbrev S1x19x1x1 : Shape := ⟨4, ![1, 19, 1, 1]⟩
abbrev S19x1x1 : Shape := ⟨3, ![19, 1, 1]⟩
abbrev S19x128x512 : Shape := ⟨3, ![19, 128, 512]⟩
abbrev S128x512 : Shape := ⟨2, ![128, 512]⟩
abbrev S19x128 : Shape := ⟨2, ![19, 128]⟩
abbrev S19x128x1 : Shape := ⟨3, ![19, 128, 1]⟩
abbrev S19x1 : Shape := ⟨2, ![19, 1]⟩
abbrev S_ : Shape := ⟨0, ![]⟩

abbrev nBuf : Space → Nat
  | .hbm => 66
  | .vmem => 19
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S19, .f32⟩
  | .hbm, ⟨3, _⟩ => ⟨S19, .f32⟩
  | .hbm, ⟨4, _⟩ => ⟨S2x19x1x1, .f32⟩
  | .hbm, ⟨5, _⟩ => ⟨S2x19x1x1, .f32⟩
  | .hbm, ⟨6, _⟩ => ⟨S2x19x1x1, .f32⟩
  | .hbm, ⟨7, _⟩ => ⟨S2x19x1x1, .f32⟩
  | .hbm, ⟨8, _⟩ => ⟨S2x19x1x1, .f32⟩
  | .hbm, ⟨9, _⟩ => ⟨S_, .f32⟩
  | .hbm, ⟨10, _⟩ => ⟨S19x1x1, .f32⟩
  | .hbm, ⟨11, _⟩ => ⟨S19, .f32⟩
  | .hbm, ⟨12, _⟩ => ⟨S_, .f32⟩
  | .hbm, ⟨13, _⟩ => ⟨S19x1x1, .f32⟩
  | .hbm, ⟨14, _⟩ => ⟨S19, .f32⟩
  | .hbm, ⟨15, _⟩ => ⟨S_, .f32⟩
  | .hbm, ⟨16, _⟩ => ⟨S19x1x1, .f32⟩
  | .hbm, ⟨17, _⟩ => ⟨S19, .f32⟩
  | .hbm, ⟨18, _⟩ => ⟨S_, .f32⟩
  | .hbm, ⟨19, _⟩ => ⟨S19x1x1, .f32⟩
  | .hbm, ⟨20, _⟩ => ⟨S19, .f32⟩
  | .hbm, ⟨21, _⟩ => ⟨S_, .f32⟩
  | .hbm, ⟨22, _⟩ => ⟨S19x1x1, .f32⟩
  | .hbm, ⟨23, _⟩ => ⟨S19, .f32⟩
  | .hbm, ⟨24, _⟩ => ⟨S19, .f32⟩
  | .hbm, ⟨25, _⟩ => ⟨S_, .f32⟩
  | .hbm, ⟨26, _⟩ => ⟨S_, .f32⟩
  | .hbm, ⟨27, _⟩ => ⟨S19, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S19, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S19, .f32⟩
  | .hbm, ⟨38, _⟩ => ⟨S19, .f32⟩
  | .hbm, ⟨39, _⟩ => ⟨S_, .f32⟩
  | .hbm, ⟨40, _⟩ => ⟨S19, .f32⟩
  | .hbm, ⟨41, _⟩ => ⟨S19, .f32⟩
  | .hbm, ⟨42, _⟩ => ⟨S19, .f32⟩
  | .hbm, ⟨43, _⟩ => ⟨S_, .f32⟩
  | .hbm, ⟨44, _⟩ => ⟨S19, .f32⟩
  | .hbm, ⟨45, _⟩ => ⟨S19, .f32⟩
  | .hbm, ⟨46, _⟩ => ⟨S19, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S19, .f32⟩
  | .hbm, ⟨52, _⟩ => ⟨S19, .f32⟩
  | .hbm, ⟨53, _⟩ => ⟨S19, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .local _ .vmem, ⟨0, _⟩ => ⟨S1x19x128x512, .f32⟩
  | .local _ .vmem, ⟨1, _⟩ => ⟨S1x19x128x512, .f32⟩
  | .local _ .vmem, ⟨2, _⟩ => ⟨S1x128x512, .i32⟩
  | .local _ .vmem, ⟨3, _⟩ => ⟨S1x128x512, .i32⟩
  | .local _ .vmem, ⟨4, _⟩ => ⟨S1x19x1x1, .f32⟩
  | .local _ .vmem, ⟨5, _⟩ => ⟨S1x19x1x1, .f32⟩
  | .local _ .vmem, ⟨6, _⟩ => ⟨S1x19x1x1, .f32⟩
  | .local _ .vmem, ⟨7, _⟩ => ⟨S1x19x1x1, .f32⟩
  | .local _ .vmem, ⟨8, _⟩ => ⟨S1x19x1x1, .f32⟩
  | .local _ .vmem, ⟨9, _⟩ => ⟨S1x19x1x1, .f32⟩
  | .local _ .vmem, ⟨10, _⟩ => ⟨S1x19x1x1, .f32⟩
  | .local _ .vmem, ⟨11, _⟩ => ⟨S1x19x1x1, .f32⟩
  | .local _ .vmem, ⟨12, _⟩ => ⟨S1x19x1x1, .f32⟩
  | .local _ .vmem, ⟨13, _⟩ => ⟨S1x19x1x1, .f32⟩
  | .local _ .vmem, ⟨14, _⟩ => ⟨S19x1x1, .f32⟩
  | .local _ .vmem, ⟨15, _⟩ => ⟨S19x1x1, .f32⟩
  | .local _ .vmem, ⟨16, _⟩ => ⟨S19x1x1, .f32⟩
  | .local _ .vmem, ⟨17, _⟩ => ⟨S19x1x1, .f32⟩
  | .local _ .vmem, ⟨18, _⟩ => ⟨S19x1x1, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_cst_8 : Ref sig .tc := ⟨.hbm, 36, rfl⟩
abbrev main_v19 : Ref sig .tc := ⟨.hbm, 37, rfl⟩
abbrev main_v20 : Ref sig .tc := ⟨.hbm, 38, rfl⟩
abbrev main_cst_9 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_10 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_11 : Ref sig .tc := ⟨.hbm, 47, rfl⟩
abbrev main_v27 : Ref sig .tc := ⟨.hbm, 48, rfl⟩
abbrev main_cst_12 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_13 : Ref sig .tc := ⟨.hbm, 54, rfl⟩
abbrev main_v32 : Ref sig .tc := ⟨.hbm, 55, rfl⟩
abbrev main_cst_14 : Ref sig .tc := ⟨.hbm, 56, rfl⟩
abbrev main_v33 : Ref sig .tc := ⟨.hbm, 57, rfl⟩
abbrev main_cst_15 : Ref sig .tc := ⟨.hbm, 58, rfl⟩
abbrev main_v34 : Ref sig .tc := ⟨.hbm, 59, rfl⟩
abbrev main_cst_16 : Ref sig .tc := ⟨.hbm, 60, rfl⟩
abbrev main_v35 : Ref sig .tc := ⟨.hbm, 61, rfl⟩
abbrev main_v36 : Ref sig .tc := ⟨.hbm, 62, rfl⟩
abbrev main_cst_17 : Ref sig .tc := ⟨.hbm, 63, rfl⟩
abbrev main_v37 : Ref sig .tc := ⟨.hbm, 64, rfl⟩
abbrev main_v38 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg1 : BitVec 32 := BitVec.ofNat 32 (i 1).val
  let c3_i32 : BitVec 32 := 3#32
  let v3 : BitVec 1 := Scalar.cmpi .eq arg1 c3_i32
  let arg2 : BitVec 32 := BitVec.ofNat 32 (i 2).val
  let c3_i32_1 : BitVec 32 := 3#32
  let v4 : BitVec 1 := Scalar.cmpi .eq arg2 c3_i32_1
  let v5 : BitVec 1 := Scalar.andi v3 v4
  let v87 : BitVec 32 := Scalar.extui v5
  let c0_i32_53 : BitVec 32 := 0#32
  let v88 : BitVec 1 := Scalar.cmpi .ne v87 c0_i32_53
  v88

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x19x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x19x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x19x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x19x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x19x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x19x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

class Facts₀ : Prop where
  inb_S19x1x1_S19x1x1_0_0_0 : ∀ a, (![0, 0, 0] : Fin 3 → Nat) a + S19x1x1.size a ≤ S19x1x1.size a
  h_S19x1x1 : 0 < S19x1x1.numel
  shapeCasts_S19x1x1_S19x1x1 : S19x1x1.ShapeCasts S19x1x1
  inb_S1x19x128x512_S1x19x128x512_0_0_0_0 : ∀ a, (![0, 0, 0, 0] : Fin 4 → Nat) a + S1x19x128x512.size a ≤ S1x19x128x512.size a
  h_S1x19x128x512 : 0 < S1x19x128x512.numel
  shapeCasts_S1x19x128x512_S19x128x512 : S1x19x128x512.ShapeCasts S19x128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  reduces_S19x128x512_S128x512 : S19x128x512.Reduces [0] S128x512
  shapeCasts_S128x512_S1x128x512 : S128x512.ShapeCasts S1x128x512
  broadcasts_S1x128x512_S19x128x512 : S1x128x512.Broadcasts S19x128x512
  iota_S19x1x1_d0_w32 : S19x1x1.Iotas .tc 32 [0]
  broadcasts_S19x1x1_S19x128x512 : S19x1x1.Broadcasts S19x128x512
  natLt_1_32 : 1 < 32
  reduces_S19x128x512_S19x128 : S19x128x512.Reduces [2] S19x128
  shapeCasts_S19x128_S19x128x1 : S19x128.ShapeCasts S19x128x1
  reduces_S19x128x1_S19x1 : S19x128x1.Reduces [1] S19x1
  shapeCasts_S19x1_S19x1x1 : S19x1.ShapeCasts S19x1x1
  inb_S1x19x1x1_S1x19x1x1_0_0_0_0 : ∀ a, (![0, 0, 0, 0] : Fin 4 → Nat) a + S1x19x1x1.size a ≤ S1x19x1x1.size a
  h_S1x19x1x1 : 0 < S1x19x1x1.numel
  shapeCasts_S1x19x1x1_S19x1x1 : S1x19x1x1.ShapeCasts S19x1x1
  shapeCasts_S19x1x1_S1x19x1x1 : S19x1x1.ShapeCasts S1x19x1x1
  reducesTo_S2x19x1x1_S19x1x1_d0 : S2x19x1x1.ReducesTo [0] S19x1x1
  h_S_ : 0 < S_.numel
  shapeCasts_S19x1x1_S19 : S19x1x1.ShapeCasts S19
  reducesTo_S19_S_d0 : S19.ReducesTo [0] S_
  bcast_S_S19 : S_.BroadcastsInDim S19 (![] : Fin 0 → Fin S19.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x128x512.size a ≤ S8x19x512x512.size a
  hwx0_0 : ∀ i : grid0.Coords, EltTy.bits .f32 = 32 ∨ (Rect.block (s := S8x19x512x512) S1x19x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x512x512.size a
  hwx0_1 : ∀ i : grid0.Coords, EltTy.bits .i32 = 32 ∨ (Rect.block (s := S8x512x512) S1x128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x1x1.size a ≤ S2x19x1x1.size a
  hwx0_2 : ∀ i : grid0.Coords, EltTy.bits .f32 = 32 ∨ (Rect.block (s := S2x19x1x1) S1x19x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x19x1x1.size a ≤ S2x19x1x1.size a
  hwx0_3 : ∀ i : grid0.Coords, EltTy.bits .f32 = 32 ∨ (Rect.block (s := S2x19x1x1) S1x19x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x19x1x1.size a ≤ S2x19x1x1.size a
  hwx0_4 : ∀ i : grid0.Coords, EltTy.bits .f32 = 32 ∨ (Rect.block (s := S2x19x1x1) S1x19x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x19x1x1.size a ≤ S2x19x1x1.size a
  hwx0_5 : ∀ i : grid0.Coords, EltTy.bits .f32 = 32 ∨ (Rect.block (s := S2x19x1x1) S1x19x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x19x1x1.size a ≤ S2x19x1x1.size a
  hwx0_6 : ∀ i : grid0.Coords, EltTy.bits .f32 = 32 ∨ (Rect.block (s := S2x19x1x1) S1x19x1x1.size (cc0_transform_6 i) (hinb0_6 i)).WholeWords (EltTy.packing .f32)

variable [Facts₀]

abbrev win0_0 : Pipeline.Window sig grid0 :=
  Pipeline.Window.ofSpec (Memref.whole main_arg0) S1x19x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x19x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x19x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x19x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x19x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S1x19x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun i => !(k0_cond2 i == 1#1) | 3 => fun i => !(k0_cond2 i == 1#1) | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x19x512x512 : Shape := ⟨4, ![8, 19, 512, 512]⟩
abbrev S8x512x512 : Shape := ⟨3, ![8, 512, 512]⟩
abbrev S19 : Shape := ⟨1, ![19]⟩
abbrev S_ : Shape := ⟨0, ![]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S8x512x512x1 : Shape := ⟨4, ![8, 512, 512, 1]⟩
abbrev S2097152 : Shape := ⟨1, ![2097152]⟩
abbrev S2097152x1 : Shape := ⟨2, ![2097152, 1]⟩

abbrev nBuf : Space → Nat
  | .hbm => 168
  | .vmem => 0
  | .smem => 0
  | _ => 0

abbrev hbmTy0_0 (i : Nat) : BufTy := match i % 128 with
  | 0 => ⟨S8x19x512x512, .f32⟩
  | 1 => ⟨S8x512x512, .i32⟩
  | 2 => ⟨S19, .f32⟩
  | 3 => ⟨S19, .f32⟩
  | 4 => ⟨S_, .f32⟩
  | 5 => ⟨S8x512x512, .f32⟩
  | 6 => ⟨S_, .f32⟩
  | 7 => ⟨S8x512x512, .f32⟩
  | 8 => ⟨S8x512x512, .f32⟩
  | 9 => ⟨S8x1x512x512, .f32⟩
  | 10 => ⟨S8x19x512x512, .f32⟩
  | 11 => ⟨S8x19x512x512, .f32⟩
  | 12 => ⟨S8x19x512x512, .f32⟩
  | 13 => ⟨S_, .f32⟩
  | 14 => ⟨S8x512x512, .f32⟩
  | 15 => ⟨S8x1x512x512, .f32⟩
  | 16 => ⟨S8x1x512x512, .f32⟩
  | 17 => ⟨S8x19x512x512, .f32⟩
  | 18 => ⟨S8x19x512x512, .f32⟩
  | 19 => ⟨S8x1x512x512, .i32⟩
  | 20 => ⟨S_, .i32⟩
  | 21 => ⟨S8x1x512x512, .i32⟩
  | 22 => ⟨S8x1x512x512, .i1⟩
  | 23 => ⟨S_, .i32⟩
  | 24 => ⟨S8x1x512x512, .i32⟩
  | 25 => ⟨S8x1x512x512, .i32⟩
  | 26 => ⟨S8x1x512x512, .i32⟩
  | 27 => ⟨S8x1x512x512x1, .i32⟩
  | 28 => ⟨S1, .i32⟩
  | 29 => ⟨S_, .i32⟩
  | 30 => ⟨S8x1x512x512x1, .i32⟩
  | 31 => ⟨S8x1x512x512x1, .i1⟩
  | 32 => ⟨S1x1x1x1x1, .i32⟩
  | 33 => ⟨S8x1x512x512x1, .i32⟩
  | 34 => ⟨S8x1x512x512x1, .i1⟩
  | 35 => ⟨S8x1x512x512x1, .i1⟩
  | 36 => ⟨S_, .i1⟩
  | 37 => ⟨S8x1x512x512, .i1⟩
  | 38 => ⟨S8x1x512x512, .f32⟩
  | 39 => ⟨S_, .f32⟩
  | 40 => ⟨S8x1x512x512, .f32⟩
  | 41 => ⟨S8x1x512x512, .f32⟩
  | 42 => ⟨S8x512x512, .f32⟩
  | 43 => ⟨S_, .i32⟩
  | 44 => ⟨S8x512x512, .i32⟩
  | 45 => ⟨S8x512x512, .i1⟩
  | 46 => ⟨S_, .i32⟩
  | 47 => ⟨S8x512x512, .i32⟩
  | 48 => ⟨S8x512x512, .i32⟩
  | 49 => ⟨S8x512x512, .i32⟩
  | 50 => ⟨S8x512x512x1, .i32⟩
  | 51 => ⟨S8x512x512, .f32⟩
  | 52 => ⟨S8x512x512, .f32⟩
  | 53 => ⟨S8x512x512, .f32⟩
  | 54 => ⟨S_, .f32⟩
  | 55 => ⟨S_, .f32⟩
  | 56 => ⟨S_, .f32⟩
  | 57 => ⟨S_, .f32⟩
  | 58 => ⟨S_, .f32⟩
  | 59 => ⟨S8x512x512, .f32⟩
  | 60 => ⟨S_, .f32⟩
  | 61 => ⟨S8x512x512, .f32⟩
  | 62 => ⟨S8x512x512, .f32⟩
  | 63 => ⟨S_, .i32⟩
  | 64 => ⟨S8x512x512, .i32⟩
  | 65 => ⟨S8x512x512, .i1⟩
  | 66 => ⟨S_, .i32⟩
  | 67 => ⟨S8x512x512, .i32⟩
  | 68 => ⟨S8x512x512, .i32⟩
  | 69 => ⟨S8x512x512, .i32⟩
  | 70 => ⟨S8x512x512x1, .i32⟩
  | 71 => ⟨S8x512x512, .f32⟩
  | 72 => ⟨S8x512x512, .f32⟩
  | 73 => ⟨S_, .f32⟩
  | 74 => ⟨S8x512x512, .f32⟩
  | 75 => ⟨S8x512x512, .f32⟩
  | 76 => ⟨S_, .f32⟩
  | 77 => ⟨S8x512x512, .f32⟩
  | 78 => ⟨S8x512x512, .f32⟩
  | 79 => ⟨S8x512x512, .f32⟩
  | 80 => ⟨S8x512x512, .f32⟩
  | 81 => ⟨S_, .f32⟩
  | 82 => ⟨S_, .f32⟩
  | 83 => ⟨S_, .f32⟩
  | 84 => ⟨S_, .f32⟩
  | 85 => ⟨S8x19x512x512, .f32⟩
  | 86 => ⟨S8x1x512x512, .i32⟩
  | 87 => ⟨S_, .i32⟩
  | 88 => ⟨S8x1x512x512, .i32⟩
  | 89 => ⟨S8x1x512x512, .i1⟩
  | 90 => ⟨S_, .i32⟩
  | 91 => ⟨S8x1x512x512, .i32⟩
  | 92 => ⟨S8x1x512x512, .i32⟩
  | 93 => ⟨S8x1x512x512, .i32⟩
  | 94 => ⟨S8x1x512x512x1, .i32⟩
  | 95 => ⟨S1, .i32⟩
  | 96 => ⟨S_, .i32⟩
  | 97 => ⟨S8x1x512x512x1, .i32⟩
  | 98 => ⟨S8x1x512x512x1, .i1⟩
  | 99 => ⟨S1x1x1x1x1, .i32⟩
  | 100 => ⟨S8x1x512x512x1, .i32⟩
  | 101 => ⟨S8x1x512x512x1, .i1⟩
  | 102 => ⟨S8x1x512x512x1, .i1⟩
  | 103 => ⟨S_, .i1⟩
  | 104 => ⟨S8x1x512x512, .i1⟩
  | 105 => ⟨S8x1x512x512, .f32⟩
  | 106 => ⟨S_, .f32⟩
  | 107 => ⟨S8x1x512x512, .f32⟩
  | 108 => ⟨S8x1x512x512, .f32⟩
  | 109 => ⟨S8x512x512, .f32⟩
  | 110 => ⟨S2097152, .i32⟩
  | 111 => ⟨S_, .f32⟩
  | 112 => ⟨S19, .f32⟩
  | 113 => ⟨S2097152, .f32⟩
  | 114 => ⟨S_, .i32⟩
  | 115 => ⟨S2097152, .i32⟩
  | 116 => ⟨S2097152, .i1⟩
  | 117 => ⟨S_, .i32⟩
  | 118 => ⟨S2097152, .i32⟩
  | 119 => ⟨S2097152, .i32⟩
  | 120 => ⟨S2097152, .i32⟩
  | 121 => ⟨S2097152x1, .i32⟩
  | 122 => ⟨S19, .f32⟩
  | 123 => ⟨S_, .f32⟩
  | 124 => ⟨S19, .f32⟩
  | 125 => ⟨S_, .i32⟩
  | 126 => ⟨S2097152, .i32⟩
  | 127 => ⟨S2097152, .i1⟩
  | _ => ⟨S8x19x512x512, .f32⟩

abbrev hbmTy0_1 (i : Nat) : BufTy := match i % 128 with
  | 0 => ⟨S_, .i32⟩
  | 1 => ⟨S2097152, .i32⟩
  | 2 => ⟨S2097152, .i32⟩
  | 3 => ⟨S2097152, .i32⟩
  | 4 => ⟨S2097152x1, .i32⟩
  | 5 => ⟨S_, .f32⟩
  | 6 => ⟨S2097152, .f32⟩
  | 7 => ⟨S19, .f32⟩
  | 8 => ⟨S_, .f32⟩
  | 9 => ⟨S19, .f32⟩
  | 10 => ⟨S_, .f32⟩
  | 11 => ⟨S19, .f32⟩
  | 12 => ⟨S19, .f32⟩
  | 13 => ⟨S_, .f32⟩
  | 14 => ⟨S19, .f32⟩
  | 15 => ⟨S19, .f32⟩
  | 16 => ⟨S19, .f32⟩
  | 17 => ⟨S_, .f32⟩
  | 18 => ⟨S19, .f32⟩
  | 19 => ⟨S19, .f32⟩
  | 20 => ⟨S19, .f32⟩
  | 21 => ⟨S_, .f32⟩
  | 22 => ⟨S_, .f32⟩
  | 23 => ⟨S_, .f32⟩
  | 24 => ⟨S_, .f32⟩
  | 25 => ⟨S19, .f32⟩
  | 26 => ⟨S19, .f32⟩
  | 27 => ⟨S19, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | _ => ⟨S8x19x512x512, .f32⟩

abbrev hbmTy (i : Nat) : BufTy := match i / 128 with
  | 0 => hbmTy0_0 i
  | 1 => hbmTy0_1 i
  | _ => ⟨S8x19x512x512, .f32⟩

abbrev bufTy : (tb : Table) → Fin (tcTables nBuf tb) → BufTy
  | .hbm, ⟨i, _⟩ => hbmTy i
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_c : Ref sig .tc := ⟨.hbm, 43, rfl⟩
abbrev main_v4 : Ref sig .tc := ⟨.hbm, 44, rfl⟩
abbrev main_v5 : Ref sig .tc := ⟨.hbm, 45, rfl⟩
abbrev main_c_0 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_cst : Ref sig .tc := ⟨.hbm, 54, rfl⟩
abbrev main_v13 : Ref sig .tc := ⟨.hbm, 55, rfl⟩
abbrev main_cst_1 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_cst_2 : Ref sig .tc := ⟨.hbm, 60, rfl⟩
abbrev main_v17 : Ref sig .tc := ⟨.hbm, 61, rfl⟩
abbrev main_v18 : Ref sig .tc := ⟨.hbm, 62, rfl⟩
abbrev main_c_3 : Ref sig .tc := ⟨.hbm, 63, rfl⟩
abbrev main_v19 : Ref sig .tc := ⟨.hbm, 64, rfl⟩
abbrev main_v20 : Ref sig .tc := ⟨.hbm, 65, rfl⟩
abbrev main_c_4 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_cst_5 : Ref sig .tc := ⟨.hbm, 73, rfl⟩
abbrev main_v27 : Ref sig .tc := ⟨.hbm, 74, rfl⟩
abbrev main_v28 : Ref sig .tc := ⟨.hbm, 75, rfl⟩
abbrev main_cst_6 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_cst_7 : Ref sig .tc := ⟨.hbm, 81, rfl⟩
abbrev main_v33 : Ref sig .tc := ⟨.hbm, 82, rfl⟩
abbrev main_cst_8 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_cst : Ref sig .tc := ⟨.hbm, 106, rfl⟩
abbrev main_call2_v14 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_cst_9 : Ref sig .tc := ⟨.hbm, 111, rfl⟩
abbrev main_v40 : Ref sig .tc := ⟨.hbm, 112, rfl⟩
abbrev main_v41 : Ref sig .tc := ⟨.hbm, 113, rfl⟩
abbrev main_c_10 : Ref sig .tc := ⟨.hbm, 114, rfl⟩
abbrev main_v42 : Ref sig .tc := ⟨.hbm, 115, rfl⟩
abbrev main_v43 : Ref sig .tc := ⟨.hbm, 116, rfl⟩
abbrev main_c_11 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_cst_12 : Ref sig .tc := ⟨.hbm, 123, rfl⟩
abbrev main_v49 : Ref sig .tc := ⟨.hbm, 124, rfl⟩
abbrev main_c_13 : Ref sig .tc := ⟨.hbm, 125, rfl⟩
abbrev main_v50 : Ref sig .tc := ⟨.hbm, 126, rfl⟩
abbrev main_v51 : Ref sig .tc := ⟨.hbm, 127, rfl⟩
abbrev main_c_14 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_cst_15 : Ref sig .tc := ⟨.hbm, 133, rfl⟩
abbrev main_v56 : Ref sig .tc := ⟨.hbm, 134, rfl⟩
abbrev main_v57 : Ref sig .tc := ⟨.hbm, 135, rfl⟩
abbrev main_cst_16 : Ref sig .tc := ⟨.hbm, 136, rfl⟩
abbrev main_v58 : Ref sig .tc := ⟨.hbm, 137, rfl⟩
abbrev main_cst_17 : Ref sig .tc := ⟨.hbm, 138, rfl⟩
abbrev main_v59 : Ref sig .tc := ⟨.hbm, 139, rfl⟩
abbrev main_v60 : Ref sig .tc := ⟨.hbm, 140, rfl⟩
abbrev main_cst_18 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_cst_19 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_cst_20 : Ref sig .tc := ⟨.hbm, 149, rfl⟩
abbrev main_v67 : Ref sig .tc := ⟨.hbm, 150, rfl⟩
abbrev main_cst_21 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_cst_22 : Ref sig .tc := ⟨.hbm, 156, rfl⟩
abbrev main_v72 : Ref sig .tc := ⟨.hbm, 157, rfl⟩
abbrev main_cst_23 : Ref sig .tc := ⟨.hbm, 158, rfl⟩
abbrev main_v73 : Ref sig .tc := ⟨.hbm, 159, rfl⟩
abbrev main_cst_24 : Ref sig .tc := ⟨.hbm, 160, rfl⟩
abbrev main_v74 : Ref sig .tc := ⟨.hbm, 161, rfl⟩
abbrev main_cst_25 : Ref sig .tc := ⟨.hbm, 162, rfl⟩
abbrev main_v75 : Ref sig .tc := ⟨.hbm, 163, rfl⟩
abbrev main_v76 : Ref sig .tc := ⟨.hbm, 164, rfl⟩
abbrev main_cst_26 : Ref sig .tc := ⟨.hbm, 165, rfl⟩
abbrev main_v77 : Ref sig .tc := ⟨.hbm, 166, rfl⟩
abbrev main_v78 : Ref sig .tc := ⟨.hbm, 167, rfl⟩

abbrev nD : Nat := 1
abbrev τ : Topo := Topo.v7x

variable {F : FTy → Type} [FloatOps F]

class Facts₀ : Prop where
  reducesTo_S8x19x512x512_S8x512x512_d1 : S8x19x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x19x512x512_0_1_2_3 : S8x1x512x512.BroadcastsInDim S8x19x512x512 (![0, 1, 2, 3] : Fin 4 → Fin S8x19x512x512.rank)
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  bcast_S8x512x512_S8x512x512x1_0_1_2 : S8x512x512.BroadcastsInDim S8x512x512x1 (![0, 1, 2] : Fin 3 → Fin S8x512x512x1.rank)
  reducesTo_S8x512x512_S_d0_1_2 : S8x512x512.ReducesTo [0, 1, 2] S_
  shapeCasts_S8x512x512_S2097152 : S8x512x512.ShapeCasts S2097152
  bcast_S_S19 : S_.BroadcastsInDim S19 (![] : Fin 0 → Fin S19.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  reducesTo_S8x19x512x512_S19_d0_2_3 : S8x19x512x512.ReducesTo [0, 2, 3] S19
  reducesTo_S19_S_d0 : S19.ReducesTo [0] S_
  gather_S8x19x512x512_S8x1x512x512x1_S8x1x512x512_n_1_023_023_1_4_1111_wf : GatherDims.WF S8x19x512x512 S8x1x512x512x1 S8x1x512x512 [] [1] [0, 2, 3] [1] [0, 2, 3] 4 ![1, 1, 1, 1]
  gather_S19_S8x512x512x1_S8x512x512_n_0_n_n_0_3_1_wf : GatherDims.WF S19 S8x512x512x1 S8x512x512 [] [0] [] [0] [] 3 ![1]
  scatter_S19_S2097152x1_S2097152_n_0_0_1_wf : ScatterDims.WF S19 S2097152x1 S2097152 [] [0] [0] 1

variable [Facts₀]

def gather_S8x19x512x512_S8x1x512x512x1_S8x1x512x512_n_1_023_023_1_4_1111 : GatherDims S8x19x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x19x512x512_S8x1x512x512x1_S8x1x512x512_n_1_023_023_1_4_1111_wf
def gather_S19_S8x512x512x1_S8x512x512_n_0_n_n_0_3_1 : GatherDims S19 S8x512x512x1 S8x512x512 where
  offsetDims := []
  collapsedSliceDims := [0]
  operandBatchingDims := []
  startIndicesBatchingDims := []
  startIndexMap := [0]
  indexVectorDim := 3
  sliceSizes := ![1]
  wf := gather_S19_S8x512x512x1_S8x512x512_n_0_n_n_0_3_1_wf
def scatter_S19_S2097152x1_S2097152_n_0_0_1 : ScatterDims S19 S2097152x1 S2097152 where
  updateWindowDims := []
  insertedWindowDims := [0]
  scatterDimsToOperandDims := [0]
  indexVectorDim := 1
  wf := scatter_S19_S2097152x1_S2097152_n_0_0_1_wf

class Facts : Prop extends Facts₀ where

variable [Facts]
-- ==== Proof.RefRunValue.lean ====
/-
  The reference program's run, read stage by stage.  @main is a straight line of 164 host operations; what it leaves in
  its result buffer is the last stage of the reading module — each operation's value as a function of the four
  arguments — applied to the arguments' launch contents.  The composed term is never written out whole: the line is cut
  where a value is shared by several later operations, and each stretch is read over whatever the stretch before left.
-/
import proofs.«411635_j77653008712127_2_alg».proof.Proof.RefRun
import proofs.«411635_j77653008712127_2_alg».proof.Proof.RefRead
import Idealize.ShloMosaic.Lib.StableHlo.Run

noncomputable section

namespace Cert.ReferenceIdeal.Value

open Cert.ReferenceIdeal Cert.ReferenceIdeal.Gen Cert.ReferenceIdeal.Read Idealize.ShloMosaic Idealize.ShloMosaic.TcCoe Idealize.SL.Sem
  Idealize.ShloMosaic.StableHlo

variable {F : FTy → Type} [FloatOps F]

/-! ## Cutting the line -/

/-- The fold over a concatenation is the fold over the second part from what the first leaves. -/
theorem after_append' (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- A line cut at `n`: the operations from `n` on run from what the first `n` leave. -/
theorem after_split (n : Nat) (l : List (HloOp τ sig (Elt F))) (V : Valuation τ sig (Elt F)) :
    after l V = after (l.drop n) (after (l.take n) V) := by
  rw [← after_append', List.take_append_drop]

/-- The same for a prefix of a line, cut at an earlier `n`. -/
theorem after_take_split (n m : Nat) (hnm : n ≤ m) (l : List (HloOp τ sig (Elt F))) (V : Valuation τ sig (Elt F)) :
    after (l.take m) V = after ((l.take m).drop n) (after (l.take n) V) := by
  have h : (l.take m).take n = l.take n := by rw [List.take_take, Nat.min_eq_left hnm]
  rw [after_split n (l.take m) V, h]

/-! ## A typed reference's buffer holds the value itself

A called function's operations address their buffers through references that carry the value's type, and move a value
to the buffer's own type and back along the equation of the two types.  Written and read back, the value is itself; and
at a literal reference the two types are the same type, so either move is the identity. -/

/-- Reading a typed reference's buffer back at the value's type undoes writing it there. -/
theorem ofBuf_toBuf {T : BufTy} (x : TRef sig T) (v : T.Contents (Elt F)) : x.ofBuf (x.toBuf v) = v := by
  obtain ⟨r, h, _, _⟩ := x
  subst h
  rfl

theorem toBuf_main_arg0 (h1 h2 h3) (v : (⟨S8x19x512x512, .f32⟩ : BufTy).Contents (Elt F)) :
    (TRef.of (T := ⟨S8x19x512x512, .f32⟩) main_arg0 h1 h2 h3).toBuf v = v := rfl
theorem toBuf_main_v0 (h1 h2 h3) (v : (⟨S8x19x512x512, .f32⟩ : BufTy).Contents (Elt F)) :
    (TRef.of (T := ⟨S8x19x512x512, .f32⟩) main_v0 h1 h2 h3).toBuf v = v := rfl
theorem toBuf_main_v1 (h1 h2 h3) (v : (⟨S8x1x512x512, .i32⟩ : BufTy).Contents (Elt F)) :
    (TRef.of (T := ⟨S8x1x512x512, .i32⟩) main_v1 h1 h2 h3).toBuf v = v := rfl
theorem toBuf_main_v2 (h1 h2 h3) (v : (⟨S8x1x512x512, .f32⟩ : BufTy).Contents (Elt F)) :
    (TRef.of (T := ⟨S8x1x512x512, .f32⟩) main_v2 h1 h2 h3).toBuf v = v := rfl
theorem toBuf_main_call1_v4 (h1 h2 h3) (v : (⟨S8x1x512x512, .i32⟩ : BufTy).Contents (Elt F)) :
    (TRef.of (T := ⟨S8x1x512x512, .i32⟩) main_call1_v4 h1 h2 h3).toBuf v = v := rfl
theorem toBuf_main_call1_v5 (h1 h2 h3) (v : (⟨S8x1x512x512x1, .i32⟩ : BufTy).Contents (Elt F)) :
    (TRef.of (T := ⟨S8x1x512x512x1, .i32⟩) main_call1_v5 h1 h2 h3).toBuf v = v := rfl
theorem toBuf_main_v35 (h1 h2 h3) (v : (⟨S8x19x512x512, .f32⟩ : BufTy).Contents (Elt F)) :
    (TRef.of (T := ⟨S8x19x512x512, .f32⟩) main_v35 h1 h2 h3).toBuf v = v := rfl
theorem toBuf_main_v36 (h1 h2 h3) (v : (⟨S8x1x512x512, .i32⟩ : BufTy).Contents (Elt F)) :
    (TRef.of (T := ⟨S8x1x512x512, .i32⟩) main_v36 h1 h2 h3).toBuf v = v := rfl
theorem toBuf_main_v37 (h1 h2 h3) (v : (⟨S8x1x512x512, .f32⟩ : BufTy).Contents (Elt F)) :
    (TRef.of (T := ⟨S8x1x512x512, .f32⟩) main_v37 h1 h2 h3).toBuf v = v := rfl
theorem toBuf_main_call2_v4 (h1 h2 h3) (v : (⟨S8x1x512x512, .i32⟩ : BufTy).Contents (Elt F)) :
    (TRef.of (T := ⟨S8x1x512x512, .i32⟩) main_call2_v4 h1 h2 h3).toBuf v = v := rfl
theorem toBuf_main_call2_v5 (h1 h2 h3) (v : (⟨S8x1x512x512x1, .i32⟩ : BufTy).Contents (Elt F)) :
    (TRef.of (T := ⟨S8x1x512x512x1, .i32⟩) main_call2_v5 h1 h2 h3).toBuf v = v := rfl
theorem ofBuf_main_arg0 (h1 h2 h3) (v : (⟨S8x19x512x512, .f32⟩ : BufTy).Contents (Elt F)) :
    (TRef.of (T := ⟨S8x19x512x512, .f32⟩) main_arg0 h1 h2 h3).ofBuf v = v := rfl
theorem ofBuf_main_v0 (h1 h2 h3) (v : (⟨S8x19x512x512, .f32⟩ : BufTy).Contents (Elt F)) :
    (TRef.of (T := ⟨S8x19x512x512, .f32⟩) main_v0 h1 h2 h3).ofBuf v = v := rfl
theorem ofBuf_main_v1 (h1 h2 h3) (v : (⟨S8x1x512x512, .i32⟩ : BufTy).Contents (Elt F)) :
    (TRef.of (T := ⟨S8x1x512x512, .i32⟩) main_v1 h1 h2 h3).ofBuf v = v := rfl
theorem ofBuf_main_v2 (h1 h2 h3) (v : (⟨S8x1x512x512, .f32⟩ : BufTy).Contents (Elt F)) :
    (TRef.of (T := ⟨S8x1x512x512, .f32⟩) main_v2 h1 h2 h3).ofBuf v = v := rfl
theorem ofBuf_main_call1_v4 (h1 h2 h3) (v : (⟨S8x1x512x512, .i32⟩ : BufTy).Contents (Elt F)) :
    (TRef.of (T := ⟨S8x1x512x512, .i32⟩) main_call1_v4 h1 h2 h3).ofBuf v = v := rfl
theorem ofBuf_main_call1_v5 (h1 h2 h3) (v : (⟨S8x1x512x512x1, .i32⟩ : BufTy).Contents (Elt F)) :
    (TRef.of (T := ⟨S8x1x512x512x1, .i32⟩) main_call1_v5 h1 h2 h3).ofBuf v = v := rfl
theorem ofBuf_main_v35 (h1 h2 h3) (v : (⟨S8x19x512x512, .f32⟩ : BufTy).Contents (Elt F)) :
    (TRef.of (T := ⟨S8x19x512x512, .f32⟩) main_v35 h1 h2 h3).ofBuf v = v := rfl
theorem ofBuf_main_v36 (h1 h2 h3) (v : (⟨S8x1x512x512, .i32⟩ : BufTy).Contents (Elt F)) :
    (TRef.of (T := ⟨S8x1x512x512, .i32⟩) main_v36 h1 h2 h3).ofBuf v = v := rfl
theorem ofBuf_main_v37 (h1 h2 h3) (v : (⟨S8x1x512x512, .f32⟩ : BufTy).Contents (Elt F)) :
    (TRef.of (T := ⟨S8x1x512x512, .f32⟩) main_v37 h1 h2 h3).ofBuf v = v := rfl
theorem ofBuf_main_call2_v4 (h1 h2 h3) (v : (⟨S8x1x512x512, .i32⟩ : BufTy).Contents (Elt F)) :
    (TRef.of (T := ⟨S8x1x512x512, .i32⟩) main_call2_v4 h1 h2 h3).ofBuf v = v := rfl
theorem ofBuf_main_call2_v5 (h1 h2 h3) (v : (⟨S8x1x512x512x1, .i32⟩ : BufTy).Contents (Elt F)) :
    (TRef.of (T := ⟨S8x1x512x512x1, .i32⟩) main_call2_v5 h1 h2 h3).ofBuf v = v := rfl

/-- One stretch of the line, read at a reference: the stretch as a literal list, then each operation's result at its
    own buffer and what was there at any other. -/
macro "stretch" : tactic => `(tactic| (unfold ops; dsimp only [List.take, List.drop]; after_results_simp))

/-! ## The stretches

Each stretch is read over ANY contents `V` of the buffers: a value it computes is the reading module's stage, given that
the values it reads from earlier stretches are theirs; a buffer it does not write keeps its contents. -/

/-! ### Operations 0 to 14 -/

set_option maxRecDepth 20000 in
set_option maxHeartbeats 2000000 in
theorem st1_v0 (V : Valuation τ sig (Elt F)) (x0 : (⟨S8x19x512x512, .f32⟩ : BufTy).Contents (Elt F))
    (h0 : V (Proc.devRef .tc main_arg0) = x0) :
    after ((ops (F := F)).take 15) V (Proc.devRef .tc main_v0) = val_main_v0 (F := F) x0 := by
  stretch
  simp only [ofBuf_toBuf, toBuf_main_arg0, toBuf_main_v0, toBuf_main_v1, toBuf_main_v2, toBuf_main_call1_v4, toBuf_main_call1_v5, toBuf_main_v35, toBuf_main_v36, toBuf_main_v37, toBuf_main_call2_v4, toBuf_main_call2_v5, ofBuf_main_arg0, ofBuf_main_v0, ofBuf_main_v1, ofBuf_main_v2, ofBuf_main_call1_v4, ofBuf_main_call1_v5, ofBuf_main_v35, ofBuf_main_v36, ofBuf_main_v37, ofBuf_main_call2_v4, ofBuf_main_call2_v5, h0]
  rfl

set_option maxRecDepth 20000 in
set_option maxHeartbeats 2000000 in
theorem st1_keep_arg1 (V : Valuation τ sig (Elt F)) :
    after ((ops (F := F)).take 15) V (Proc.devRef .tc main_arg1) = V (Proc.devRef .tc main_arg1) := by
  stretch

set_option maxRecDepth 20000 in
set_option maxHeartbeats 2000000 in
theorem st1_keep_arg2 (V : Valuation τ sig (Elt F)) :
    after ((ops (F := F)).take 15) V (Proc.devRef .tc main_arg2) = V (Proc.devRef .tc main_arg2) := by
  stretch

set_option maxRecDepth 20000 in
set_option maxHeartbeats 2000000 in
theorem st1_keep_arg3 (V : Valuation τ sig (Elt F)) :
    after ((ops (F := F)).take 15) V (Proc.devRef .tc main_arg3) = V (Proc.devRef .tc main_arg3) := by
  stretch

/-! ### Operations 15 to 38 -/

set_option maxRecDepth 20000 in
set_option maxHeartbeats 2000000 in
theorem st2_v3 (V : Valuation τ sig (Elt F)) (x0 : (⟨S8x19x512x512, .f32⟩ : BufTy).Contents (Elt F))
    (x1 : (⟨S8x512x512, .i32⟩ : BufTy).Contents (Elt F))
    (h0 : V (Proc.devRef .tc main_v0) = val_main_v0 (F := F) x0) (h1 : V (Proc.devRef .tc main_arg1) = x1) :
    after (((ops (F := F)).take 39).drop 15) V (Proc.devRef .tc main_v3) = val_main_v3 (F := F) x0 x1 := by
  stretch
  simp only [ofBuf_toBuf, toBuf_main_arg0, toBuf_main_v0, toBuf_main_v1, toBuf_main_v2, toBuf_main_call1_v4, toBuf_main_call1_v5, toBuf_main_v35, toBuf_main_v36, toBuf_main_v37, toBuf_main_call2_v4, toBuf_main_call2_v5, ofBuf_main_arg0, ofBuf_main_v0, ofBuf_main_v1, ofBuf_main_v2, ofBuf_main_call1_v4, ofBuf_main_call1_v5, ofBuf_main_v35, ofBuf_main_v36, ofBuf_main_v37, ofBuf_main_call2_v4, ofBuf_main_call2_v5, h0, h1]
  rfl

set_option maxRecDepth 20000 in
set_option maxHeartbeats 2000000 in
theorem st2_keep_v0 (V : Valuation τ sig (Elt F)) :
    after (((ops (F := F)).take 39).drop 15) V (Proc.devRef .tc main_v0) = V (Proc.devRef .tc main_v0) := by
  stretch

set_option maxRecDepth 20000 in
set_option maxHeartbeats 2000000 in
theorem st2_keep_arg1 (V : Valuation τ sig (Elt F)) :
    after (((ops (F := F)).take 39).drop 15) V (Proc.devRef .tc main_arg1) = V (Proc.devRef .tc main_arg1) := by
  stretch

set_option maxRecDepth 20000 in
set_option maxHeartbeats 2000000 in
theorem st2_keep_arg2 (V : Valuation τ sig (Elt F)) :
    after (((ops (F := F)).take 39).drop 15) V (Proc.devRef .tc main_arg2) = V (Proc.devRef .tc main_arg2) := by
  stretch

set_option maxRecDepth 20000 in
set_option maxHeartbeats 2000000 in
theorem st2_keep_arg3 (V : Valuation τ sig (Elt F)) :
    after (((ops (F := F)).take 39).drop 15) V (Proc.devRef .tc main_arg3) = V (Proc.devRef .tc main_arg3) := by
  stretch

/-! ### Operations 39 to 54 -/

set_option maxRecDepth 20000 in
set_option maxHeartbeats 2000000 in
theorem st3_v15 (V : Valuation τ sig (Elt F)) (x0 : (⟨S8x19x512x512, .f32⟩ : BufTy).Contents (Elt F))
    (x1 : (⟨S8x512x512, .i32⟩ : BufTy).Contents (Elt F))
    (x2 : (⟨S19, .f32⟩ : BufTy).Contents (Elt F))
    (h0 : V (Proc.devRef .tc main_v3) = val_main_v3 (F := F) x0 x1) (h1 : V (Proc.devRef .tc main_arg1) = x1) (h2 : V (Proc.devRef .tc main_arg2) = x2) :
    after (((ops (F := F)).take 55).drop 39) V (Proc.devRef .tc main_v15) = val_main_v15 (F := F) x0 x1 x2 := by
  stretch
  simp only [ofBuf_toBuf, toBuf_main_arg0, toBuf_main_v0, toBuf_main_v1, toBuf_main_v2, toBuf_main_call1_v4, toBuf_main_call1_v5, toBuf_main_v35, toBuf_main_v36, toBuf_main_v37, toBuf_main_call2_v4, toBuf_main_call2_v5, ofBuf_main_arg0, ofBuf_main_v0, ofBuf_main_v1, ofBuf_main_v2, ofBuf_main_call1_v4, ofBuf_main_call1_v5, ofBuf_main_v35, ofBuf_main_v36, ofBuf_main_v37, ofBuf_main_call2_v4, ofBuf_main_call2_v5, h0, h1, h2]
  rfl

set_option maxRecDepth 20000 in
set_option maxHeartbeats 2000000 in
theorem st3_keep_v0 (V : Valuation τ sig (Elt F)) :
    after (((ops (F := F)).take 55).drop 39) V (Proc.devRef .tc main_v0) = V (Proc.devRef .tc main_v0) := by
  stretch

set_option maxRecDepth 20000 in
set_option maxHeartbeats 2000000 in
theorem st3_keep_v3 (V : Valuation τ sig (Elt F)) :
    after (((ops (F := F)).take 55).drop 39) V (Proc.devRef .tc main_v3) = V (Proc.devRef .tc main_v3) := by
  stretch

set_option maxRecDepth 20000 in
set_option maxHeartbeats 2000000 in
theorem st3_keep_arg1 (V : Valuation τ sig (Elt F)) :
    after (((ops (F := F)).take 55).drop 39) V (Proc.devRef .tc main_arg1) = V (Proc.devRef .tc main_arg1) := by
  stretch

set_option maxRecDepth 20000 in
set_option maxHeartbeats 2000000 in
theorem st3_keep_arg2 (V : Valuation τ sig (Elt F)) :
    after (((ops (F := F)).take 55).drop 39) V (Proc.devRef .tc main_arg2) = V (Proc.devRef .tc main_arg2) := by
  stretch

set_option maxRecDepth 20000 in
set_option maxHeartbeats 2000000 in
theorem st3_keep_arg3 (V : Valuation τ sig (Elt F)) :
    after (((ops (F := F)).take 55).drop 39) V (Proc.devRef .tc main_arg3) = V (Proc.devRef .tc main_arg3) := by
  stretch

/-! ### Operations 55 to 80 -/

set_option maxRecDepth 20000 in
set_option maxHeartbeats 2000000 in
theorem st4_v34 (V : Valuation τ sig (Elt F)) (x0 : (⟨S8x19x512x512, .f32⟩ : BufTy).Contents (Elt F))
    (x1 : (⟨S8x512x512, .i32⟩ : BufTy).Contents (Elt F))
    (x3 : (⟨S19, .f32⟩ : BufTy).Contents (Elt F))
    (h0 : V (Proc.devRef .tc main_v3) = val_main_v3 (F := F) x0 x1) (h1 : V (Proc.devRef .tc main_arg1) = x1) (h2 : V (Proc.devRef .tc main_arg3) = x3) :
    after (((ops (F := F)).take 81).drop 55) V (Proc.devRef .tc main_v34) = val_main_v34 (F := F) x0 x1 x3 := by
  stretch
  simp only [ofBuf_toBuf, toBuf_main_arg0, toBuf_main_v0, toBuf_main_v1, toBuf_main_v2, toBuf_main_call1_v4, toBuf_main_call1_v5, toBuf_main_v35, toBuf_main_v36, toBuf_main_v37, toBuf_main_call2_v4, toBuf_main_call2_v5, ofBuf_main_arg0, ofBuf_main_v0, ofBuf_main_v1, ofBuf_main_v2, ofBuf_main_call1_v4, ofBuf_main_call1_v5, ofBuf_main_v35, ofBuf_main_v36, ofBuf_main_v37, ofBuf_main_call2_v4, ofBuf_main_call2_v5, h0, h1, h2]
  rfl

set_option maxRecDepth 20000 in
set_option maxHeartbeats 2000000 in
theorem st4_keep_v0 (V : Valuation τ sig (Elt F)) :
    after (((ops (F := F)).take 81).drop 55) V (Proc.devRef .tc main_v0) = V (Proc.devRef .tc main_v0) := by
  stretch

set_option maxRecDepth 20000 in
set_option maxHeartbeats 2000000 in
theorem st4_keep_v15 (V : Valuation τ sig (Elt F)) :
    after (((ops (F := F)).take 81).drop 55) V (Proc.devRef .tc main_v15) = V (Proc.devRef .tc main_v15) := by
  stretch

set_option maxRecDepth 20000 in
set_option maxHeartbeats 2000000 in
theorem st4_keep_arg1 (V : Valuation τ sig (Elt F)) :
    after (((ops (F := F)).take 81).drop 55) V (Proc.devRef .tc main_arg1) = V (Proc.devRef .tc main_arg1) := by
  stretch

set_option maxRecDepth 20000 in
set_option maxHeartbeats 2000000 in
theorem st4_keep_arg2 (V : Valuation τ sig (Elt F)) :
    after (((ops (F := F)).take 81).drop 55) V (Proc.devRef .tc main_arg2) = V (Proc.devRef .tc main_arg2) := by
  stretch

/-! ### Operations 81 to 105 -/

set_option maxRecDepth 20000 in
set_option maxHeartbeats 2000000 in
theorem st5_v35 (V : Valuation τ sig (Elt F)) (x0 : (⟨S8x19x512x512, .f32⟩ : BufTy).Contents (Elt F))
    (h0 : V (Proc.devRef .tc main_v0) = val_main_v0 (F := F) x0) :
    after (((ops (F := F)).take 106).drop 81) V (Proc.devRef .tc main_v35) = val_main_v35 (F := F) x0 := by
  stretch
  simp only [ofBuf_toBuf, toBuf_main_arg0, toBuf_main_v0, toBuf_main_v1, toBuf_main_v2, toBuf_main_call1_v4, toBuf_main_call1_v5, toBuf_main_v35, toBuf_main_v36, toBuf_main_v37, toBuf_main_call2_v4, toBuf_main_call2_v5, ofBuf_main_arg0, ofBuf_main_v0, ofBuf_main_v1, ofBuf_main_v2, ofBuf_main_call1_v4, ofBuf_main_call1_v5, ofBuf_main_v35, ofBuf_main_v36, ofBuf_main_v37, ofBuf_main_call2_v4, ofBuf_main_call2_v5, h0]
  rfl

set_option maxRecDepth 20000 in
set_option maxHeartbeats 2000000 in
theorem st5_v38 (V : Valuation τ sig (Elt F)) (x0 : (⟨S8x19x512x512, .f32⟩ : BufTy).Contents (Elt F))
    (x1 : (⟨S8x512x512, .i32⟩ : BufTy).Contents (Elt F))
    (h0 : V (Proc.devRef .tc main_v0) = val_main_v0 (F := F) x0) (h1 : V (Proc.devRef .tc main_arg1) = x1) :
    after (((ops (F := F)).take 106).drop 81) V (Proc.devRef .tc main_v38) = val_main_v38 (F := F) x0 x1 := by
  stretch
  simp only [ofBuf_toBuf, toBuf_main_arg0, toBuf_main_v0, toBuf_main_v1, toBuf_main_v2, toBuf_main_call1_v4, toBuf_main_call1_v5, toBuf_main_v35, toBuf_main_v36, toBuf_main_v37, toBuf_main_call2_v4, toBuf_main_call2_v5, ofBuf_main_arg0, ofBuf_main_v0, ofBuf_main_v1, ofBuf_main_v2, ofBuf_main_call1_v4, ofBuf_main_call1_v5, ofBuf_main_v35, ofBuf_main_v36, ofBuf_main_v37, ofBuf_main_call2_v4, ofBuf_main_call2_v5, h0, h1]
  rfl

set_option maxRecDepth 20000 in
set_option maxHeartbeats 2000000 in
theorem st5_keep_v15 (V : Valuation τ sig (Elt F)) :
    after (((ops (F := F)).take 106).drop 81) V (Proc.devRef .tc main_v15) = V (Proc.devRef .tc main_v15) := by
  stretch

set_option maxRecDepth 20000 in
set_option maxHeartbeats 2000000 in
theorem st5_keep_v34 (V : Valuation τ sig (Elt F)) :
    after (((ops (F := F)).take 106).drop 81) V (Proc.devRef .tc main_v34) = V (Proc.devRef .tc main_v34) := by
  stretch

set_option maxRecDepth 20000 in
set_option maxHeartbeats 2000000 in
theorem st5_keep_arg1 (V : Valuation τ sig (Elt F)) :
    after (((ops (F := F)).take 106).drop 81) V (Proc.devRef .tc main_arg1) = V (Proc.devRef .tc main_arg1) := by
  stretch

set_option maxRecDepth 20000 in
set_option maxHeartbeats 2000000 in
theorem st5_keep_arg2 (V : Valuation τ sig (Elt F)) :
    after (((ops (F := F)).take 106).drop 81) V (Proc.devRef .tc main_arg2) = V (Proc.devRef .tc main_arg2) := by
  stretch

/-! ### Operations 106 to 118 -/

set_option maxRecDepth 20000 in
set_option maxHeartbeats 2000000 in
theorem st6_v39 (V : Valuation τ sig (Elt F)) (x1 : (⟨S8x512x512, .i32⟩ : BufTy).Contents (Elt F))
    (h0 : V (Proc.devRef .tc main_arg1) = x1) :
    after (((ops (F := F)).take 119).drop 106) V (Proc.devRef .tc main_v39) = val_main_v39 (F := F) x1 := by
  stretch
  simp only [ofBuf_toBuf, toBuf_main_arg0, toBuf_main_v0, toBuf_main_v1, toBuf_main_v2, toBuf_main_call1_v4, toBuf_main_call1_v5, toBuf_main_v35, toBuf_main_v36, toBuf_main_v37, toBuf_main_call2_v4, toBuf_main_call2_v5, ofBuf_main_arg0, ofBuf_main_v0, ofBuf_main_v1, ofBuf_main_v2, ofBuf_main_call1_v4, ofBuf_main_call1_v5, ofBuf_main_v35, ofBuf_main_v36, ofBuf_main_v37, ofBuf_main_call2_v4, ofBuf_main_call2_v5, h0]
  rfl

set_option maxRecDepth 20000 in
set_option maxHeartbeats 2000000 in
theorem st6_v48 (V : Valuation τ sig (Elt F)) (x0 : (⟨S8x19x512x512, .f32⟩ : BufTy).Contents (Elt F))
    (x1 : (⟨S8x512x512, .i32⟩ : BufTy).Contents (Elt F))
    (h0 : V (Proc.devRef .tc main_arg1) = x1) (h1 : V (Proc.devRef .tc main_v38) = val_main_v38 (F := F) x0 x1) :
    after (((ops (F := F)).take 119).drop 106) V (Proc.devRef .tc main_v48) = val_main_v48 (F := F) x0 x1 := by
  stretch
  simp only [ofBuf_toBuf, toBuf_main_arg0, toBuf_main_v0, toBuf_main_v1, toBuf_main_v2, toBuf_main_call1_v4, toBuf_main_call1_v5, toBuf_main_v35, toBuf_main_v36, toBuf_main_v37, toBuf_main_call2_v4, toBuf_main_call2_v5, ofBuf_main_arg0, ofBuf_main_v0, ofBuf_main_v1, ofBuf_main_v2, ofBuf_main_call1_v4, ofBuf_main_call1_v5, ofBuf_main_v35, ofBuf_main_v36, ofBuf_main_v37, ofBuf_main_call2_v4, ofBuf_main_call2_v5, h0, h1]
  rfl

set_option maxRecDepth 20000 in
set_option maxHeartbeats 2000000 in
theorem st6_keep_v15 (V : Valuation τ sig (Elt F)) :
    after (((ops (F := F)).take 119).drop 106) V (Proc.devRef .tc main_v15) = V (Proc.devRef .tc main_v15) := by
  stretch

set_option maxRecDepth 20000 in
set_option maxHeartbeats 2000000 in
theorem st6_keep_v34 (V : Valuation τ sig (Elt F)) :
    after (((ops (F := F)).take 119).drop 106) V (Proc.devRef .tc main_v34) = V (Proc.devRef .tc main_v34) := by
  stretch

set_option maxRecDepth 20000 in
set_option maxHeartbeats 2000000 in
theorem st6_keep_v35 (V : Valuation τ sig (Elt F)) :
    after (((ops (F := F)).take 119).drop 106) V (Proc.devRef .tc main_v35) = V (Proc.devRef .tc main_v35) := by
  stretch

set_option maxRecDepth 20000 in
set_option maxHeartbeats 2000000 in
theorem st6_keep_arg2 (V : Valuation τ sig (Elt F)) :
    after (((ops (F := F)).take 119).drop 106) V (Proc.devRef .tc main_arg2) = V (Proc.devRef .tc main_arg2) := by
  stretch

/-! ### Operations 119 to 131 -/

set_option maxRecDepth 20000 in
set_option maxHeartbeats 2000000 in
theorem st7_v57 (V : Valuation τ sig (Elt F)) (x1 : (⟨S8x512x512, .i32⟩ : BufTy).Contents (Elt F))
    (h0 : V (Proc.devRef .tc main_v39) = val_main_v39 (F := F) x1) :
    after (((ops (F := F)).take 132).drop 119) V (Proc.devRef .tc main_v57) = val_main_v57 (F := F) x1 := by
  stretch
  simp only [ofBuf_toBuf, toBuf_main_arg0, toBuf_main_v0, toBuf_main_v1, toBuf_main_v2, toBuf_main_call1_v4, toBuf_main_call1_v5, toBuf_main_v35, toBuf_main_v36, toBuf_main_v37, toBuf_main_call2_v4, toBuf_main_call2_v5, ofBuf_main_arg0, ofBuf_main_v0, ofBuf_main_v1, ofBuf_main_v2, ofBuf_main_call1_v4, ofBuf_main_call1_v5, ofBuf_main_v35, ofBuf_main_v36, ofBuf_main_v37, ofBuf_main_call2_v4, ofBuf_main_call2_v5, h0]
  rfl

set_option maxRecDepth 20000 in
set_option maxHeartbeats 2000000 in
theorem st7_keep_v15 (V : Valuation τ sig (Elt F)) :
    after (((ops (F := F)).take 132).drop 119) V (Proc.devRef .tc main_v15) = V (Proc.devRef .tc main_v15) := by
  stretch

set_option maxRecDepth 20000 in
set_option maxHeartbeats 2000000 in
theorem st7_keep_v34 (V : Valuation τ sig (Elt F)) :
    after (((ops (F := F)).take 132).drop 119) V (Proc.devRef .tc main_v34) = V (Proc.devRef .tc main_v34) := by
  stretch

set_option maxRecDepth 20000 in
set_option maxHeartbeats 2000000 in
theorem st7_keep_v35 (V : Valuation τ sig (Elt F)) :
    after (((ops (F := F)).take 132).drop 119) V (Proc.devRef .tc main_v35) = V (Proc.devRef .tc main_v35) := by
  stretch

set_option maxRecDepth 20000 in
set_option maxHeartbeats 2000000 in
theorem st7_keep_v48 (V : Valuation τ sig (Elt F)) :
    after (((ops (F := F)).take 132).drop 119) V (Proc.devRef .tc main_v48) = V (Proc.devRef .tc main_v48) := by
  stretch

set_option maxRecDepth 20000 in
set_option maxHeartbeats 2000000 in
theorem st7_keep_arg2 (V : Valuation τ sig (Elt F)) :
    after (((ops (F := F)).take 132).drop 119) V (Proc.devRef .tc main_arg2) = V (Proc.devRef .tc main_arg2) := by
  stretch

/-! ### Operations 132 to 163 -/

set_option maxRecDepth 20000 in
set_option maxHeartbeats 2000000 in
theorem st8_v78 (V : Valuation τ sig (Elt F)) (x0 : (⟨S8x19x512x512, .f32⟩ : BufTy).Contents (Elt F))
    (x1 : (⟨S8x512x512, .i32⟩ : BufTy).Contents (Elt F))
    (x2 : (⟨S19, .f32⟩ : BufTy).Contents (Elt F))
    (x3 : (⟨S19, .f32⟩ : BufTy).Contents (Elt F))
    (h0 : V (Proc.devRef .tc main_v35) = val_main_v35 (F := F) x0) (h1 : V (Proc.devRef .tc main_v48) = val_main_v48 (F := F) x0 x1) (h2 : V (Proc.devRef .tc main_v57) = val_main_v57 (F := F) x1) (h3 : V (Proc.devRef .tc main_arg2) = x2) (h4 : V (Proc.devRef .tc main_v15) = val_main_v15 (F := F) x0 x1 x2) (h5 : V (Proc.devRef .tc main_v34) = val_main_v34 (F := F) x0 x1 x3) :
    after ((ops (F := F)).drop 132) V (Proc.devRef .tc main_v78) = val_main_v78 (F := F) x0 x1 x2 x3 := by
  stretch
  simp only [ofBuf_toBuf, toBuf_main_arg0, toBuf_main_v0, toBuf_main_v1, toBuf_main_v2, toBuf_main_call1_v4, toBuf_main_call1_v5, toBuf_main_v35, toBuf_main_v36, toBuf_main_v37, toBuf_main_call2_v4, toBuf_main_call2_v5, ofBuf_main_arg0, ofBuf_main_v0, ofBuf_main_v1, ofBuf_main_v2, ofBuf_main_call1_v4, ofBuf_main_call1_v5, ofBuf_main_v35, ofBuf_main_v36, ofBuf_main_v37, ofBuf_main_call2_v4, ofBuf_main_call2_v5, h0, h1, h2, h3, h4, h5]
  rfl

/-! ### What each prefix of the line leaves, in terms of the arguments' contents -/

theorem pre1_v0 (V : Valuation τ sig (Elt F)) :
    after ((ops (F := F)).take 15) V (Proc.devRef .tc main_v0) = val_main_v0 (F := F) (V (Proc.devRef .tc main_arg0)) :=
  st1_v0 V _ rfl

theorem pre1_arg1 (V : Valuation τ sig (Elt F)) :
    after ((ops (F := F)).take 15) V (Proc.devRef .tc main_arg1) = (V (Proc.devRef .tc main_arg1)) :=
  st1_keep_arg1 V

theorem pre1_arg2 (V : Valuation τ sig (Elt F)) :
    after ((ops (F := F)).take 15) V (Proc.devRef .tc main_arg2) = (V (Proc.devRef .tc main_arg2)) :=
  st1_keep_arg2 V

theorem pre1_arg3 (V : Valuation τ sig (Elt F)) :
    after ((ops (F := F)).take 15) V (Proc.devRef .tc main_arg3) = (V (Proc.devRef .tc main_arg3)) :=
  st1_keep_arg3 V

theorem pre2_v3 (V : Valuation τ sig (Elt F)) :
    after ((ops (F := F)).take 39) V (Proc.devRef .tc main_v3) = val_main_v3 (F := F) (V (Proc.devRef .tc main_arg0)) (V (Proc.devRef .tc main_arg1)) := by
  rw [after_take_split 15 39 (by decide)]
  exact st2_v3 _ _ _ (pre1_v0 V) (pre1_arg1 V)

theorem pre2_v0 (V : Valuation τ sig (Elt F)) :
    after ((ops (F := F)).take 39) V (Proc.devRef .tc main_v0) = val_main_v0 (F := F) (V (Proc.devRef .tc main_arg0)) := by
  rw [after_take_split 15 39 (by decide), st2_keep_v0]
  exact pre1_v0 V

theorem pre2_arg1 (V : Valuation τ sig (Elt F)) :
    after ((ops (F := F)).take 39) V (Proc.devRef .tc main_arg1) = (V (Proc.devRef .tc main_arg1)) := by
  rw [after_take_split 15 39 (by decide), st2_keep_arg1]
  exact pre1_arg1 V

theorem pre2_arg2 (V : Valuation τ sig (Elt F)) :
    after ((ops (F := F)).take 39) V (Proc.devRef .tc main_arg2) = (V (Proc.devRef .tc main_arg2)) := by
  rw [after_take_split 15 39 (by decide), st2_keep_arg2]
  exact pre1_arg2 V

theorem pre2_arg3 (V : Valuation τ sig (Elt F)) :
    after ((ops (F := F)).take 39) V (Proc.devRef .tc main_arg3) = (V (Proc.devRef .tc main_arg3)) := by
  rw [after_take_split 15 39 (by decide), st2_keep_arg3]
  exact pre1_arg3 V

theorem pre3_v15 (V : Valuation τ sig (Elt F)) :
    after ((ops (F := F)).take 55) V (Proc.devRef .tc main_v15) = val_main_v15 (F := F) (V (Proc.devRef .tc main_arg0)) (V (Proc.devRef .tc main_arg1)) (V (Proc.devRef .tc main_arg2)) := by
  rw [after_take_split 39 55 (by decide)]
  exact st3_v15 _ _ _ _ (pre2_v3 V) (pre2_arg1 V) (pre2_arg2 V)

theorem pre3_v0 (V : Valuation τ sig (Elt F)) :
    after ((ops (F := F)).take 55) V (Proc.devRef .tc main_v0) = val_main_v0 (F := F) (V (Proc.devRef .tc main_arg0)) := by
  rw [after_take_split 39 55 (by decide), st3_keep_v0]
  exact pre2_v0 V

theorem pre3_v3 (V : Valuation τ sig (Elt F)) :
    after ((ops (F := F)).take 55) V (Proc.devRef .tc main_v3) = val_main_v3 (F := F) (V (Proc.devRef .tc main_arg0)) (V (Proc.devRef .tc main_arg1)) := by
  rw [after_take_split 39 55 (by decide), st3_keep_v3]
  exact pre2_v3 V

theorem pre3_arg1 (V : Valuation τ sig (Elt F)) :
    after ((ops (F := F)).take 55) V (Proc.devRef .tc main_arg1) = (V (Proc.devRef .tc main_arg1)) := by
  rw [after_take_split 39 55 (by decide), st3_keep_arg1]
  exact pre2_arg1 V

theorem pre3_arg2 (V : Valuation τ sig (Elt F)) :
    after ((ops (F := F)).take 55) V (Proc.devRef .tc main_arg2) = (V (Proc.devRef .tc main_arg2)) := by
  rw [after_take_split 39 55 (by decide), st3_keep_arg2]
  exact pre2_arg2 V

theorem pre3_arg3 (V : Valuation τ sig (Elt F)) :
    after ((ops (F := F)).take 55) V (Proc.devRef .tc main_arg3) = (V (Proc.devRef .tc main_arg3)) := by
  rw [after_take_split 39 55 (by decide), st3_keep_arg3]
  exact pre2_arg3 V

theorem pre4_v34 (V : Valuation τ sig (Elt F)) :
    after ((ops (F := F)).take 81) V (Proc.devRef .tc main_v34) = val_main_v34 (F := F) (V (Proc.devRef .tc main_arg0)) (V (Proc.devRef .tc main_arg1)) (V (Proc.devRef .tc main_arg3)) := by
  rw [after_take_split 55 81 (by decide)]
  exact st4_v34 _ _ _ _ (pre3_v3 V) (pre3_arg1 V) (pre3_arg3 V)

theorem pre4_v0 (V : Valuation τ sig (Elt F)) :
    after ((ops (F := F)).take 81) V (Proc.devRef .tc main_v0) = val_main_v0 (F := F) (V (Proc.devRef .tc main_arg0)) := by
  rw [after_take_split 55 81 (by decide), st4_keep_v0]
  exact pre3_v0 V

theorem pre4_v15 (V : Valuation τ sig (Elt F)) :
    after ((ops (F := F)).take 81) V (Proc.devRef .tc main_v15) = val_main_v15 (F := F) (V (Proc.devRef .tc main_arg0)) (V (Proc.devRef .tc main_arg1)) (V (Proc.devRef .tc main_arg2)) := by
  rw [after_take_split 55 81 (by decide), st4_keep_v15]
  exact pre3_v15 V

theorem pre4_arg1 (V : Valuation τ sig (Elt F)) :
    after ((ops (F := F)).take 81) V (Proc.devRef .tc main_arg1) = (V (Proc.devRef .tc main_arg1)) := by
  rw [after_take_split 55 81 (by decide), st4_keep_arg1]
  exact pre3_arg1 V

theorem pre4_arg2 (V : Valuation τ sig (Elt F)) :
    after ((ops (F := F)).take 81) V (Proc.devRef .tc main_arg2) = (V (Proc.devRef .tc main_arg2)) := by
  rw [after_take_split 55 81 (by decide), st4_keep_arg2]
  exact pre3_arg2 V

theorem pre5_v35 (V : Valuation τ sig (Elt F)) :
    after ((ops (F := F)).take 106) V (Proc.devRef .tc main_v35) = val_main_v35 (F := F) (V (Proc.devRef .tc main_arg0)) := by
  rw [after_take_split 81 106 (by decide)]
  exact st5_v35 _ _ (pre4_v0 V)

theorem pre5_v38 (V : Valuation τ sig (Elt F)) :
    after ((ops (F := F)).take 106) V (Proc.devRef .tc main_v38) = val_main_v38 (F := F) (V (Proc.devRef .tc main_arg0)) (V (Proc.devRef .tc main_arg1)) := by
  rw [after_take_split 81 106 (by decide)]
  exact st5_v38 _ _ _ (pre4_v0 V) (pre4_arg1 V)

theorem pre5_v15 (V : Valuation τ sig (Elt F)) :
    after ((ops (F := F)).take 106) V (Proc.devRef .tc main_v15) = val_main_v15 (F := F) (V (Proc.devRef .tc main_arg0)) (V (Proc.devRef .tc main_arg1)) (V (Proc.devRef .tc main_arg2)) := by
  rw [after_take_split 81 106 (by decide), st5_keep_v15]
  exact pre4_v15 V

theorem pre5_v34 (V : Valuation τ sig (Elt F)) :
    after ((ops (F := F)).take 106) V (Proc.devRef .tc main_v34) = val_main_v34 (F := F) (V (Proc.devRef .tc main_arg0)) (V (Proc.devRef .tc main_arg1)) (V (Proc.devRef .tc main_arg3)) := by
  rw [after_take_split 81 106 (by decide), st5_keep_v34]
  exact pre4_v34 V

theorem pre5_arg1 (V : Valuation τ sig (Elt F)) :
    after ((ops (F := F)).take 106) V (Proc.devRef .tc main_arg1) = (V (Proc.devRef .tc main_arg1)) := by
  rw [after_take_split 81 106 (by decide), st5_keep_arg1]
  exact pre4_arg1 V

theorem pre5_arg2 (V : Valuation τ sig (Elt F)) :
    after ((ops (F := F)).take 106) V (Proc.devRef .tc main_arg2) = (V (Proc.devRef .tc main_arg2)) := by
  rw [after_take_split 81 106 (by decide), st5_keep_arg2]
  exact pre4_arg2 V

theorem pre6_v39 (V : Valuation τ sig (Elt F)) :
    after ((ops (F := F)).take 119) V (Proc.devRef .tc main_v39) = val_main_v39 (F := F) (V (Proc.devRef .tc main_arg1)) := by
  rw [after_take_split 106 119 (by decide)]
  exact st6_v39 _ _ (pre5_arg1 V)

theorem pre6_v48 (V : Valuation τ sig (Elt F)) :
    after ((ops (F := F)).take 119) V (Proc.devRef .tc main_v48) = val_main_v48 (F := F) (V (Proc.devRef .tc main_arg0)) (V (Proc.devRef .tc main_arg1)) := by
  rw [after_take_split 106 119 (by decide)]
  exact st6_v48 _ _ _ (pre5_arg1 V) (pre5_v38 V)

theorem pre6_v15 (V : Valuation τ sig (Elt F)) :
    after ((ops (F := F)).take 119) V (Proc.devRef .tc main_v15) = val_main_v15 (F := F) (V (Proc.devRef .tc main_arg0)) (V (Proc.devRef .tc main_arg1)) (V (Proc.devRef .tc main_arg2)) := by
  rw [after_take_split 106 119 (by decide), st6_keep_v15]
  exact pre5_v15 V

theorem pre6_v34 (V : Valuation τ sig (Elt F)) :
    after ((ops (F := F)).take 119) V (Proc.devRef .tc main_v34) = val_main_v34 (F := F) (V (Proc.devRef .tc main_arg0)) (V (Proc.devRef .tc main_arg1)) (V (Proc.devRef .tc main_arg3)) := by
  rw [after_take_split 106 119 (by decide), st6_keep_v34]
  exact pre5_v34 V

theorem pre6_v35 (V : Valuation τ sig (Elt F)) :
    after ((ops (F := F)).take 119) V (Proc.devRef .tc main_v35) = val_main_v35 (F := F) (V (Proc.devRef .tc main_arg0)) := by
  rw [after_take_split 106 119 (by decide), st6_keep_v35]
  exact pre5_v35 V

theorem pre6_arg2 (V : Valuation τ sig (Elt F)) :
    after ((ops (F := F)).take 119) V (Proc.devRef .tc main_arg2) = (V (Proc.devRef .tc main_arg2)) := by
  rw [after_take_split 106 119 (by decide), st6_keep_arg2]
  exact pre5_arg2 V

theorem pre7_v57 (V : Valuation τ sig (Elt F)) :
    after ((ops (F := F)).take 132) V (Proc.devRef .tc main_v57) = val_main_v57 (F := F) (V (Proc.devRef .tc main_arg1)) := by
  rw [after_take_split 119 132 (by decide)]
  exact st7_v57 _ _ (pre6_v39 V)

theorem pre7_v15 (V : Valuation τ sig (Elt F)) :
    after ((ops (F := F)).take 132) V (Proc.devRef .tc main_v15) = val_main_v15 (F := F) (V (Proc.devRef .tc main_arg0)) (V (Proc.devRef .tc main_arg1)) (V (Proc.devRef .tc main_arg2)) := by
  rw [after_take_split 119 132 (by decide), st7_keep_v15]
  exact pre6_v15 V

theorem pre7_v34 (V : Valuation τ sig (Elt F)) :
    after ((ops (F := F)).take 132) V (Proc.devRef .tc main_v34) = val_main_v34 (F := F) (V (Proc.devRef .tc main_arg0)) (V (Proc.devRef .tc main_arg1)) (V (Proc.devRef .tc main_arg3)) := by
  rw [after_take_split 119 132 (by decide), st7_keep_v34]
  exact pre6_v34 V

theorem pre7_v35 (V : Valuation τ sig (Elt F)) :
    after ((ops (F := F)).take 132) V (Proc.devRef .tc main_v35) = val_main_v35 (F := F) (V (Proc.devRef .tc main_arg0)) := by
  rw [after_take_split 119 132 (by decide), st7_keep_v35]
  exact pre6_v35 V

theorem pre7_v48 (V : Valuation τ sig (Elt F)) :
    after ((ops (F := F)).take 132) V (Proc.devRef .tc main_v48) = val_main_v48 (F := F) (V (Proc.devRef .tc main_arg0)) (V (Proc.devRef .tc main_arg1)) := by
  rw [after_take_split 119 132 (by decide), st7_keep_v48]
  exact pre6_v48 V

theorem pre7_arg2 (V : Valuation τ sig (Elt F)) :
    after ((ops (F := F)).take 132) V (Proc.devRef .tc main_arg2) = (V (Proc.devRef .tc main_arg2)) := by
  rw [after_take_split 119 132 (by decide), st7_keep_arg2]
  exact pre6_arg2 V

/-! ## The whole line -/

/-- What the 164 operations leave in the result buffer, from ANY contents of the buffers: the last stage at the four
    arguments' contents. -/
theorem after_main_v78 (V : Valuation τ sig (Elt F)) :
    after (ops (F := F)) V (Proc.devRef .tc main_v78)
      = val_main_v78 (F := F) (V (Proc.devRef .tc main_arg0)) (V (Proc.devRef .tc main_arg1))
          (V (Proc.devRef .tc main_arg2)) (V (Proc.devRef .tc main_arg3)) := by
  rw [after_split 132 (ops (F := F)) V]
  exact st8_v78 _ _ _ _ _ (pre7_v35 V) (pre7_v48 V) (pre7_v57 V) (pre7_arg2 V) (pre7_v15 V) (pre7_v34 V)

set_option maxRecDepth 20000 in
set_option maxHeartbeats 4000000 in
/-- No operation writes an argument. -/
theorem after_main_arg0 (V : Valuation τ sig (Elt F)) : after (ops (F := F)) V (Proc.devRef .tc main_arg0) = V (Proc.devRef .tc main_arg0) := by
  unfold ops
  after_results_simp
set_option maxRecDepth 20000 in
set_option maxHeartbeats 4000000 in
theorem after_main_arg1 (V : Valuation τ sig (Elt F)) : after (ops (F := F)) V (Proc.devRef .tc main_arg1) = V (Proc.devRef .tc main_arg1) := by
  unfold ops
  after_results_simp
set_option maxRecDepth 20000 in
set_option maxHeartbeats 4000000 in
theorem after_main_arg2 (V : Valuation τ sig (Elt F)) : after (ops (F := F)) V (Proc.devRef .tc main_arg2) = V (Proc.devRef .tc main_arg2) := by
  unfold ops
  after_results_simp
set_option maxRecDepth 20000 in
set_option maxHeartbeats 4000000 in
theorem after_main_arg3 (V : Valuation τ sig (Elt F)) : after (ops (F := F)) V (Proc.devRef .tc main_arg3) = V (Proc.devRef .tc main_arg3) := by
  unfold ops
  after_results_simp

/-- On every device, for any float values, from any memory with zero counters: every weakly fair execution of @main
    terminates with the result at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78)
          = val_main_v78 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v78).trans (after_main_v78 _),
      (h c main_arg0).trans (after_main_arg0 _),
      (h c main_arg1).trans (after_main_arg1 _),
      (h c main_arg2).trans (after_main_arg2 _),
      (h c main_arg3).trans (after_main_arg3 _)⟩)
    (run_seq scopedRefs_eq scopedSems_eq defs main (fun _ => ops) main_eq (fun _ => ops_sub) m ρ)

end Cert.ReferenceIdeal.Value

end
-- ==== Proof.PreFacts.lean ====
/-
  What the precondition says, element by element: every score, class weight and focal weight is a finite number
  (the coercion of a real), and every label is the word of one of the 19 classes.
-/
import proofs.«411635_j77653008712127_2_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.Pre_finite_inputs.Decode

open Idealize.ShloMosaic Idealize.ShloMosaic.ValueIdx Cert.Pre_finite_inputs

variable [Cert.Pre_finite_inputs.Facts]

/-- The 32-bit pattern with an all-ones exponent, zero fraction and clear sign denotes +∞. -/
theorem inf_bits : Ideal.ofBits .f32 0x7F800000#32 = (⊤ : EReal) := by
  simp [Ideal.ofBits, Ideal.ieee]

/-- |x| < +∞, with |x| = max x (-x), excludes both infinities: x is the coercion of its real part. -/
theorem finite_of_abs_lt (x : Ideal .f32)
    (hx : FloatOps.cmpf (F := Ideal) .olt (FloatOps.hostAbsf x) (FloatOps.ofBits .f32 0x7F800000#32) = 1#1) :
    x = (((x : EReal).toReal : ℝ) : EReal) := by
  have hx' : Ideal.cmp .olt (max (x : EReal) (-x)) (Ideal.ofBits .f32 0x7F800000#32) = 1#1 := hx
  rw [inf_bits] at hx'
  simp only [Ideal.cmp, StableHlo.Predicate.ofBool_eq_one_iff, decide_eq_true_eq] at hx'
  -- x = ⊤ gives max ⊤ ⊥ = ⊤, and x = ⊥ gives max ⊥ ⊤ = ⊤: neither is below ⊤
  have h1 : (x : EReal) ≠ ⊤ := by
    rintro rfl
    simp at hx'
  have h2 : (x : EReal) ≠ ⊥ := by
    rintro rfl
    simp at hx'
  exact (EReal.coe_toReal h1 h2).symm

/-- A 32-bit word t with 0 ≤ t and t < 19 as signed integers is the word of some k < 19: its signed and unsigned
    readings agree, and the unsigned one is below 19. -/
theorem class_of_range (t : BitVec 32) (h1 : IntOp.cmpi .sge t 0#32 = 1#1) (h2 : IntOp.cmpi .slt t 19#32 = 1#1) :
    ∃ k : Fin 19, t = BitVec.ofNat 32 k.val := by
  simp only [IntOp.cmpi, StableHlo.Predicate.ofBool_eq_one_iff, BitVec.sle, BitVec.slt, decide_eq_true_eq] at h1 h2
  have e0 : (0#32 : BitVec 32).toInt = 0 := by decide
  have e19 : (19#32 : BitVec 32).toInt = 19 := by decide
  rw [e0] at h1
  rw [e19] at h2
  have hc := BitVec.toInt_eq_toNat_cond t
  have hlt := t.isLt
  have hn : t.toNat < 19 := by
    split at hc <;> omega
  refine ⟨⟨t.toNat, hn⟩, ?_⟩
  apply BitVec.eq_of_toNat_eq
  simp only [BitVec.toNat_ofNat]
  omega

/-- The precondition read back: finite floats, labels in range. -/
theorem facts_of_pre (a0 : FVec Ideal S8x19x512x512 .f32) (a1 : IVec S8x512x512 32) (a2 a3 : FVec Ideal S19 .f32)
    (h : Cert.Pre_finite_inputs.fn (F := Ideal) a0 a1 a2 a3 = fun _ => 1#1) :
    (∀ i, a0 i = (((a0 i).toReal : ℝ) : EReal)) ∧ (∀ i, a2 i = (((a2 i).toReal : ℝ) : EReal))
      ∧ (∀ i, a3 i = (((a3 i).toReal : ℝ) : EReal)) ∧ (∀ i, ∃ k : Fin 19, a1 i = BitVec.ofNat 32 k.val) := by
  -- the rank-0 shape has exactly one index
  haveI : Subsingleton S_.Idx := ⟨fun a b => funext fun d => d.elim0⟩
  have h0 := congrFun h ValueIdx.ix0
  dsimp only [fn, fn_part1] at h0
  -- the scalar is the conjunction ((A ∧ B) ∧ C) ∧ D of four "for all elements" reductions
  obtain ⟨h123, hD⟩ := IntOp.andi_eq_one.1 h0
  obtain ⟨h12, hC⟩ := IntOp.andi_eq_one.1 h123
  obtain ⟨hA, hB⟩ := IntOp.andi_eq_one.1 h12
  refine ⟨fun i => ?_, fun i => ?_, fun i => ?_, fun i => ?_⟩
  · exact finite_of_abs_lt (a0 i) (Host.reduce_andi_all _ _ _ _ ix0 hA i)
  · exact finite_of_abs_lt (a2 i) (Host.reduce_andi_all _ _ _ _ ix0 hB i)
  · exact finite_of_abs_lt (a3 i) (Host.reduce_andi_all _ _ _ _ ix0 hC i)
  · -- at each label: (0 ≤ t) ∧ (t < 19), both signed
    obtain ⟨hge, hlt⟩ := IntOp.andi_eq_one.1 (Host.reduce_andi_all _ _ _ _ ix0 hD i)
    exact class_of_range (a1 i) hge hlt

end Cert.Pre_finite_inputs.Decode

end
-- ==== Proof.Pieces.lean ====
/-
  What one grid point leaves in the five running per-class sums and, at a core's last point, in the five outputs.

  The body keeps five accumulators of shape [19,1,1]: for the dice intersection, the class counts, the probability
  mass, the cross-entropy numerator and the focal numerator.  At every point it adds to each the block's per-class sum
  of the corresponding term; at a core's first point the accumulators are first set to zero; at a core's last point
  each accumulator, after its update, is also copied (with a leading unit axis) into the corresponding output block.
  The statements below say so for the three kinds of point, at any float instance.
-/
import proofs.«411635_j77653008712127_2_alg».proof.Proof.KernelIdealFrame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero vector the accumulators are reset to. -/
abbrev zeroAcc : Vec F S19x1x1 .f32 := k0_pay8

/-- One point's update of the intersection accumulator: the block's per-class sum of indicator × probability, added. -/
abbrev accInter (x0 : Vec F S1x19x128x512 .f32) (x1 : Vec F S1x128x512 .i32) (prev : Vec F S19x1x1 .f32) : Vec F S19x1x1 .f32 :=
  k0_pay23 (k0_pay16 x0) (k0_pay17 x1) prev
/-- One point's update of the count accumulator: the block's per-class sum of the indicator, added. -/
abbrev accCount (x0 : Vec F S1x19x128x512 .f32) (x1 : Vec F S1x128x512 .i32) (prev : Vec F S19x1x1 .f32) : Vec F S19x1x1 .f32 :=
  k0_pay22 (k0_pay17 x1) prev
/-- One point's update of the probability-mass accumulator. -/
abbrev accProb (x0 : Vec F S1x19x128x512 .f32) (x1 : Vec F S1x128x512 .i32) (prev : Vec F S19x1x1 .f32) : Vec F S19x1x1 .f32 :=
  k0_pay24 (k0_pay16 x0) prev
/-- One point's update of the cross-entropy accumulator: indicator × negative log-probability. -/
abbrev accCe (x0 : Vec F S1x19x128x512 .f32) (x1 : Vec F S1x128x512 .i32) (prev : Vec F S19x1x1 .f32) : Vec F S19x1x1 .f32 :=
  k0_pay1 (k0_pay21 (k0_pay17 x1) (k0_pay18 x0)) prev
/-- One point's update of the focal accumulator: indicator × (1 − max p ε)² × negative log-probability. -/
abbrev accFocal (x0 : Vec F S1x19x128x512 .f32) (x1 : Vec F S1x128x512 .i32) (prev : Vec F S19x1x1 .f32) : Vec F S19x1x1 .f32 :=
  k0_pay2 (k0_pay20 (k0_pay18 x0) (k0_pay19 x0 x1)) prev

/-- An accumulator with a leading unit axis, as an output block holds it. -/
abbrev lead (v : Vec F S19x1x1 .f32) : Vec F S1x19x1x1 .f32 := shapeCast S1x19x1x1 v shapeCasts_S19x1x1_S1x19x1x1

/-- The rank-3 zero offsets are the constant zero function. -/
theorem hz3 : (![0, 0, 0] : Fin 3 → Nat) = fun _ => 0 := funext fun a => by fin_cases a <;> rfl

/-- The rank-4 zero offsets are the constant zero function. -/
theorem hz4 : (![0, 0, 0, 0] : Fin 4 → Nat) = fun _ => 0 := funext fun a => by fin_cases a <;> rfl

/-! Every statement below is read off the same way: the stores into the buffer cover it, so what it holds afterwards is
    the payload of the last store through the whole-shape rectangle at zero offsets; the loads inside that payload go
    through whole-shape rectangles too, so they read the input blocks and the accumulator's previous contents as they
    are — at a core's first point the previous contents are the zero vector stored just before, and at a core's last
    point the output's payload reads the accumulator stored just before. -/

/-- A core's first point leaves the intersection accumulator at zero plus the block's sum. -/
theorem first_accInter (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : cond0_0 i) (hc1 : ¬cond0_1 i)
    (x0 : Vec F S1x19x128x512 .f32) (x1 : Vec F S1x128x512 .i32) :
    sout0_A_0 c i arg3 harg3 arg4 harg4 arg5 harg5 arg6 harg6 arg7 harg7 arg8 harg8 arg9 harg9 arg10 harg10 arg11 harg11 arg12 harg12 arg13 harg13 arg14 harg14 hc0 hc1 x0 x1 = accInter x0 x1 zeroAcc := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 x0 x1)]
  unfold kernelRun0_A
  dsimp only
  sl_unfold_words
  rw [View.canon_cons_unit_zero (S := S19x1x1) hz3, View.readCov_unit_zero (S := S19x1x1) _ hz3]
  simp only [View.readAt_eq_ld, harg3.read_unread, harg4.read_unread, View.ld_unit_zero (S := S1x19x128x512) hz4, View.ld_unit_zero (S := S1x128x512) hz3]

/-- A core's first point leaves the count accumulator at zero plus the block's sum. -/
theorem first_accCount (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : cond0_0 i) (hc1 : ¬cond0_1 i)
    (x0 : Vec F S1x19x128x512 .f32) (x1 : Vec F S1x128x512 .i32) :
    sout0_A_1 c i arg3 harg3 arg4 harg4 arg5 harg5 arg6 harg6 arg7 harg7 arg8 harg8 arg9 harg9 arg10 harg10 arg11 harg11 arg12 harg12 arg13 harg13 arg14 harg14 hc0 hc1 x0 x1 = accCount x0 x1 zeroAcc := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc1 x0 x1)]
  unfold kernelRun0_A
  dsimp only
  sl_unfold_words
  rw [View.canon_cons_unit_zero (S := S19x1x1) hz3, View.readCov_unit_zero (S := S19x1x1) _ hz3]
  simp only [View.readAt_eq_ld, harg4.read_unread, View.ld_unit_zero (S := S1x128x512) hz3]
  rfl

/-- A core's first point leaves the probability-mass accumulator at zero plus the block's sum. -/
theorem first_accProb (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : cond0_0 i) (hc1 : ¬cond0_1 i)
    (x0 : Vec F S1x19x128x512 .f32) (x1 : Vec F S1x128x512 .i32) :
    sout0_A_2 c i arg3 harg3 arg4 harg4 arg5 harg5 arg6 harg6 arg7 harg7 arg8 harg8 arg9 harg9 arg10 harg10 arg11 harg11 arg12 harg12 arg13 harg13 arg14 harg14 hc0 hc1 x0 x1 = accProb x0 x1 zeroAcc := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 hc0 hc1 x0 x1)]
  unfold kernelRun0_A
  dsimp only
  sl_unfold_words
  rw [View.canon_cons_unit_zero (S := S19x1x1) hz3, View.readCov_unit_zero (S := S19x1x1) _ hz3]
  simp only [View.readAt_eq_ld, harg3.read_unread, View.ld_unit_zero (S := S1x19x128x512) hz4]
  rfl

/-- A core's first point leaves the cross-entropy accumulator at zero plus the block's sum. -/
theorem first_accCe (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : cond0_0 i) (hc1 : ¬cond0_1 i)
    (x0 : Vec F S1x19x128x512 .f32) (x1 : Vec F S1x128x512 .i32) :
    sout0_A_3 c i arg3 harg3 arg4 harg4 arg5 harg5 arg6 harg6 arg7 harg7 arg8 harg8 arg9 harg9 arg10 harg10 arg11 harg11 arg12 harg12 arg13 harg13 arg14 harg14 hc0 hc1 x0 x1 = accCe x0 x1 zeroAcc := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 hc0 hc1 x0 x1)]
  unfold kernelRun0_A
  dsimp only
  sl_unfold_words
  rw [View.canon_cons_unit_zero (S := S19x1x1) hz3, View.readCov_unit_zero (S := S19x1x1) _ hz3]
  simp only [View.readAt_eq_ld, harg3.read_unread, harg4.read_unread, View.ld_unit_zero (S := S1x19x128x512) hz4, View.ld_unit_zero (S := S1x128x512) hz3]
  rfl

/-- A core's first point leaves the focal accumulator at zero plus the block's sum. -/
theorem first_accFocal (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : cond0_0 i) (hc1 : ¬cond0_1 i)
    (x0 : Vec F S1x19x128x512 .f32) (x1 : Vec F S1x128x512 .i32) :
    sout0_A_4 c i arg3 harg3 arg4 harg4 arg5 harg5 arg6 harg6 arg7 harg7 arg8 harg8 arg9 harg9 arg10 harg10 arg11 harg11 arg12 harg12 arg13 harg13 arg14 harg14 hc0 hc1 x0 x1 = accFocal x0 x1 zeroAcc := by
  unfold sout0_A_4
  rw [View.read_writes_eq_canon _ _ _ (scover0_A_4 c i arg3 harg3 arg4 harg4 arg5 harg5 arg6 harg6 arg7 harg7 arg8 harg8 arg9 harg9 arg10 harg10 arg11 harg11 arg12 harg12 arg13 harg13 arg14 harg14 hc0 hc1 x0 x1)]
  unfold kernelRun0_A
  dsimp only
  sl_unfold_words
  rw [View.canon_cons_unit_zero (S := S19x1x1) hz3, View.readCov_unit_zero (S := S19x1x1) _ hz3]
  simp only [View.readAt_eq_ld, harg3.read_unread, harg4.read_unread, View.ld_unit_zero (S := S1x19x128x512) hz4, View.ld_unit_zero (S := S1x128x512) hz3]
  rfl

/-- An interior point adds the block's sum to the intersection accumulator. -/
theorem mid_accInter (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : ¬cond0_0 i) (hc1 : ¬cond0_1 i)
    (x0 : Vec F S1x19x128x512 .f32) (x1 : Vec F S1x128x512 .i32) (xs0 : Vec F S19x1x1 .f32) (xs1 : Vec F S19x1x1 .f32) (xs2 : Vec F S19x1x1 .f32) (xs3 : Vec F S19x1x1 .f32) (xs4 : Vec F S19x1x1 .f32) :
    sout0_B_0 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 = accInter x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4)]
  unfold kernelRun0_B
  dsimp only
  sl_unfold_words
  rw [View.canon_unit_zero hz3]
  simp only [View.readAt_eq_ld, harg3.read_unread, harg4.read_unread, harg10.read_unread, View.ld_unit_zero (S := S1x19x128x512) hz4, View.ld_unit_zero (S := S1x128x512) hz3, View.ld_unit_zero (S := S19x1x1) hz3]

/-- An interior point adds the block's sum to the count accumulator. -/
theorem mid_accCount (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : ¬cond0_0 i) (hc1 : ¬cond0_1 i)
    (x0 : Vec F S1x19x128x512 .f32) (x1 : Vec F S1x128x512 .i32) (xs0 : Vec F S19x1x1 .f32) (xs1 : Vec F S19x1x1 .f32) (xs2 : Vec F S19x1x1 .f32) (xs3 : Vec F S19x1x1 .f32) (xs4 : Vec F S19x1x1 .f32) :
    sout0_B_1 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 = accCount x0 x1 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4)]
  unfold kernelRun0_B
  dsimp only
  sl_unfold_words
  rw [View.canon_unit_zero hz3]
  simp only [View.readAt_eq_ld, harg4.read_unread, harg11.read_unread, View.ld_unit_zero (S := S1x128x512) hz3, View.ld_unit_zero (S := S19x1x1) hz3]

/-- An interior point adds the block's sum to the probability-mass accumulator. -/
theorem mid_accProb (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : ¬cond0_0 i) (hc1 : ¬cond0_1 i)
    (x0 : Vec F S1x19x128x512 .f32) (x1 : Vec F S1x128x512 .i32) (xs0 : Vec F S19x1x1 .f32) (xs1 : Vec F S19x1x1 .f32) (xs2 : Vec F S19x1x1 .f32) (xs3 : Vec F S19x1x1 .f32) (xs4 : Vec F S19x1x1 .f32) :
    sout0_B_2 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 = accProb x0 x1 xs2 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4)]
  unfold kernelRun0_B
  dsimp only
  sl_unfold_words
  rw [View.canon_unit_zero hz3]
  simp only [View.readAt_eq_ld, harg3.read_unread, harg12.read_unread, View.ld_unit_zero (S := S1x19x128x512) hz4, View.ld_unit_zero (S := S19x1x1) hz3]

/-- An interior point adds the block's sum to the cross-entropy accumulator. -/
theorem mid_accCe (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : ¬cond0_0 i) (hc1 : ¬cond0_1 i)
    (x0 : Vec F S1x19x128x512 .f32) (x1 : Vec F S1x128x512 .i32) (xs0 : Vec F S19x1x1 .f32) (xs1 : Vec F S19x1x1 .f32) (xs2 : Vec F S19x1x1 .f32) (xs3 : Vec F S19x1x1 .f32) (xs4 : Vec F S19x1x1 .f32) :
    sout0_B_3 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 = accCe x0 x1 xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4)]
  unfold kernelRun0_B
  dsimp only
  sl_unfold_words
  rw [View.canon_unit_zero hz3]
  simp only [View.readAt_eq_ld, harg3.read_unread, harg4.read_unread, harg13.read_unread, View.ld_unit_zero (S := S1x19x128x512) hz4, View.ld_unit_zero (S := S1x128x512) hz3, View.ld_unit_zero (S := S19x1x1) hz3]

/-- An interior point adds the block's sum to the focal accumulator. -/
theorem mid_accFocal (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : ¬cond0_0 i) (hc1 : ¬cond0_1 i)
    (x0 : Vec F S1x19x128x512 .f32) (x1 : Vec F S1x128x512 .i32) (xs0 : Vec F S19x1x1 .f32) (xs1 : Vec F S19x1x1 .f32) (xs2 : Vec F S19x1x1 .f32) (xs3 : Vec F S19x1x1 .f32) (xs4 : Vec F S19x1x1 .f32) :
    sout0_B_4 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 = accFocal x0 x1 xs4 := by
  unfold sout0_B_4
  rw [View.read_writes_eq_canon _ _ _ (scover0_B_4 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4)]
  unfold kernelRun0_B
  dsimp only
  sl_unfold_words
  rw [View.canon_unit_zero hz3]
  simp only [View.readAt_eq_ld, harg3.read_unread, harg4.read_unread, harg14.read_unread, View.ld_unit_zero (S := S1x19x128x512) hz4, View.ld_unit_zero (S := S1x128x512) hz3, View.ld_unit_zero (S := S19x1x1) hz3]

/-- A core's last point adds the block's sum to the intersection accumulator. -/
theorem last_accInter (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : ¬cond0_0 i) (hc1 : cond0_1 i)
    (x0 : Vec F S1x19x128x512 .f32) (x1 : Vec F S1x128x512 .i32) (xs0 : Vec F S19x1x1 .f32) (xs1 : Vec F S19x1x1 .f32) (xs2 : Vec F S19x1x1 .f32) (xs3 : Vec F S19x1x1 .f32) (xs4 : Vec F S19x1x1 .f32) :
    sout0_C_0 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 = accInter x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4)]
  unfold kernelRun0_C
  dsimp only
  sl_unfold_words
  rw [View.canon_unit_zero hz3]
  simp only [View.readAt_eq_ld, harg3.read_unread, harg4.read_unread, harg10.read_unread, View.ld_unit_zero (S := S1x19x128x512) hz4, View.ld_unit_zero (S := S1x128x512) hz3, View.ld_unit_zero (S := S19x1x1) hz3]

/-- A core's last point adds the block's sum to the count accumulator. -/
theorem last_accCount (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : ¬cond0_0 i) (hc1 : cond0_1 i)
    (x0 : Vec F S1x19x128x512 .f32) (x1 : Vec F S1x128x512 .i32) (xs0 : Vec F S19x1x1 .f32) (xs1 : Vec F S19x1x1 .f32) (xs2 : Vec F S19x1x1 .f32) (xs3 : Vec F S19x1x1 .f32) (xs4 : Vec F S19x1x1 .f32) :
    sout0_C_1 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 = accCount x0 x1 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4)]
  unfold kernelRun0_C
  dsimp only
  sl_unfold_words
  rw [View.canon_unit_zero hz3]
  simp only [View.readAt_eq_ld, harg4.read_unread, harg11.read_unread, View.ld_unit_zero (S := S1x128x512) hz3, View.ld_unit_zero (S := S19x1x1) hz3]

/-- A core's last point adds the block's sum to the probability-mass accumulator. -/
theorem last_accProb (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : ¬cond0_0 i) (hc1 : cond0_1 i)
    (x0 : Vec F S1x19x128x512 .f32) (x1 : Vec F S1x128x512 .i32) (xs0 : Vec F S19x1x1 .f32) (xs1 : Vec F S19x1x1 .f32) (xs2 : Vec F S19x1x1 .f32) (xs3 : Vec F S19x1x1 .f32) (xs4 : Vec F S19x1x1 .f32) :
    sout0_C_2 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 = accProb x0 x1 xs2 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4)]
  unfold kernelRun0_C
  dsimp only
  sl_unfold_words
  rw [View.canon_unit_zero hz3]
  simp only [View.readAt_eq_ld, harg3.read_unread, harg12.read_unread, View.ld_unit_zero (S := S1x19x128x512) hz4, View.ld_unit_zero (S := S19x1x1) hz3]

/-- A core's last point adds the block's sum to the cross-entropy accumulator. -/
theorem last_accCe (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : ¬cond0_0 i) (hc1 : cond0_1 i)
    (x0 : Vec F S1x19x128x512 .f32) (x1 : Vec F S1x128x512 .i32) (xs0 : Vec F S19x1x1 .f32) (xs1 : Vec F S19x1x1 .f32) (xs2 : Vec F S19x1x1 .f32) (xs3 : Vec F S19x1x1 .f32) (xs4 : Vec F S19x1x1 .f32) :
    sout0_C_3 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 = accCe x0 x1 xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4)]
  unfold kernelRun0_C
  dsimp only
  sl_unfold_words
  rw [View.canon_unit_zero hz3]
  simp only [View.readAt_eq_ld, harg3.read_unread, harg4.read_unread, harg13.read_unread, View.ld_unit_zero (S := S1x19x128x512) hz4, View.ld_unit_zero (S := S1x128x512) hz3, View.ld_unit_zero (S := S19x1x1) hz3]

/-- A core's last point adds the block's sum to the focal accumulator. -/
theorem last_accFocal (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : ¬cond0_0 i) (hc1 : cond0_1 i)
    (x0 : Vec F S1x19x128x512 .f32) (x1 : Vec F S1x128x512 .i32) (xs0 : Vec F S19x1x1 .f32) (xs1 : Vec F S19x1x1 .f32) (xs2 : Vec F S19x1x1 .f32) (xs3 : Vec F S19x1x1 .f32) (xs4 : Vec F S19x1x1 .f32) :
    sout0_C_4 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 = accFocal x0 x1 xs4 := by
  unfold sout0_C_4
  rw [View.read_writes_eq_canon _ _ _ (scover0_C_4 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4)]
  unfold kernelRun0_C
  dsimp only
  sl_unfold_words
  rw [View.canon_unit_zero hz3]
  simp only [View.readAt_eq_ld, harg3.read_unread, harg4.read_unread, harg14.read_unread, View.ld_unit_zero (S := S1x19x128x512) hz4, View.ld_unit_zero (S := S1x128x512) hz3, View.ld_unit_zero (S := S19x1x1) hz3]

/-- A core's last point copies the updated intersection accumulator into its output block. -/
theorem out_accInter (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : ¬cond0_0 i) (hc1 : cond0_1 i)
    (x0 : Vec F S1x19x128x512 .f32) (x1 : Vec F S1x128x512 .i32) (xs0 : Vec F S19x1x1 .f32) (xs1 : Vec F S19x1x1 .f32) (xs2 : Vec F S19x1x1 .f32) (xs3 : Vec F S19x1x1 .f32) (xs4 : Vec F S19x1x1 .f32) :
    out0_C_2 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 = lead (accInter x0 x1 xs0) := by
  unfold out0_C_2
  rw [View.read_writes_eq_canon _ _ _ (cover0_C_2 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4)]
  unfold kernelRun0_C
  dsimp only
  sl_unfold_words
  rw [View.canon_unit_zero hz4]
  simp only [View.readAt_eq_ld, harg3.read_unread, harg4.read_unread, harg10.read_unread, View.readCov_unit_zero (S := S19x1x1) _ hz3, View.ld_unit_zero (S := S1x19x128x512) hz4, View.ld_unit_zero (S := S1x128x512) hz3, View.ld_unit_zero (S := S19x1x1) hz3]
  rfl

/-- A core's last point copies the updated count accumulator into its output block. -/
theorem out_accCount (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : ¬cond0_0 i) (hc1 : cond0_1 i)
    (x0 : Vec F S1x19x128x512 .f32) (x1 : Vec F S1x128x512 .i32) (xs0 : Vec F S19x1x1 .f32) (xs1 : Vec F S19x1x1 .f32) (xs2 : Vec F S19x1x1 .f32) (xs3 : Vec F S19x1x1 .f32) (xs4 : Vec F S19x1x1 .f32) :
    out0_C_3 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 = lead (accCount x0 x1 xs1) := by
  unfold out0_C_3
  rw [View.read_writes_eq_canon _ _ _ (cover0_C_3 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4)]
  unfold kernelRun0_C
  dsimp only
  sl_unfold_words
  rw [View.canon_unit_zero hz4]
  simp only [View.readAt_eq_ld, harg4.read_unread, harg11.read_unread, View.readCov_unit_zero (S := S19x1x1) _ hz3, View.ld_unit_zero (S := S1x128x512) hz3, View.ld_unit_zero (S := S19x1x1) hz3]
  rfl

/-- A core's last point copies the updated probability-mass accumulator into its output block. -/
theorem out_accProb (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : ¬cond0_0 i) (hc1 : cond0_1 i)
    (x0 : Vec F S1x19x128x512 .f32) (x1 : Vec F S1x128x512 .i32) (xs0 : Vec F S19x1x1 .f32) (xs1 : Vec F S19x1x1 .f32) (xs2 : Vec F S19x1x1 .f32) (xs3 : Vec F S19x1x1 .f32) (xs4 : Vec F S19x1x1 .f32) :
    out0_C_4 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 = lead (accProb x0 x1 xs2) := by
  unfold out0_C_4
  rw [View.read_writes_eq_canon _ _ _ (cover0_C_4 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4)]
  unfold kernelRun0_C
  dsimp only
  sl_unfold_words
  rw [View.canon_unit_zero hz4]
  simp only [View.readAt_eq_ld, harg3.read_unread, harg12.read_unread, View.readCov_unit_zero (S := S19x1x1) _ hz3, View.ld_unit_zero (S := S1x19x128x512) hz4, View.ld_unit_zero (S := S19x1x1) hz3]
  rfl

/-- A core's last point copies the updated cross-entropy accumulator into its output block. -/
theorem out_accCe (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : ¬cond0_0 i) (hc1 : cond0_1 i)
    (x0 : Vec F S1x19x128x512 .f32) (x1 : Vec F S1x128x512 .i32) (xs0 : Vec F S19x1x1 .f32) (xs1 : Vec F S19x1x1 .f32) (xs2 : Vec F S19x1x1 .f32) (xs3 : Vec F S19x1x1 .f32) (xs4 : Vec F S19x1x1 .f32) :
    out0_C_5 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 = lead (accCe x0 x1 xs3) := by
  unfold out0_C_5
  rw [View.read_writes_eq_canon _ _ _ (cover0_C_5 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4)]
  unfold kernelRun0_C
  dsimp only
  sl_unfold_words
  rw [View.canon_unit_zero hz4]
  simp only [View.readAt_eq_ld, harg3.read_unread, harg4.read_unread, harg13.read_unread, View.readCov_unit_zero (S := S19x1x1) _ hz3, View.ld_unit_zero (S := S1x19x128x512) hz4, View.ld_unit_zero (S := S1x128x512) hz3, View.ld_unit_zero (S := S19x1x1) hz3]
  rfl

/-- A core's last point copies the updated focal accumulator into its output block. -/
theorem out_accFocal (c : Dev nD) (i : grid0.Coords) (arg3 : Memref sig .tc .vmem S1x19x128x512 .f32) (harg3 : arg3.IsWhole) (arg4 : Memref sig .tc .vmem S1x128x512 .i32) (harg4 : arg4.IsWhole) (arg5 : Memref sig .tc .vmem S1x19x1x1 .f32) (harg5 : arg5.IsWhole) (arg6 : Memref sig .tc .vmem S1x19x1x1 .f32) (harg6 : arg6.IsWhole) (arg7 : Memref sig .tc .vmem S1x19x1x1 .f32) (harg7 : arg7.IsWhole) (arg8 : Memref sig .tc .vmem S1x19x1x1 .f32) (harg8 : arg8.IsWhole) (arg9 : Memref sig .tc .vmem S1x19x1x1 .f32) (harg9 : arg9.IsWhole) (arg10 : Memref sig .tc .vmem S19x1x1 .f32) (harg10 : arg10.IsWhole) (arg11 : Memref sig .tc .vmem S19x1x1 .f32) (harg11 : arg11.IsWhole) (arg12 : Memref sig .tc .vmem S19x1x1 .f32) (harg12 : arg12.IsWhole) (arg13 : Memref sig .tc .vmem S19x1x1 .f32) (harg13 : arg13.IsWhole) (arg14 : Memref sig .tc .vmem S19x1x1 .f32) (harg14 : arg14.IsWhole) (hc0 : ¬cond0_0 i) (hc1 : cond0_1 i)
    (x0 : Vec F S1x19x128x512 .f32) (x1 : Vec F S1x128x512 .i32) (xs0 : Vec F S19x1x1 .f32) (xs1 : Vec F S19x1x1 .f32) (xs2 : Vec F S19x1x1 .f32) (xs3 : Vec F S19x1x1 .f32) (xs4 : Vec F S19x1x1 .f32) :
    out0_C_6 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4 = lead (accFocal x0 x1 xs4) := by
  unfold out0_C_6
  rw [View.read_writes_eq_canon _ _ _ (cover0_C_6 c i arg3 harg3 arg4 harg4 arg5 harg5 arg6 harg6 arg7 harg7 arg8 harg8 arg9 harg9 arg10 harg10 arg11 harg11 arg12 harg12 arg13 harg13 arg14 harg14 hc0 hc1 x0 x1 xs0 xs1 xs2 xs3 xs4)]
  unfold kernelRun0_C
  dsimp only
  sl_unfold_words
  rw [View.canon_unit_zero hz4]
  simp only [View.readAt_eq_ld, harg3.read_unread, harg4.read_unread, harg14.read_unread, View.readCov_unit_zero (S := S19x1x1) _ hz3, View.ld_unit_zero (S := S1x19x128x512) hz4, View.ld_unit_zero (S := S1x128x512) hz3, View.ld_unit_zero (S := S19x1x1) hz3]
  rfl

end Cert.KernelIdeal.Pieces

end
-- ==== Proof.Spec.lean ====
/-
  The specification both programs are compared with: a weighted cross-entropy, a focal loss and a dice loss of a
  19-class segmentation, all three read off ONE log-softmax over the class axis.

  For a pixel with class scores `v : Fin 19 → ℝ` write `M = max_c v c`, `s = ∑_c exp (v c - M)`; its log-probabilities
  are `lp c = (v c - M) - log s` and its probabilities `p c = exp (v c - M) / s`.  With the pixel's label `t` and the
  indicator `hot c = [t = c]`, five per-class sums over all `8 · 512 · 512` pixels carry everything the losses need:
  `∑ hot·p` (the dice intersection), `∑ hot` (the class counts), `∑ p` (the probability mass), `∑ hot·(−lp)` (the
  cross-entropy numerator per class) and `∑ hot·(1 − max p ε)²·(−lp)` (the focal numerator per class).  The class
  weights enter only afterwards, in a closing stretch of arithmetic on 19-vectors that the two programs share.
-/
import Idealize.ShloMosaic.PureOps.Ideal
import Idealize.ShloMosaic.Lib.ValueIdx

noncomputable section

open scoped BigOperators

namespace Cert.FocalDice

open Idealize.ShloMosaic Idealize.ShloMosaic.ValueIdx

/-! ## One pixel -/

/-- The largest of a pixel's 19 class scores. -/
def vmax (v : Fin 19 → ℝ) : ℝ := Finset.univ.sup' ⟨0, Finset.mem_univ _⟩ v

/-- A class score less the pixel's largest. -/
def vsh (v : Fin 19 → ℝ) (c : Fin 19) : ℝ := v c - vmax v

/-- The pixel's partition sum, of the shifted scores. -/
def vse (v : Fin 19 → ℝ) : ℝ := ∑ c, Real.exp (vsh v c)

/-- The pixel's log-probability of class `c` (log-softmax). -/
def vlp (v : Fin 19 → ℝ) (c : Fin 19) : ℝ := vsh v c - Real.log (vse v)

/-- The pixel's probability of class `c` (softmax). -/
def vpr (v : Fin 19 → ℝ) (c : Fin 19) : ℝ := Real.exp (vsh v c) / vse v

/-- The indicator that the pixel's label word `t` is class `c`. -/
def hot (t : BitVec 32) (c : Fin 19) : ℝ := if BitVec.ofNat 32 c.val = t then 1 else 0

/-- The five per-pixel terms, each a function of the pixel's scores, its label and a class; `ε` is the floor the
    focal term puts under the probability. -/
def tInter (v : Fin 19 → ℝ) (t : BitVec 32) (c : Fin 19) : ℝ := hot t c * vpr v c
def tCount (_v : Fin 19 → ℝ) (t : BitVec 32) (c : Fin 19) : ℝ := hot t c
def tProb (v : Fin 19 → ℝ) (_t : BitVec 32) (c : Fin 19) : ℝ := vpr v c
def tCe (v : Fin 19 → ℝ) (t : BitVec 32) (c : Fin 19) : ℝ := hot t c * (0 - vlp v c)
def tFocal (ε : ℝ) (v : Fin 19 → ℝ) (t : BitVec 32) (c : Fin 19) : ℝ :=
  hot t c * ((1 - max (vpr v c) ε) * (1 - max (vpr v c) ε)) * (0 - vlp v c)

/-! ## All pixels -/

/-- A per-pixel term summed over the 8 images and their 512 × 512 pixels, class by class. -/
def total (term : (Fin 19 → ℝ) → BitVec 32 → Fin 19 → ℝ)
    (x : Fin 8 → Fin 19 → Fin 512 → Fin 512 → ℝ) (tg : Fin 8 → Fin 512 → Fin 512 → BitVec 32) (c : Fin 19) : ℝ :=
  ∑ b : Fin 8, ∑ h : Fin 512, ∑ w : Fin 512, term (fun c' => x b c' h w) (tg b h w) c

end Cert.FocalDice

end
-- ==== Proof.Consts.lean ====
/-
  The float constants the two programs spell whose VALUE the comparison uses: zero, one and two are the integers
  they look like, and the floor under the focal probability is SOME real number (which one never matters: both
  programs carry the same word).
-/
import Idealize.ShloMosaic.PureOps.Ideal

noncomputable section

namespace Cert.FocalDice

open Idealize.ShloMosaic

/-- The word `+0.0` is the number zero. -/
theorem ofBits_zero : Ideal.ofBits .f32 0x00000000#32 = 0 := by
  simp [Ideal.ofBits, Ideal.ieee]

/-- The word `1.0` is the number one. -/
theorem ofBits_one : Ideal.ofBits .f32 0x3F800000#32 = ((1 : ℝ) : EReal) := by
  simp [Ideal.ofBits, Ideal.ieee, -EReal.coe_mul]; norm_num

/-- The word `2.0` is the number two. -/
theorem ofBits_two : Ideal.ofBits .f32 0x40000000#32 = ((2 : ℝ) : EReal) := by
  simp [Ideal.ofBits, Ideal.ieee, -EReal.coe_mul]; norm_num

/-- The floor under the focal probability, as a real number. -/
def eps : ℝ := (Ideal.ofBits .f32 0x322BCC77#32).toReal

/-- The floor's word is a finite number: it denotes `eps`. -/
theorem ofBits_eps : Ideal.ofBits .f32 0x322BCC77#32 = ((eps : ℝ) : EReal) := by
  unfold eps
  have h : ∃ r : ℝ, Ideal.ofBits .f32 0x322BCC77#32 = (r : EReal) := by
    unfold Ideal.ofBits Ideal.ieee
    dsimp only
    rw [if_neg (by decide), if_neg (by decide)]
    exact ⟨_, rfl⟩
  obtain ⟨r, hr⟩ := h
  rw [hr, EReal.toReal_coe]

end Cert.FocalDice

end
-- ==== Proof.SumLaws.lean ====
/-
  Summation laws behind the comparison of the two programs with the specification.

  The specification sums per-pixel terms over all pixels, class by class.  The programs reach the same numbers by
  other roads: they take maxima and sums in the extended reals, they gather a per-class quantity by each pixel's
  label instead of weighting by the label's indicator, and they walk the pixels in a tiled order.  The lemmas here
  are the pure mathematics that reconciles these roads:

  * the coercion of the reals into the extended reals commutes with finite sums, and the fold of `max` from `⊥` over
    a pixel's coerced scores is the coerced maximum;
  * the partition sum is positive, hence the exponential of a log-probability is the probability;
  * on labels in range the indicator of a label word is the indicator of its class, so that gathering by label
    equals weighting the indicator sums;
  * the sum over 8 images and 512 rows may be taken as 2 halves of 4 images, and 4 bands of 128 rows.
-/
import proofs.«411635_j77653008712127_2_alg».proof.Proof.Spec
import Mathlib.Algebra.BigOperators.Group.Finset.Basic
import Mathlib.Algebra.BigOperators.Group.Finset.Piecewise
import Mathlib.Algebra.BigOperators.Group.Finset.Sigma
import Mathlib.Algebra.BigOperators.Ring.Finset
import Mathlib.Algebra.Order.BigOperators.Group.Finset
import Mathlib.Analysis.SpecialFunctions.Log.Basic
import Mathlib.Data.EReal.Basic
import Mathlib.Data.Finset.Lattice.Fold
import Mathlib.Data.Fintype.BigOperators
import Mathlib.Data.Fintype.EquivFin
import Mathlib.Data.Fintype.Prod
import Mathlib.Order.MinMax

noncomputable section
open scoped BigOperators
namespace Cert.FocalDice
open Idealize.ShloMosaic Idealize.ShloMosaic.ValueIdx

/-- (1) the coercion of a finite real sum -/
theorem coe_sum {ι : Type} (s : Finset ι) (f : ι → ℝ) : ((∑ i ∈ s, f i : ℝ) : EReal) = ∑ i ∈ s, (f i : EReal) := by
  classical
  -- induction on the index set: the empty sum is zero, and the coercion is additive
  induction s using Finset.induction_on with
  | empty => simp
  | insert a s ha ih => rw [Finset.sum_insert ha, Finset.sum_insert ha, EReal.coe_add, ih]

/-- (2) the fold of max from -∞ over the 19 coerced scores is the coerced maximum -/
theorem fold_max_coe (v : Fin 19 → ℝ) :
    (Finset.univ : Finset (Fin 19)).fold max (⊥ : EReal) (fun c => (v c : EReal)) = ((vmax v : ℝ) : EReal) := by
  -- the coercion is monotone, so it preserves binary maxima, hence maxima over a nonempty finite set;
  -- and a fold of max from ⊥ is a supremum
  have hne : (Finset.univ : Finset (Fin 19)).Nonempty := ⟨0, Finset.mem_univ _⟩
  have h1 : ((vmax v : ℝ) : EReal) = Finset.univ.sup' hne (fun c => (v c : EReal)) :=
    Finset.comp_sup'_eq_sup'_comp hne (fun x : ℝ => (x : EReal))
      (fun _ _ => EReal.coe_strictMono.monotone.map_max)
  have h2 : Finset.univ.sup' hne (fun c => (v c : EReal)) = Finset.univ.sup (fun c => (v c : EReal)) :=
    Finset.sup'_eq_sup hne _
  rw [h1, h2]
  rfl

/-- (3) partition sum positive -/
theorem vse_pos (v : Fin 19 → ℝ) : 0 < vse v := by
  -- a nonempty sum of exponentials
  unfold vse
  exact Finset.sum_pos (fun c _ => Real.exp_pos _) ⟨0, Finset.mem_univ _⟩

/-- (4) exp of the log-probability is the probability -/
theorem exp_vlp (v : Fin 19 → ℝ) (c : Fin 19) : Real.exp (vlp v c) = vpr v c := by
  -- exp (a - log s) = exp a / s for s > 0
  unfold vlp vpr
  rw [Real.exp_sub, Real.exp_log (vse_pos v)]

/-- (5) a label in range is some class's word, and then the indicator picks exactly that class -/
theorem hot_eq (t : BitVec 32) (k c : Fin 19) (ht : t = BitVec.ofNat 32 k.val) : hot t c = if c = k then 1 else 0 := by
  -- numbers below 19 are below 2 ^ 32, so they are determined by their 32-bit words
  subst ht
  unfold hot
  by_cases h : c = k
  · subst h; simp
  · have hne : BitVec.ofNat 32 c.val ≠ BitVec.ofNat 32 k.val := by
      intro he
      have h2 := congrArg BitVec.toNat he
      rw [BitVec.toNat_ofNat, BitVec.toNat_ofNat, Nat.mod_eq_of_lt (by have := c.isLt; omega),
        Nat.mod_eq_of_lt (by have := k.isLt; omega)] at h2
      exact h (Fin.ext h2)
    rw [if_neg hne, if_neg h]

/-- (6) gathering by label = weighting the indicator sums: for labels all in range -/
theorem sum_gather_eq {P : Type} [Fintype P] (t : P → BitVec 32) (cls : P → Fin 19)
    (ht : ∀ p, t p = BitVec.ofNat 32 (cls p).val) (g : Fin 19 → ℝ) (a : P → Fin 19 → ℝ) :
    ∑ p, g (cls p) * a p (cls p) = ∑ c : Fin 19, g c * ∑ p, hot (t p) c * a p c := by
  -- distribute, exchange the two sums, and collapse the sum over classes at the pixel's own class
  have h1 : ∑ c : Fin 19, g c * ∑ p, hot (t p) c * a p c = ∑ p, ∑ c : Fin 19, g c * (hot (t p) c * a p c) := by
    rw [Finset.sum_comm]
    exact Finset.sum_congr rfl (fun c _ => Finset.mul_sum _ _ _)
  rw [h1]
  refine Finset.sum_congr rfl (fun p _ => ?_)
  have h2 : ∀ c : Fin 19, g c * (hot (t p) c * a p c) = if c = cls p then g c * a p c else 0 := by
    intro c
    rw [hot_eq (t p) (cls p) c (ht p)]
    by_cases h : c = cls p
    · rw [if_pos h, if_pos h, one_mul]
    · rw [if_neg h, if_neg h, zero_mul, mul_zero]
  rw [Finset.sum_congr rfl (fun c _ => h2 c), Finset.sum_ite_eq']
  simp

/-- (7) splitting the 8 images over 2 halves of 4, and the 512 rows over 4 bands of 128: the grid's order of summation -/
theorem sum_regroup (f : Fin 8 → Fin 512 → Fin 512 → ℝ) :
    ∑ b : Fin 8, ∑ h : Fin 512, ∑ w : Fin 512, f b h w
      = ∑ core : Fin 2, ∑ s : Fin 16, ∑ r : Fin 128, ∑ w : Fin 512,
          f ⟨core.val * 4 + s.val / 4, by omega⟩ ⟨(s.val % 4) * 128 + r.val, by omega⟩ w := by
  -- the map (core, s, r) ↦ (4 core + s / 4, 128 (s mod 4) + r) is a bijection of 2 × 16 × 128 onto 8 × 512:
  -- it is injective by division with remainder, and both sides have 4096 elements
  let e : Fin 2 × Fin 16 × Fin 128 → Fin 8 × Fin 512 := fun q =>
    (⟨q.1.val * 4 + q.2.1.val / 4, by have := q.1.isLt; have := q.2.1.isLt; omega⟩,
     ⟨(q.2.1.val % 4) * 128 + q.2.2.val, by have := q.2.2.isLt; omega⟩)
  have he : Function.Bijective e := by
    rw [Fintype.bijective_iff_injective_and_card]
    constructor
    · rintro ⟨c1, s1, r1⟩ ⟨c2, s2, r2⟩ h
      have ha := congrArg (fun p : Fin 8 × Fin 512 => p.1.val) h
      have hb := congrArg (fun p : Fin 8 × Fin 512 => p.2.val) h
      simp only [e] at ha hb
      have := c1.isLt; have := c2.isLt; have := s1.isLt; have := s2.isLt; have := r1.isLt; have := r2.isLt
      have hc : c1.val = c2.val := by omega
      have hs : s1.val = s2.val := by omega
      have hr : r1.val = r2.val := by omega
      rw [Fin.ext hc, Fin.ext hs, Fin.ext hr]
    · simp [Fintype.card_prod, Fintype.card_fin]
  have hL : ∑ b : Fin 8, ∑ h : Fin 512, ∑ w : Fin 512, f b h w
      = ∑ p : Fin 8 × Fin 512, ∑ w : Fin 512, f p.1 p.2 w := by
    rw [Fintype.sum_prod_type]
  have hR : ∑ core : Fin 2, ∑ s : Fin 16, ∑ r : Fin 128, ∑ w : Fin 512,
          f ⟨core.val * 4 + s.val / 4, by omega⟩ ⟨(s.val % 4) * 128 + r.val, by omega⟩ w
      = ∑ q : Fin 2 × Fin 16 × Fin 128, ∑ w : Fin 512, f (e q).1 (e q).2 w := by
    rw [Fintype.sum_prod_type]
    refine Finset.sum_congr rfl (fun core _ => ?_)
    rw [Fintype.sum_prod_type]
  rw [hL, hR]
  exact (Fintype.sum_bijective e he _ _ (fun q => rfl)).symm

end Cert.FocalDice
end
-- ==== Proof.BlockValue.lean ====
/-
  One grid point's contribution to the five per-class sums, read off the block's arithmetic.

  A block holds the scores of 19 classes at 128 × 512 pixels, and one label word per pixel.  At each pixel the
  arithmetic takes the largest score `M`, the shifted scores `v c - M`, their exponentials, the partition sum `s`,
  the probabilities `exp (v c - M) / s` and the negated log-probabilities `0 - ((v c - M) - log s)`; the indicator of
  the label is the comparison of the class number with the label word.  When every score is a real number, each of
  these is the coercion of the specification's real quantity: the maximum because the coercion is monotone, the
  partition sum because it commutes with finite sums, the quotient and the logarithm because the partition sum is
  positive.  Each accumulator then adds to what it held the sum of its term first along the 512 lanes and then along
  the 128 rows, which is the double sum over the block's pixels; and a double sum of coerced reals is the coerced
  double sum.
-/
import proofs.«411635_j77653008712127_2_alg».proof.Proof.Gen.KernelIdeal.Skeleton
import proofs.«411635_j77653008712127_2_alg».proof.Proof.Spec
import proofs.«411635_j77653008712127_2_alg».proof.Proof.Consts
import proofs.«411635_j77653008712127_2_alg».proof.Proof.SumLaws
import Idealize.ShloMosaic.Lib.ValueIdx
import Idealize.ShloMosaic.Lib.ValueLayout
import Idealize.ShloMosaic.Lib.Pipeline.Value
import Idealize.ShloMosaic.PureOps.Ideal.Laws

noncomputable section
open scoped BigOperators

namespace Cert.KernelIdeal.BlockValue

open Idealize.ShloMosaic Idealize.ShloMosaic.ValueIdx Cert.KernelIdeal Cert.KernelIdeal.Gen Cert.FocalDice

/-- The class scores of the block's pixel `(r, w)`. -/
def pix (xr : Fin 19 → Fin 128 → Fin 512 → ℝ) (r : Fin 128) (w : Fin 512) : Fin 19 → ℝ := fun c => xr c r w

/-- The label word of the block's pixel `(r, w)`. -/
def lab (x1 : Vec Ideal S1x128x512 .i32) (r : Fin 128) (w : Fin 512) : BitVec 32 := x1 (ix3 0 r w)

/-! ## Words and layout at an index -/

/-- The word of minus infinity is the bottom of the extended reals. -/
theorem ofBits_negInf : Ideal.ofBits .f32 0xFF800000#32 = ⊥ := by
  simp [Ideal.ofBits, Ideal.ieee]

/-- The coercion of the reals preserves binary maxima. -/
theorem coe_max (a b : ℝ) : ((max a b : ℝ) : EReal) = max (a : EReal) (b : EReal) :=
  EReal.coe_strictMono.monotone.map_max

/-- The block of scores with its leading unit axis dropped. -/
theorem scores_apply (x0 : FVec Ideal S1x19x128x512 .f32) (c : Fin 19) (r : Fin 128) (w : Fin 512) :
    shapeCast S19x128x512 x0 shapeCasts_S1x19x128x512_S19x128x512 (ix3 c r w) = x0 (ix4 0 c r w) :=
  shapeCast_1abc_abc_apply x0 _ c r w

/-- A per-pixel quantity given a leading unit axis. -/
theorem row_apply {α : Type} (v : S128x512.Idx → α) (u : Fin 1) (r : Fin 128) (w : Fin 512) :
    shapeCast S1x128x512 v shapeCasts_S128x512_S1x128x512 (ix3 u r w) = v (ix2 r w) :=
  shapeCast_ab_1ab_apply v _ u r w

/-- A per-pixel quantity laid under every class. -/
theorem spread_apply {α : Type} (v : S1x128x512.Idx → α) (c : Fin 19) (r : Fin 128) (w : Fin 512) :
    broadcastTo S19x128x512 v broadcasts_S1x128x512_S19x128x512 (ix3 c r w) = v (ix3 (0 : Fin 1) r w) := by
  refine broadcastTo_apply v _ (ix3 c r w) (ix3 (0 : Fin 1) r w) fun ax => ?_
  match ax with
  | ⟨0, _⟩ => rfl
  | ⟨1, _⟩ => rfl
  | ⟨2, _⟩ => rfl

/-- A per-class quantity laid over every pixel. -/
theorem spreadClass_apply {α : Type} (v : S19x1x1.Idx → α) (c : Fin 19) (r : Fin 128) (w : Fin 512) :
    broadcastTo S19x128x512 v broadcasts_S19x1x1_S19x128x512 (ix3 c r w) = v (ix3 c (0 : Fin 1) (0 : Fin 1)) := by
  refine broadcastTo_apply v _ (ix3 c r w) (ix3 c (0 : Fin 1) (0 : Fin 1)) fun ax => ?_
  match ax with
  | ⟨0, _⟩ => rfl
  | ⟨1, _⟩ => rfl
  | ⟨2, _⟩ => rfl

/-- The index a reduction over the class axis reads at class `c` of pixel `(r, w)`. -/
theorem lift0 (r : Fin 128) (w : Fin 512) (c : Fin 19) :
    reduces_S19x128x512_S128x512.lift (ix2 r w) c = ix3 c r w := by
  funext a
  match a with
  | ⟨0, _⟩ => exact Fin.ext rfl
  | ⟨1, _⟩ => exact Fin.ext rfl
  | ⟨2, _⟩ => exact Fin.ext rfl

/-- The maximum over the class axis, pixel by pixel: a fold of `max` from minus infinity over the 19 classes. -/
theorem classMax_apply (v : FVec Ideal S19x128x512 .f32) (hφ : FKind.Formats .f32)
    (hacc : (0xFF800000#32 : BitVec 32) = 0xFF800000#32) (r : Fin 128) (w : Fin 512) :
    multiReduction (F := Ideal) .maximumf [0] S128x512 v 0xFF800000#32 reduces_S19x128x512_S128x512 hφ hacc (ix2 r w)
      = (Finset.univ : Finset (Fin 19)).fold max (⊥ : EReal) (fun c => v (ix3 c r w)) := by
  refine (Ideal.multiReduction_maximumf_single v _ reduces_S19x128x512_S128x512 hφ hacc (ix2 r w)).trans ?_
  show (Finset.univ : Finset (Fin 19)).fold max (Ideal.ofBits .f32 0xFF800000#32)
    (fun c => v (reduces_S19x128x512_S128x512.lift (ix2 r w) c)) = _
  rw [ofBits_negInf]
  exact congrArg (fun f : Fin 19 → EReal => (Finset.univ : Finset (Fin 19)).fold max (⊥ : EReal) f)
    (funext fun c => congrArg v (lift0 r w c))

/-- The sum over the class axis, pixel by pixel. -/
theorem classSum_apply (v : FVec Ideal S19x128x512 .f32) (hφ : FKind.Formats .f32)
    (hacc : (0x00000000#32 : BitVec 32) = 0x00000000#32) (r : Fin 128) (w : Fin 512) :
    multiReduction (F := Ideal) .add [0] S128x512 v 0x00000000#32 reduces_S19x128x512_S128x512 hφ hacc (ix2 r w)
      = ∑ c : Fin 19, v (ix3 c r w) := by
  refine (Ideal.multiReduction_add_single v _ reduces_S19x128x512_S128x512 hφ hacc (ix2 r w)).trans ?_
  show ∑ c : Fin 19, v (reduces_S19x128x512_S128x512.lift (ix2 r w) c) = _
  exact Finset.sum_congr rfl fun c _ => congrArg v (lift0 r w c)

/-! ## The log-softmax of one pixel -/

section Pixel
variable (xr : Fin 19 → Fin 128 → Fin 512 → ℝ) (x0 : FVec Ideal S1x19x128x512 .f32) (x1 : IVec S1x128x512 32)

/-- The shifted scores: each score less the pixel's largest. -/
theorem shifted_apply (hx : ∀ c r w, x0 (ix4 0 c r w) = ((xr c r w : ℝ) : EReal)) (c : Fin 19) (r : Fin 128) (w : Fin 512) :
    k0_pay13 (F := Ideal) x0 (ix3 c r w) = ((vsh (pix xr r w) c : ℝ) : EReal) := by
  have hm : (Finset.univ : Finset (Fin 19)).fold max (⊥ : EReal) (fun c => ((xr c r w : ℝ) : EReal))
      = ((vmax (pix xr r w) : ℝ) : EReal) := fold_max_coe (pix xr r w)
  unfold k0_pay13
  simp only [subf_apply, spread_apply, row_apply]
  rw [classMax_apply]
  simp only [scores_apply, hx, hm]
  rw [← EReal.coe_sub]
  rfl

/-- Their exponentials. -/
theorem expd_apply (hx : ∀ c r w, x0 (ix4 0 c r w) = ((xr c r w : ℝ) : EReal)) (c : Fin 19) (r : Fin 128) (w : Fin 512) :
    k0_pay14 (F := Ideal) x0 (ix3 c r w) = ((Real.exp (vsh (pix xr r w) c) : ℝ) : EReal) := by
  unfold k0_pay14
  show Ideal.exp (k0_pay13 (F := Ideal) x0 (ix3 c r w)) = _
  rw [shifted_apply xr x0 hx, Ideal.exp_coe]

/-- The partition sum. -/
theorem partition_apply (hx : ∀ c r w, x0 (ix4 0 c r w) = ((xr c r w : ℝ) : EReal)) (r : Fin 128) (w : Fin 512) :
    k0_pay15 (F := Ideal) x0 (ix3 (0 : Fin 1) r w) = ((vse (pix xr r w) : ℝ) : EReal) := by
  unfold k0_pay15
  rw [row_apply, classSum_apply]
  simp only [expd_apply xr x0 hx]
  exact (coe_sum _ _).symm

/-- The probabilities. -/
theorem prob_apply (hx : ∀ c r w, x0 (ix4 0 c r w) = ((xr c r w : ℝ) : EReal)) (c : Fin 19) (r : Fin 128) (w : Fin 512) :
    k0_pay16 (F := Ideal) x0 (ix3 c r w) = ((vpr (pix xr r w) c : ℝ) : EReal) := by
  unfold k0_pay16
  simp only [divf_apply, spread_apply, expd_apply xr x0 hx, partition_apply xr x0 hx]
  rw [Ideal.div_coe (vse_pos _).ne', ← EReal.coe_mul]
  unfold vpr
  rw [mul_one_div]

/-- The comparison of two label words, widened and read as a number, is the indicator that they are equal. -/
theorem eqWord_toInt (a b : BitVec 32) :
    ((((IntOp.cmpi .eq a b).setWidth 32).toInt : ℝ) : EReal) = (((if a = b then 1 else 0 : ℝ)) : EReal) := by
  by_cases h : a = b
  · subst h
    have h1 : IntOp.cmpi .eq a a = 1#1 := by simp [IntOp.cmpi]
    have h2 : ((1#1 : BitVec 1).setWidth 32).toInt = 1 := by decide
    rw [h1, if_pos rfl, h2]
    norm_num
  · have h1 : IntOp.cmpi .eq a b = 0#1 := by
      show BitVec.ofBool (a == b) = 0#1
      rw [beq_eq_false_iff_ne.mpr h]
      rfl
    have h2 : ((0#1 : BitVec 1).setWidth 32).toInt = 0 := by decide
    rw [h1, if_neg h, h2]
    norm_num

/-- The indicator of the label: the class number along axis 0 compared with the pixel's label word. -/
theorem hot_apply (c : Fin 19) (r : Fin 128) (w : Fin 512) :
    k0_pay17 (F := Ideal) x1 (ix3 c r w) = ((hot (lab x1 r w) c : ℝ) : EReal) := by
  unfold k0_pay17
  show FloatOps.sitofp (F := Ideal) .f32 ((IntOp.cmpi .eq
      (broadcastTo S19x128x512 (iota .tc S19x1x1 32 [0] iota_S19x1x1_d0_w32) broadcasts_S19x1x1_S19x128x512 (ix3 c r w))
      (broadcastTo S19x128x512 (shapeCast S1x128x512 (shapeCast S128x512 x1 shapeCasts_S1x128x512_S128x512)
        shapeCasts_S128x512_S1x128x512) broadcasts_S1x128x512_S19x128x512 (ix3 c r w))).setWidth 32) = _
  rw [spreadClass_apply, spread_apply, shapeCast_shapeCast, iota_single_apply]
  exact eqWord_toInt (BitVec.ofNat 32 c.val) (lab x1 r w)

/-- The logarithm of a vector, entry by entry. -/
theorem logv_apply {s : Shape} (v : FVec Ideal s .f32) (i : s.Idx) : log v i = Ideal.log (v i) := rfl

/-- A scalar constant's word denotes the same extended real as a vector's. -/
theorem scalarOfBits (b : BitVec 32) : Scalar.ofBits (F := Ideal) .f32 b = Ideal.ofBits .f32 b := rfl

/-- The negated log-probabilities. -/
theorem nll_apply (hx : ∀ c r w, x0 (ix4 0 c r w) = ((xr c r w : ℝ) : EReal)) (c : Fin 19) (r : Fin 128) (w : Fin 512) :
    k0_pay18 (F := Ideal) x0 (ix3 c r w) = ((0 - vlp (pix xr r w) c : ℝ) : EReal) := by
  unfold k0_pay18
  simp only [subf_apply, broadcast_apply, spread_apply, logv_apply, scalarOfBits, shifted_apply xr x0 hx,
    partition_apply xr x0 hx, ofBits_zero]
  rw [Ideal.log_coe, if_neg (not_le.mpr (vse_pos _)), ← EReal.coe_sub, ← EReal.coe_zero, ← EReal.coe_sub]
  rfl

/-- The focal weight under the indicator: the squared complement of the floored probability. -/
theorem focalWeight_apply (hx : ∀ c r w, x0 (ix4 0 c r w) = ((xr c r w : ℝ) : EReal)) (c : Fin 19) (r : Fin 128) (w : Fin 512) :
    k0_pay19 (F := Ideal) x0 x1 (ix3 c r w)
      = ((hot (lab x1 r w) c * ((1 - max (vpr (pix xr r w) c) eps) * (1 - max (vpr (pix xr r w) c) eps)) : ℝ) : EReal) := by
  unfold k0_pay19
  simp only [mulf_apply, subf_apply, maximumf_apply, broadcast_apply, scalarOfBits, hot_apply, prob_apply xr x0 hx,
    ofBits_one, ofBits_eps]
  rw [← coe_max, ← EReal.coe_sub, ← EReal.coe_mul, ← EReal.coe_mul]

end Pixel

/-! ## The block's sums -/

/-- The lane sums given a trailing unit axis. -/
theorem col_apply {α : Type} (v : S19x128.Idx → α) (c : Fin 19) (r : Fin 128) (u : Fin 1) :
    shapeCast S19x128x1 v shapeCasts_S19x128_S19x128x1 (ix3 c r u) = v (ix2 c r) :=
  shapeCast_apply v _ _ _ (by
    have hu : u.val = 0 := by omega
    rw [Shape.rowMajor_val_two, Shape.rowMajor_val_three]
    show c.val * 128 + r.val = (c.val * 128 + r.val) * 1 + u.val
    omega)

/-- The per-class sums given a second trailing unit axis. -/
theorem col1_apply {α : Type} (v : S19x1.Idx → α) (c : Fin 19) (u u' : Fin 1) :
    shapeCast S19x1x1 v shapeCasts_S19x1_S19x1x1 (ix3 c u u') = v (ix2 c u) :=
  shapeCast_apply v _ _ _ (by
    have hu' : u'.val = 0 := by omega
    rw [Shape.rowMajor_val_two, Shape.rowMajor_val_three]
    show c.val * 1 + u.val = (c.val * 1 + u.val) * 1 + u'.val
    omega)

/-- The index a reduction over the lane axis reads at lane `w` of row `(c, r)`. -/
theorem lift2 (c : Fin 19) (r : Fin 128) (w : Fin 512) :
    reduces_S19x128x512_S19x128.lift (ix2 c r) w = ix3 c r w := by
  funext a
  match a with
  | ⟨0, _⟩ => exact Fin.ext rfl
  | ⟨1, _⟩ => exact Fin.ext rfl
  | ⟨2, _⟩ => exact Fin.ext rfl

/-- The index a reduction over the row axis reads at row `r` of class `c`. -/
theorem lift1 (c : Fin 19) (u : Fin 1) (r : Fin 128) :
    reduces_S19x128x1_S19x1.lift (ix2 c u) r = ix3 c r u := by
  funext a
  match a with
  | ⟨0, _⟩ => exact Fin.ext rfl
  | ⟨1, _⟩ => exact Fin.ext rfl
  | ⟨2, _⟩ => exact Fin.ext rfl

/-- The sum along the lanes. -/
theorem laneSum_apply (v : FVec Ideal S19x128x512 .f32) (hφ : FKind.Formats .f32)
    (hacc : (0x00000000#32 : BitVec 32) = 0x00000000#32) (c : Fin 19) (r : Fin 128) :
    multiReduction (F := Ideal) .add [2] S19x128 v 0x00000000#32 reduces_S19x128x512_S19x128 hφ hacc (ix2 c r)
      = ∑ w : Fin 512, v (ix3 c r w) := by
  refine (Ideal.multiReduction_add_single v _ reduces_S19x128x512_S19x128 hφ hacc (ix2 c r)).trans ?_
  show ∑ w : Fin 512, v (reduces_S19x128x512_S19x128.lift (ix2 c r) w) = _
  exact Finset.sum_congr rfl fun w _ => congrArg v (lift2 c r w)

/-- The sum along the rows. -/
theorem rowSum_apply (v : FVec Ideal S19x128x1 .f32) (hφ : FKind.Formats .f32)
    (hacc : (0x00000000#32 : BitVec 32) = 0x00000000#32) (c : Fin 19) (u : Fin 1) :
    multiReduction (F := Ideal) .add [1] S19x1 v 0x00000000#32 reduces_S19x128x1_S19x1 hφ hacc (ix2 c u)
      = ∑ r : Fin 128, v (ix3 c r u) := by
  refine (Ideal.multiReduction_add_single v _ reduces_S19x128x1_S19x1 hφ hacc (ix2 c u)).trans ?_
  show ∑ r : Fin 128, v (reduces_S19x128x1_S19x1.lift (ix2 c u) r) = _
  exact Finset.sum_congr rfl fun r _ => congrArg v (lift1 c u r)

/-- A per-class accumulator after one grid point: what it held plus the sum, over the block's pixels, of the
    term it gathers, when that term is a real number at every pixel. -/
theorem acc_apply (v : FVec Ideal S19x128x512 .f32) (prev : FVec Ideal S19x1x1 .f32) (hφ hφ' : FKind.Formats .f32)
    (hacc hacc' : (0x00000000#32 : BitVec 32) = 0x00000000#32) (c : Fin 19) (f : Fin 128 → Fin 512 → ℝ)
    (hv : ∀ r w, v (ix3 c r w) = ((f r w : ℝ) : EReal)) :
    shapeCast S19x1x1 (addf prev (shapeCast S19x1x1 (multiReduction (F := Ideal) .add [1] S19x1
        (shapeCast S19x128x1 (multiReduction (F := Ideal) .add [2] S19x128 v 0x00000000#32 reduces_S19x128x512_S19x128 hφ hacc)
          shapeCasts_S19x128_S19x128x1) 0x00000000#32 reduces_S19x128x1_S19x1 hφ' hacc') shapeCasts_S19x1_S19x1x1))
      shapeCasts_S19x1x1_S19x1x1 (ix3 c (0 : Fin 1) (0 : Fin 1))
      = prev (ix3 c 0 0) + ((∑ r : Fin 128, ∑ w : Fin 512, f r w : ℝ) : EReal) := by
  rw [shapeCast_self, addf_apply, col1_apply, rowSum_apply]
  have hrow : ∀ r : Fin 128,
      shapeCast S19x128x1 (multiReduction (F := Ideal) .add [2] S19x128 v 0x00000000#32 reduces_S19x128x512_S19x128 hφ hacc)
        shapeCasts_S19x128_S19x128x1 (ix3 c r (0 : Fin 1)) = ((∑ w : Fin 512, f r w : ℝ) : EReal) := by
    intro r
    rw [col_apply, laneSum_apply, coe_sum]
    exact Finset.sum_congr rfl fun w _ => hv r w
  rw [coe_sum]
  exact congrArg (prev (ix3 c 0 0) + ·) (Finset.sum_congr rfl fun r _ => hrow r)

variable (xr : Fin 19 → Fin 128 → Fin 512 → ℝ) (x0 : Vec Ideal S1x19x128x512 .f32) (x1 : Vec Ideal S1x128x512 .i32)

/-- What one grid point adds to a per-class sum: the term over the block's 128 × 512 pixels. -/
def blockSum (term : (Fin 19 → ℝ) → BitVec 32 → Fin 19 → ℝ) (c : Fin 19) : ℝ :=
  ∑ r : Fin 128, ∑ w : Fin 512, term (pix xr r w) (lab x1 r w) c

/-- intersection accumulator -/
theorem accInter_apply (hx : ∀ c r w, x0 (ix4 0 c r w) = ((xr c r w : ℝ) : EReal)) (prev : Vec Ideal S19x1x1 .f32) (c : Fin 19) :
    k0_pay23 (F := Ideal) (k0_pay16 x0) (k0_pay17 x1) prev (ix3 c 0 0)
      = prev (ix3 c 0 0) + ((blockSum xr x1 tInter c : ℝ) : EReal) := by
  unfold k0_pay23
  exact acc_apply (mulf (k0_pay17 (F := Ideal) x1) (k0_pay16 (F := Ideal) x0)) prev _ _ _ _ c
    (fun r w => tInter (pix xr r w) (lab x1 r w) c) (fun r w => by
      rw [mulf_apply, hot_apply, prob_apply xr x0 hx, ← EReal.coe_mul]
      rfl)

/-- count accumulator -/
theorem accCount_apply (prev : Vec Ideal S19x1x1 .f32) (c : Fin 19) :
    k0_pay22 (F := Ideal) (k0_pay17 x1) prev (ix3 c 0 0)
      = prev (ix3 c 0 0) + ((blockSum xr x1 tCount c : ℝ) : EReal) := by
  unfold k0_pay22
  exact acc_apply (k0_pay17 (F := Ideal) x1) prev _ _ _ _ c
    (fun r w => tCount (pix xr r w) (lab x1 r w) c) (fun r w => hot_apply x1 c r w)

/-- probability-mass accumulator -/
theorem accProb_apply (hx : ∀ c r w, x0 (ix4 0 c r w) = ((xr c r w : ℝ) : EReal)) (prev : Vec Ideal S19x1x1 .f32) (c : Fin 19) :
    k0_pay24 (F := Ideal) (k0_pay16 x0) prev (ix3 c 0 0)
      = prev (ix3 c 0 0) + ((blockSum xr x1 tProb c : ℝ) : EReal) := by
  unfold k0_pay24
  exact acc_apply (k0_pay16 (F := Ideal) x0) prev _ _ _ _ c
    (fun r w => tProb (pix xr r w) (lab x1 r w) c) (fun r w => prob_apply xr x0 hx c r w)

/-- cross-entropy accumulator -/
theorem accCe_apply (hx : ∀ c r w, x0 (ix4 0 c r w) = ((xr c r w : ℝ) : EReal)) (prev : Vec Ideal S19x1x1 .f32) (c : Fin 19) :
    k0_pay1 (F := Ideal) (k0_pay21 (k0_pay17 x1) (k0_pay18 x0)) prev (ix3 c 0 0)
      = prev (ix3 c 0 0) + ((blockSum xr x1 tCe c : ℝ) : EReal) := by
  unfold k0_pay1
  exact acc_apply (k0_pay21 (F := Ideal) (k0_pay17 x1) (k0_pay18 x0)) prev _ _ _ _ c
    (fun r w => tCe (pix xr r w) (lab x1 r w) c) (fun r w => by
      show mulf (k0_pay17 (F := Ideal) x1) (k0_pay18 (F := Ideal) x0) (ix3 c r w) = _
      rw [mulf_apply, hot_apply, nll_apply xr x0 hx, ← EReal.coe_mul]
      rfl)

/-- focal accumulator -/
theorem accFocal_apply (hx : ∀ c r w, x0 (ix4 0 c r w) = ((xr c r w : ℝ) : EReal)) (prev : Vec Ideal S19x1x1 .f32) (c : Fin 19) :
    k0_pay2 (F := Ideal) (k0_pay20 (k0_pay18 x0) (k0_pay19 x0 x1)) prev (ix3 c 0 0)
      = prev (ix3 c 0 0) + ((blockSum xr x1 (tFocal eps) c : ℝ) : EReal) := by
  unfold k0_pay2
  exact acc_apply (k0_pay20 (F := Ideal) (k0_pay18 x0) (k0_pay19 x0 x1)) prev _ _ _ _ c
    (fun r w => tFocal eps (pix xr r w) (lab x1 r w) c) (fun r w => by
      show mulf (k0_pay19 (F := Ideal) x0 x1) (k0_pay18 (F := Ideal) x0) (ix3 c r w) = _
      rw [mulf_apply, focalWeight_apply xr x0 x1 hx, nll_apply xr x0 hx, ← EReal.coe_mul]
      rfl)

end Cert.KernelIdeal.BlockValue
end
-- ==== Proof.Tail.lean ====
/-
  The closing stretch of arithmetic both programs share, and the values it is fed.

  From the per-class sums — intersection `I`, counts `N`, probability mass `P` — and three scalars — the weighted
  cross-entropy numerator and denominator and the weighted focal numerator — the loss is
  `0.4 · ce_num / ce_den + 0.3 · focal_num / 2²¹ + 0.3 · (1 − ∑_c ((2·I_c + 1) / ((P_c + N_c) + 1)) · (w_c / max (∑ w) ε))`.
  Both programs spell this stretch with the same operations in the same order, so it is written once, as the host
  operations themselves, and never opened.  What differs is how its inputs are computed; both programs' inputs are
  shown equal to the arrays named here, built from the specification's per-class totals.
-/
import proofs.«411635_j77653008712127_2_alg».proof.Proof.Spec
import proofs.«411635_j77653008712127_2_alg».proof.Proof.Consts

noncomputable section

open scoped BigOperators

namespace Cert.FocalDice

open Idealize.ShloMosaic Idealize.ShloMosaic.ValueIdx

/-- The shape of a per-class vector and of a scalar. -/
abbrev SCls : Shape := ⟨1, ![19]⟩
abbrev SNil : Shape := ⟨0, ![]⟩
abbrev SLog : Shape := ⟨4, ![8, 19, 512, 512]⟩
abbrev SLab : Shape := ⟨3, ![8, 512, 512]⟩

/-- The shared closing stretch, over the host's operations at the extended reals. -/
def tail (hb : SNil.BroadcastsInDim SCls (![] : Fin 0 → Fin SCls.rank)) (hr : SCls.ReducesTo [0] SNil) (h0 : 0 < SNil.numel)
    (inter counts probs : FVec Ideal SCls .f32) (cenum cewt fnum : FVec Ideal SNil .f32) (cw : FVec Ideal SCls .f32) :
    FVec Ideal SNil .f32 :=
  let ce : FVec Ideal SNil .f32 := Host.divf cenum cewt
  let focal : FVec Ideal SNil .f32 := Host.divf fnum (constant (F := Ideal) SNil .f32 0x4A000000#32)
  let two : FVec Ideal SCls .f32 := broadcastInDim SCls ![] hb (constant (F := Ideal) SNil .f32 0x40000000#32)
  let one : FVec Ideal SCls .f32 := broadcastInDim SCls ![] hb (constant (F := Ideal) SNil .f32 0x3F800000#32)
  let num : FVec Ideal SCls .f32 := addf (mulf two inter) one
  let den : FVec Ideal SCls .f32 := addf (addf probs counts) one
  let dice : FVec Ideal SCls .f32 := Host.divf num den
  let wsum : FVec Ideal SNil .f32 := Host.reduceAdd cw (constant (F := Ideal) SNil .f32 0x00000000#32) hr h0
  let wfloor : FVec Ideal SNil .f32 := maximumf wsum (constant (F := Ideal) SNil .f32 0x322BCC77#32)
  let wn : FVec Ideal SCls .f32 := Host.divf cw (broadcastInDim SCls ![] hb wfloor)
  let dsum : FVec Ideal SNil .f32 := Host.reduceAdd (mulf dice wn) (constant (F := Ideal) SNil .f32 0x00000000#32) hr h0
  let dloss : FVec Ideal SNil .f32 := subf (constant (F := Ideal) SNil .f32 0x3F800000#32) dsum
  addf (addf (mulf (constant (F := Ideal) SNil .f32 0x3ECCCCCD#32) ce) (mulf (constant (F := Ideal) SNil .f32 0x3E99999A#32) focal))
    (mulf (constant (F := Ideal) SNil .f32 0x3E99999A#32) dloss)

/-! ## The values the stretch is fed -/

/-- The scores as real numbers (meaningful for finite scores). -/
def scoreR (x : FVec Ideal SLog .f32) (b : Fin 8) (c : Fin 19) (h w : Fin 512) : ℝ := (x (ix4 b c h w)).toReal

/-- The labels by image, row and column. -/
def labelW (t : IVec SLab 32) (b : Fin 8) (h w : Fin 512) : BitVec 32 := t (ix3 b h w)

/-- A 19-vector of floats as real numbers. -/
def vecR (a : FVec Ideal SCls .f32) (c : Fin 19) : ℝ := (a (ix1 c)).toReal

/-- A per-class total as a per-class vector of extended reals. -/
def classArr (term : (Fin 19 → ℝ) → BitVec 32 → Fin 19 → ℝ) (x : FVec Ideal SLog .f32) (t : IVec SLab 32) : FVec Ideal SCls .f32 :=
  fun i => ((total term (scoreR x) (labelW t) (i 0) : ℝ) : EReal)

/-- A per-class total weighted class by class and summed, as a scalar array. -/
def weighted (term : (Fin 19 → ℝ) → BitVec 32 → Fin 19 → ℝ) (x : FVec Ideal SLog .f32) (t : IVec SLab 32)
    (a : FVec Ideal SCls .f32) : FVec Ideal SNil .f32 :=
  fun _ => ((∑ c : Fin 19, vecR a c * total term (scoreR x) (labelW t) c : ℝ) : EReal)

/-- The loss, as the shared closing stretch of the specification's totals. -/
def loss (hb : SNil.BroadcastsInDim SCls (![] : Fin 0 → Fin SCls.rank)) (hr : SCls.ReducesTo [0] SNil) (h0 : 0 < SNil.numel)
    (x : FVec Ideal SLog .f32) (t : IVec SLab 32) (cw al : FVec Ideal SCls .f32) : FVec Ideal SNil .f32 :=
  tail hb hr h0 (classArr tInter x t) (classArr tCount x t) (classArr tProb x t)
    (weighted tCe x t cw) (weighted tCount x t cw) (weighted (tFocal eps) x t al) cw

end Cert.FocalDice

end
-- ==== Proof.Grid.lean ====
/-
  The kernel's five output arrays after the run: entry `(core, c)` of each is that core's share of the per-class total.

  The grid has 2 × 4 × 4 = 32 points, 16 to a core; point `s` of a core works on image `4·core + s / 4` and on the band
  of 128 rows starting at `128 · (s mod 4)`.  The accumulators are zeroed at a core's first point and grow by one
  block's sum per point, so after point `s` they hold the sum of the blocks `0 … s` of that core; the outputs are
  written at the core's last point, and the write-back puts them at row `core` of the `[2, 19, 1, 1]` arrays.
-/
import proofs.«411635_j77653008712127_2_alg».proof.Proof.Pieces
import proofs.«411635_j77653008712127_2_alg».proof.Proof.BlockValue
import proofs.«411635_j77653008712127_2_alg».proof.Proof.Tail
import proofs.«411635_j77653008712127_2_alg».proof.Proof.SumLaws
import Idealize.ShloMosaic.Lib.Pipeline.Value
import Idealize.ShloMosaic.Lib.ValueIdx
import Idealize.ShloMosaic.Lib.ValueLayout
import Mathlib.Algebra.BigOperators.Fin
import Mathlib.Algebra.BigOperators.Group.Finset.Basic
import Mathlib.Data.EReal.Basic

noncomputable section

open scoped BigOperators
open Idealize.ShloMosaic Idealize.ShloMosaic.TcCoe Idealize.SL.Sem Idealize.ShloMosaic.ValueIdx
open Idealize.ShloMosaic.Pipeline (Dat)

namespace Cert.KernelIdeal.Grid

open Cert.KernelIdeal Cert.KernelIdeal.Gen Cert.FocalDice

/-- The image that point `s` of a core works on. -/
def img (core : Fin 2) (s : Fin 16) : Fin 8 := ⟨core.val * 4 + s.val / 4, by omega⟩

/-- Row `r` of the band that point `s` works on. -/
def row (s : Fin 16) (r : Fin 128) : Fin 512 := ⟨(s.val % 4) * 128 + r.val, by omega⟩

/-- One core's share of a per-class total: the term summed over the core's 16 blocks of 128 × 512 pixels. -/
def coreSum (term : (Fin 19 → ℝ) → BitVec 32 → Fin 19 → ℝ) (x : FVec Ideal SLog .f32) (t : IVec SLab 32)
    (core : Fin 2) (cl : Fin 19) : ℝ :=
  ∑ s : Fin 16, ∑ r : Fin 128, ∑ w : Fin 512,
    term (fun c' => scoreR x (img core s) c' (row s r) w) (labelW t (img core s) (row s r) w) cl

/-- The two cores' shares add up to the total. -/
theorem coreSum_add (term : (Fin 19 → ℝ) → BitVec 32 → Fin 19 → ℝ) (x : FVec Ideal SLog .f32) (t : IVec SLab 32) (cl : Fin 19) :
    ∑ core : Fin 2, coreSum term x t core cl = total term (scoreR x) (labelW t) cl := by
  unfold coreSum total
  exact (sum_regroup (fun b h w => term (fun c' => scoreR x b c' h w) (labelW t b h w) cl)).symm

/-! ## One grid point's share, by the point's number -/

/-- What grid point number `p` adds to a per-class sum: the term over the 128 × 512 pixels of image `p / 4`, rows
    `128 · (p mod 4) …`. -/
def pointSum (term : (Fin 19 → ℝ) → BitVec 32 → Fin 19 → ℝ) (x : FVec Ideal SLog .f32) (t : IVec SLab 32)
    (p : ℕ) (cl : Fin 19) : ℝ :=
  ∑ r : Fin 128, ∑ w : Fin 512,
    term (fun c' => scoreR x ⟨p / 4 % 8, Nat.mod_lt _ (by decide)⟩ c' ⟨(p % 4) * 128 + r.val, by omega⟩ w)
      (labelW t ⟨p / 4 % 8, Nat.mod_lt _ (by decide)⟩ ⟨(p % 4) * 128 + r.val, by omega⟩ w) cl

/-- A core's share is the sum of its 16 points' shares: point `16·core + s` works on image `4·core + s / 4` and band
    `s mod 4`. -/
theorem coreSum_eq_range (term : (Fin 19 → ℝ) → BitVec 32 → Fin 19 → ℝ) (x : FVec Ideal SLog .f32) (t : IVec SLab 32)
    (core : Fin 2) (cl : Fin 19) :
    ∑ s ∈ Finset.range 16, pointSum term x t (16 * core.val + s) cl = coreSum term x t core cl := by
  unfold coreSum
  rw [← Fin.sum_univ_eq_sum_range (fun s => pointSum term x t (16 * core.val + s) cl) 16]
  refine Finset.sum_congr rfl fun s _ => ?_
  unfold pointSum
  have hi : (⟨(16 * core.val + s.val) / 4 % 8, Nat.mod_lt _ (by decide)⟩ : Fin 8) = img core s := by
    apply Fin.ext
    unfold img
    have := core.isLt
    have := s.isLt
    show (16 * core.val + s.val) / 4 % 8 = core.val * 4 + s.val / 4
    omega
  have hr : ∀ r : Fin 128, (⟨((16 * core.val + s.val) % 4) * 128 + r.val, by omega⟩ : Fin 512) = row s r := by
    intro r
    apply Fin.ext
    unfold row
    show ((16 * core.val + s.val) % 4) * 128 + r.val = (s.val % 4) * 128 + r.val
    omega
  simp only [hi, hr]

/-- The array of core shares, as an output array holds it: entry `(core, c, 0, 0)`. -/
def coreArr (term : (Fin 19 → ℝ) → BitVec 32 → Fin 19 → ℝ) (x : FVec Ideal SLog .f32) (t : IVec SLab 32) :
    FVec Ideal S2x19x1x1 .f32 :=
  fun i => ((coreSum term x t (i 0) (i 1) : ℝ) : EReal)

/-- An accumulator that holds, at a core's last point `n`, the sum of the shares of the core's points up to `n`, holds
    the core's share; with a leading unit axis it is row `n / 16` of the array of core shares. -/
theorem lead_eq_row (term : (Fin 19 → ℝ) → BitVec 32 → Fin 19 → ℝ) (x : FVec Ideal SLog .f32) (lb : IVec SLab 32)
    (n : ℕ) (hn : n % 16 = 15) (hN : n < 32) (acc : Vec Ideal S19x1x1 .f32)
    (hacc : ∀ cl : Fin 19, acc (ix3 cl 0 0)
      = ((∑ s ∈ Finset.range (n % 16 + 1), pointSum term x lb (n - n % 16 + s) cl : ℝ) : EReal))
    (u : Fin 1) (cl : Fin 19) (v v' : Fin 1) :
    Pieces.lead acc (ix4 u cl v v') = coreArr term x lb (ix4 (⟨n / 16, by omega⟩ : Fin 2) cl (0 : Fin 1) (0 : Fin 1)) := by
  obtain rfl : v = 0 := Subsingleton.elim _ _
  obtain rfl : v' = 0 := Subsingleton.elim _ _
  refine (shapeCast_abc_1abc_apply acc _ u cl 0 0).trans ?_
  rw [hacc cl]
  show _ = ((coreSum term x lb ⟨n / 16, _⟩ cl : ℝ) : EReal)
  rw [← coreSum_eq_range term x lb ⟨n / 16, by omega⟩ cl, hn]
  have hb : n - 15 = 16 * (n / 16) := by omega
  rw [hb]

/-- The accumulators' reset value is zero at every class. -/
theorem zeroAcc_apply (cl : Fin 19) : Pieces.zeroAcc (F := Ideal) (ix3 cl 0 0) = 0 := by
  show k0_pay8 (F := Ideal) (ix3 cl 0 0) = 0
  unfold k0_pay8
  rw [shapeCast_self]
  exact ofBits_zero

variable (m : (ℓ : Loc nD τ sig) → Buf (Elt Ideal) ℓ)

/-! ## The blocks a point works on, read off the arrays -/

/-- The scores and the labels as the kernel finds them. -/
abbrev scores (c : Dev nD) : FVec Ideal SLog .f32 := m ((c : Thread nD τ).loc main_arg0)
abbrev labels (c : Dev nD) : IVec SLab 32 := m ((c : Thread nD τ).loc main_arg1)

/-- The block of scores and the block of labels that point `t` works on. -/
abbrev xblk (c : Dev nD) (t : Fin cfg0.N) : Vec Ideal S1x19x128x512 .f32 := iblk m c 0 t
abbrev tblk (c : Dev nD) (t : Fin cfg0.N) : Vec Ideal S1x128x512 .i32 := iblk m c 1 t

/-- The input block indices over the grid: the scores' block is (image `t / 4`, 0, band `t mod 4`, 0) and the labels' block is
    (image, band, 0). -/
theorem idx_in : ∀ t : Fin cfg0.N,
    (win0_0.index t 0 = t.val / 4 ∧ win0_0.index t 1 = 0 ∧ win0_0.index t 2 = t.val % 4 ∧ win0_0.index t 3 = 0)
    ∧ (win0_1.index t 0 = t.val / 4 ∧ win0_1.index t 1 = t.val % 4 ∧ win0_1.index t 2 = 0) :=
  (by decide +kernel : ∀ t : Fin grid0.N, _)

/-- Each output's block at point `t` is (core `t / 16`, 0, 0, 0). -/
theorem idx_out : ∀ t : Fin cfg0.N,
    (win0_2.index t 0 = t.val / 16 ∧ win0_2.index t 1 = 0 ∧ win0_2.index t 2 = 0 ∧ win0_2.index t 3 = 0)
    ∧ (win0_3.index t 0 = t.val / 16 ∧ win0_3.index t 1 = 0 ∧ win0_3.index t 2 = 0 ∧ win0_3.index t 3 = 0)
    ∧ (win0_4.index t 0 = t.val / 16 ∧ win0_4.index t 1 = 0 ∧ win0_4.index t 2 = 0 ∧ win0_4.index t 3 = 0)
    ∧ (win0_5.index t 0 = t.val / 16 ∧ win0_5.index t 1 = 0 ∧ win0_5.index t 2 = 0 ∧ win0_5.index t 3 = 0)
    ∧ (win0_6.index t 0 = t.val / 16 ∧ win0_6.index t 1 = 0 ∧ win0_6.index t 2 = 0 ∧ win0_6.index t 3 = 0) :=
  (by decide +kernel : ∀ t : Fin grid0.N, _)

/-- The scores' block at point `t` is image `t / 4`, rows `128 · (t mod 4) …` of the scores. -/
theorem xblk_apply (c : Dev nD) (t : Fin cfg0.N) (cl : Fin 19) (r : Fin 128) (w : Fin 512) :
    xblk m c t (ix4 (0 : Fin 1) cl r w)
      = scores m c (ix4 (⟨t.val / 4 % 8, Nat.mod_lt _ (by decide)⟩ : Fin 8) cl (⟨(t.val % 4) * 128 + r.val, by omega⟩ : Fin 512) w) := by
  obtain ⟨⟨e0, e1, e2, e3⟩, -⟩ := idx_in t
  have hN : t.val < 32 := lt_of_lt_of_eq t.isLt (show cfg0.N = 32 from N_0)
  show iblk m c 0 t (ix4 (0 : Fin 1) cl r w) = _
  unfold iblk
  rw [View.read_apply]
  show m ((c : Thread nD τ).loc main_arg0) _ = m ((c : Thread nD τ).loc main_arg0) _
  congr 1
  funext a
  apply Fin.ext
  match a with
  | ⟨0, _⟩ => show win0_0.index t 0 * 1 + 1 * (0 : Fin 1).val = t.val / 4 % 8; rw [e0]; omega
  | ⟨1, _⟩ => show win0_0.index t 1 * 19 + 1 * cl.val = cl.val; rw [e1]; omega
  | ⟨2, _⟩ => show win0_0.index t 2 * 128 + 1 * r.val = (t.val % 4) * 128 + r.val; rw [e2]; omega
  | ⟨3, _⟩ => show win0_0.index t 3 * 512 + 1 * w.val = w.val; rw [e3]; omega

/-- The labels' block at point `t` is image `t / 4`, rows `128 · (t mod 4) …` of the labels. -/
theorem tblk_apply (c : Dev nD) (t : Fin cfg0.N) (r : Fin 128) (w : Fin 512) :
    tblk m c t (ix3 (0 : Fin 1) r w)
      = labels m c (ix3 (⟨t.val / 4 % 8, Nat.mod_lt _ (by decide)⟩ : Fin 8) (⟨(t.val % 4) * 128 + r.val, by omega⟩ : Fin 512) w) := by
  obtain ⟨-, e0, e1, e2⟩ := idx_in t
  have hN : t.val < 32 := lt_of_lt_of_eq t.isLt (show cfg0.N = 32 from N_0)
  show iblk m c 1 t (ix3 (0 : Fin 1) r w) = _
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * (0 : Fin 1).val = t.val / 4 % 8; rw [e0]; omega
  | ⟨1, _⟩ => show win0_1.index t 1 * 128 + 1 * r.val = (t.val % 4) * 128 + r.val; rw [e1]; omega
  | ⟨2, _⟩ => show win0_1.index t 2 * 512 + 1 * w.val = w.val; rw [e2]; omega

/-- The real numbers the scores' block at point `t` holds, when the scores are real. -/
def xreal (c : Dev nD) (t : Fin cfg0.N) : Fin 19 → Fin 128 → Fin 512 → ℝ :=
  fun cl r w => (xblk m c t (ix4 (0 : Fin 1) cl r w)).toReal

/-- When the scores are real numbers, so are the entries of every block of them. -/
theorem xblk_real (c : Dev nD) (hfin : ∀ i, scores m c i = (((scores m c i).toReal : ℝ) : EReal)) (t : Fin cfg0.N)
    (cl : Fin 19) (r : Fin 128) (w : Fin 512) :
    xblk m c t (ix4 (0 : Fin 1) cl r w) = ((xreal m c t cl r w : ℝ) : EReal) := by
  unfold xreal
  rw [xblk_apply]
  exact hfin _

/-- The block's sum of a term is the point's share. -/
theorem blockSum_point (term : (Fin 19 → ℝ) → BitVec 32 → Fin 19 → ℝ) (c : Dev nD) (t : Fin cfg0.N) (cl : Fin 19) :
    BlockValue.blockSum (xreal m c t) (tblk m c t) term cl = pointSum term (scores m c) (labels m c) t.val cl := by
  unfold BlockValue.blockSum pointSum
  refine Finset.sum_congr rfl fun r _ => Finset.sum_congr rfl fun w _ => ?_
  have hp : BlockValue.pix (xreal m c t) r w
      = fun c' => scoreR (scores m c) ⟨t.val / 4 % 8, Nat.mod_lt _ (by decide)⟩ c' ⟨(t.val % 4) * 128 + r.val, by omega⟩ w := by
    funext c'
    show (xblk m c t (ix4 (0 : Fin 1) c' r w)).toReal = (scores m c (ix4 _ c' _ w)).toReal
    rw [xblk_apply]
  have hl : BlockValue.lab (tblk m c t) r w
      = labelW (labels m c) ⟨t.val / 4 % 8, Nat.mod_lt _ (by decide)⟩ ⟨(t.val % 4) * 128 + r.val, by omega⟩ w :=
    tblk_apply m c t r w
  rw [hp, hl]

/-! ## The accumulators after each point -/

/-- A per-class accumulator that a core's first point sets to zero plus its block's sum of a term, and every later point
    adds its block's sum to, holds after point `n` the sum of the shares of the core's points up to `n`: by induction
    on the point. -/
theorem partial_sum (term : (Fin 19 → ℝ) → BitVec 32 → Fin 19 → ℝ)
    (upd : Vec Ideal S1x19x128x512 .f32 → Vec Ideal S1x128x512 .i32 → Vec Ideal S19x1x1 .f32 → Vec Ideal S19x1x1 .f32)
    (hupd : ∀ (xr : Fin 19 → Fin 128 → Fin 512 → ℝ) (x0 : Vec Ideal S1x19x128x512 .f32) (x1 : Vec Ideal S1x128x512 .i32),
      (∀ cl r w, x0 (ix4 (0 : Fin 1) cl r w) = ((xr cl r w : ℝ) : EReal)) → ∀ (prev : Vec Ideal S19x1x1 .f32) (cl : Fin 19),
        upd x0 x1 prev (ix3 cl 0 0) = prev (ix3 cl 0 0) + ((BlockValue.blockSum xr x1 term cl : ℝ) : EReal))
    (c : Dev nD) (hfin : ∀ i, scores m c i = (((scores m c i).toReal : ℝ) : EReal))
    (acc : (n : ℕ) → n < cfg0.N → Vec Ideal S19x1x1 .f32)
    (hfirst : ∀ t : Fin cfg0.N, t.val % 16 = 0 → acc t.val t.isLt = upd (xblk m c t) (tblk m c t) Pieces.zeroAcc)
    (hnext : ∀ t : Fin cfg0.N, ¬t.val % 16 = 0 →
      acc t.val t.isLt = upd (xblk m c t) (tblk m c t) (acc (t.val - 1) (Nat.lt_of_le_of_lt (Nat.sub_le _ _) t.isLt))) :
    ∀ (n : ℕ) (h : n < cfg0.N) (cl : Fin 19),
      acc n h (ix3 cl 0 0)
        = ((∑ s ∈ Finset.range (n % 16 + 1), pointSum term (scores m c) (labels m c) (n - n % 16 + s) cl : ℝ) : EReal) := by
  have first : ∀ t : Fin cfg0.N, t.val % 16 = 0 → ∀ cl : Fin 19, acc t.val t.isLt (ix3 cl 0 0)
      = ((∑ s ∈ Finset.range (t.val % 16 + 1), pointSum term (scores m c) (labels m c) (t.val - t.val % 16 + s) cl : ℝ) : EReal) := by
    intro t h0 cl
    rw [hfirst t h0, hupd (xreal m c t) (xblk m c t) (tblk m c t) (xblk_real m c hfin t) Pieces.zeroAcc cl, zeroAcc_apply, zero_add,
      blockSum_point, h0]
    show _ = ((∑ s ∈ Finset.range 1, pointSum term (scores m c) (labels m c) (t.val + s) cl : ℝ) : EReal)
    rw [Finset.sum_range_one]
    rfl
  intro n
  induction n with
  | zero => intro h cl; exact first ⟨0, h⟩ rfl cl
  | succ n ih =>
    intro h cl
    by_cases h0 : (n + 1) % 16 = 0
    · exact first ⟨n + 1, h⟩ h0 cl
    · have hn : n < cfg0.N := Nat.lt_of_succ_lt h
      have e : acc (n + 1) h = upd (xblk m c ⟨n + 1, h⟩) (tblk m c ⟨n + 1, h⟩) (acc n hn) := hnext ⟨n + 1, h⟩ h0
      rw [e, hupd (xreal m c ⟨n + 1, h⟩) (xblk m c ⟨n + 1, h⟩) (tblk m c ⟨n + 1, h⟩) (xblk_real m c hfin ⟨n + 1, h⟩) (acc n hn) cl,
        ih hn cl, blockSum_point, ← EReal.coe_add]
      show ((_ + pointSum term (scores m c) (labels m c) (n + 1) cl : ℝ) : EReal) = _
      have hm : (n + 1) % 16 = n % 16 + 1 := by omega
      have hb : n + 1 - (n % 16 + 1) = n - n % 16 := by omega
      have hl : n - n % 16 + (n % 16 + 1) = n + 1 := by omega
      rw [hm, hb, Finset.sum_range_succ _ (n % 16 + 1), hl]

/-! ## The five accumulators, point by point -/

/-- What the point before `t` left in the outputs and the accumulators. -/
abbrev before (c : Dev nD) (t : Fin cfg0.N) := outsAt0 m c (t.val - 1) (Nat.lt_of_le_of_lt (Nat.sub_le _ _) t.isLt)

/-- The last point of each core: number `16·core + 15`. -/
theorem lastPoint_lt (core : Fin 2) : 16 * core.val + 15 < cfg0.N := by
  rw [show cfg0.N = 32 from N_0]
  omega

/-! ### The intersection -/

/-- A core's first point leaves the intersection accumulator at zero plus its block's sum. -/
theorem inter_first (c : Dev nD) (t : Fin cfg0.N) (h0 : t.val % 16 = 0) :
    (outsAt0 m c t.val t.isLt).2.2.2.2.2.1 = Pieces.accInter (xblk m c t) (tblk m c t) Pieces.zeroAcc := by
  have h1 : ¬t.val % 16 = 15 := by omega
  rw [outsAt0_A m c t h0 h1]
  dsimp only
  exact Pieces.first_accInter c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (xblk m c t) (tblk m c t)

/-- Every other point adds its block's sum to what the point before left in the intersection accumulator. -/
theorem inter_next (c : Dev nD) (t : Fin cfg0.N) (h0 : ¬t.val % 16 = 0) :
    (outsAt0 m c t.val t.isLt).2.2.2.2.2.1 = Pieces.accInter (xblk m c t) (tblk m c t) (before m c t).2.2.2.2.2.1 := by
  by_cases h1 : t.val % 16 = 15
  · rw [outsAt0_C m c t h0 h1]
    dsimp only
    exact Pieces.last_accInter c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (xblk m c t) (tblk m c t) (before m c t).2.2.2.2.2.1 (before m c t).2.2.2.2.2.2.1 (before m c t).2.2.2.2.2.2.2.1 (before m c t).2.2.2.2.2.2.2.2.1 (before m c t).2.2.2.2.2.2.2.2.2
  · rw [outsAt0_B m c t h0 h1]
    dsimp only
    exact Pieces.mid_accInter c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (xblk m c t) (tblk m c t) (before m c t).2.2.2.2.2.1 (before m c t).2.2.2.2.2.2.1 (before m c t).2.2.2.2.2.2.2.1 (before m c t).2.2.2.2.2.2.2.2.1 (before m c t).2.2.2.2.2.2.2.2.2

/-- A core's last point stores the updated intersection accumulator, with a leading unit axis, in the output block. -/
theorem inter_out (c : Dev nD) (t : Fin cfg0.N) (h0 : ¬t.val % 16 = 0) (h1 : t.val % 16 = 15) :
    (outsAt0 m c t.val t.isLt).1 = Pieces.lead (Pieces.accInter (xblk m c t) (tblk m c t) (before m c t).2.2.2.2.2.1) := by
  rw [outsAt0_C m c t h0 h1]
  dsimp only
  exact Pieces.out_accInter c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (xblk m c t) (tblk m c t) (before m c t).2.2.2.2.2.1 (before m c t).2.2.2.2.2.2.1 (before m c t).2.2.2.2.2.2.2.1 (before m c t).2.2.2.2.2.2.2.2.1 (before m c t).2.2.2.2.2.2.2.2.2

/-- After point `n` the intersection accumulator holds the shares of the core's points up to `n`. -/
theorem inter_partial (c : Dev nD) (hfin : ∀ i, scores m c i = (((scores m c i).toReal : ℝ) : EReal)) (n : ℕ) (h : n < cfg0.N)
    (cl : Fin 19) :
    (outsAt0 m c n h).2.2.2.2.2.1 (ix3 cl 0 0)
      = ((∑ s ∈ Finset.range (n % 16 + 1), pointSum tInter (scores m c) (labels m c) (n - n % 16 + s) cl : ℝ) : EReal) :=
  partial_sum m tInter Pieces.accInter (fun xr x0 x1 hx prev cl => BlockValue.accInter_apply xr x0 x1 hx prev cl) c hfin
    (fun n h => (outsAt0 m c n h).2.2.2.2.2.1) (fun t h0 => inter_first m c t h0) (fun t h0 => inter_next m c t h0) n h cl

/-- An index of the intersection array lies in point `t`'s block when its core coordinate is `t / 16`. -/
theorem mem_blk2 (t : Fin cfg0.N) (i : S2x19x1x1.Idx) (h : (i 0).val = t.val / 16) : i ∈ ((cfg0.win 2).blk t).view.set := by
  obtain ⟨e0, e1, e2, e3⟩ := (idx_out t).1
  have h1 : (i 1).val < 19 := (i 1).isLt
  have h2 : (i 2).val < 1 := (i 2).isLt
  have h3 : (i 3).val < 1 := (i 3).isLt
  show i ∈ ((View.whole main_v0_0).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 19 ≤ (i 1).val ∧ (i 1).val < win0_2.index t 1 * 19 + 19; rw [e1]; omega
  | ⟨2, _⟩ => show win0_2.index t 2 * 1 ≤ (i 2).val ∧ (i 2).val < win0_2.index t 2 * 1 + 1; rw [e2]; omega
  | ⟨3, _⟩ => show win0_2.index t 3 * 1 ≤ (i 3).val ∧ (i 3).val < win0_2.index t 3 * 1 + 1; rw [e3]; omega

/-- What a core's last point writes back is that core's row of the array of intersection shares. -/
theorem flushed2_eq (c : Dev nD) (hfin : ∀ i, scores m c i = (((scores m c i).toReal : ℝ) : EReal)) (t : Fin cfg0.N)
    (hf : (cfg0.win 2).flush t = true) :
    (dats m 0 c).flushed 2 t = ((cfg0.win 2).blk t).view.read (Elt Ideal) (coreArr tInter (scores m c) (labels m c)) := by
  have h1 : t.val % 16 = 15 := (flush0_2 t).mp hf
  have h0 : ¬t.val % 16 = 0 := by omega
  have hN : t.val < 32 := lt_of_lt_of_eq t.isLt (show cfg0.N = 32 from N_0)
  obtain ⟨e0, e1, e2, e3⟩ := (idx_out t).1
  show (cfg0.win 2).cut (grid0.coords t) ((dats m 0 c).after 2 t) = _
  rw [after0_2, inter_out m c t h0 h1, ← inter_next m c t h0]
  show (Pieces.lead (outsAt0 m c t.val t.isLt).2.2.2.2.2.1 : S1x19x1x1.Idx → EReal) = _
  funext j
  obtain ⟨u, cl, v, v', rfl⟩ : ∃ (u : Fin 1) (cl : Fin 19) (v v' : Fin 1), j = ix4 u cl v v' := ⟨j 0, j 1, j 2, j 3, eq_ix4 j⟩
  refine (lead_eq_row tInter (scores m c) (labels m c) t.val h1 hN (outsAt0 m c t.val t.isLt).2.2.2.2.2.1
    (inter_partial m c hfin t.val t.isLt) u cl v v').trans ?_
  rw [View.read_apply]
  show coreArr tInter (scores m c) (labels m c) _ = coreArr tInter (scores m c) (labels m c) _
  congr 1
  funext a
  apply Fin.ext
  match a with
  | ⟨0, _⟩ => show t.val / 16 = win0_2.index t 0 * 1 + 1 * u.val; rw [e0]; omega
  | ⟨1, _⟩ => show cl.val = win0_2.index t 1 * 19 + 1 * cl.val; rw [e1]; omega
  | ⟨2, _⟩ => show (0 : Fin 1).val = win0_2.index t 2 * 1 + 1 * v.val; rw [e2]; omega
  | ⟨3, _⟩ => show (0 : Fin 1).val = win0_2.index t 3 * 1 + 1 * v'.val; rw [e3]; omega

/-- The intersection array after the run: the two cores' last points cover its two rows. -/
theorem final2 (c : Dev nD) (hfin : ∀ i, scores m c i = (((scores m c i).toReal : ℝ) : EReal)) :
    (dats m 0 c).arrAt 2 cfg0.N = coreArr tInter (scores m c) (labels m c) :=
  (dats m 0 c).arrAt_eq_of_cover 2 (coreArr tInter (scores m c) (labels m c)) (flushed2_eq m c hfin) fun i =>
    ⟨⟨16 * (i 0).val + 15, lastPoint_lt (i 0)⟩, (flush0_2 _).mpr (by show (16 * (i 0).val + 15) % 16 = 15; omega),
      mem_blk2 _ i (by show (i 0).val = (16 * (i 0).val + 15) / 16; omega)⟩

/-! ### The class counts -/

/-- A core's first point leaves the count accumulator at zero plus its block's sum. -/
theorem count_first (c : Dev nD) (t : Fin cfg0.N) (h0 : t.val % 16 = 0) :
    (outsAt0 m c t.val t.isLt).2.2.2.2.2.2.1 = Pieces.accCount (xblk m c t) (tblk m c t) Pieces.zeroAcc := by
  have h1 : ¬t.val % 16 = 15 := by omega
  rw [outsAt0_A m c t h0 h1]
  dsimp only
  exact Pieces.first_accCount c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (xblk m c t) (tblk m c t)

/-- Every other point adds its block's sum to what the point before left in the count accumulator. -/
theorem count_next (c : Dev nD) (t : Fin cfg0.N) (h0 : ¬t.val % 16 = 0) :
    (outsAt0 m c t.val t.isLt).2.2.2.2.2.2.1 = Pieces.accCount (xblk m c t) (tblk m c t) (before m c t).2.2.2.2.2.2.1 := by
  by_cases h1 : t.val % 16 = 15
  · rw [outsAt0_C m c t h0 h1]
    dsimp only
    exact Pieces.last_accCount c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (xblk m c t) (tblk m c t) (before m c t).2.2.2.2.2.1 (before m c t).2.2.2.2.2.2.1 (before m c t).2.2.2.2.2.2.2.1 (before m c t).2.2.2.2.2.2.2.2.1 (before m c t).2.2.2.2.2.2.2.2.2
  · rw [outsAt0_B m c t h0 h1]
    dsimp only
    exact Pieces.mid_accCount c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (xblk m c t) (tblk m c t) (before m c t).2.2.2.2.2.1 (before m c t).2.2.2.2.2.2.1 (before m c t).2.2.2.2.2.2.2.1 (before m c t).2.2.2.2.2.2.2.2.1 (before m c t).2.2.2.2.2.2.2.2.2

/-- A core's last point stores the updated count accumulator, with a leading unit axis, in the output block. -/
theorem count_out (c : Dev nD) (t : Fin cfg0.N) (h0 : ¬t.val % 16 = 0) (h1 : t.val % 16 = 15) :
    (outsAt0 m c t.val t.isLt).2.1 = Pieces.lead (Pieces.accCount (xblk m c t) (tblk m c t) (before m c t).2.2.2.2.2.2.1) := by
  rw [outsAt0_C m c t h0 h1]
  dsimp only
  exact Pieces.out_accCount c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (xblk m c t) (tblk m c t) (before m c t).2.2.2.2.2.1 (before m c t).2.2.2.2.2.2.1 (before m c t).2.2.2.2.2.2.2.1 (before m c t).2.2.2.2.2.2.2.2.1 (before m c t).2.2.2.2.2.2.2.2.2

/-- After point `n` the count accumulator holds the shares of the core's points up to `n`. -/
theorem count_partial (c : Dev nD) (hfin : ∀ i, scores m c i = (((scores m c i).toReal : ℝ) : EReal)) (n : ℕ) (h : n < cfg0.N)
    (cl : Fin 19) :
    (outsAt0 m c n h).2.2.2.2.2.2.1 (ix3 cl 0 0)
      = ((∑ s ∈ Finset.range (n % 16 + 1), pointSum tCount (scores m c) (labels m c) (n - n % 16 + s) cl : ℝ) : EReal) :=
  partial_sum m tCount Pieces.accCount (fun xr x0 x1 _ prev cl => BlockValue.accCount_apply xr x1 prev cl) c hfin
    (fun n h => (outsAt0 m c n h).2.2.2.2.2.2.1) (fun t h0 => count_first m c t h0) (fun t h0 => count_next m c t h0) n h cl

/-- An index of the count array lies in point `t`'s block when its core coordinate is `t / 16`. -/
theorem mem_blk3 (t : Fin cfg0.N) (i : S2x19x1x1.Idx) (h : (i 0).val = t.val / 16) : i ∈ ((cfg0.win 3).blk t).view.set := by
  obtain ⟨e0, e1, e2, e3⟩ := (idx_out t).2.1
  have h1 : (i 1).val < 19 := (i 1).isLt
  have h2 : (i 2).val < 1 := (i 2).isLt
  have h3 : (i 3).val < 1 := (i 3).isLt
  show i ∈ ((View.whole main_v0_1).slice (win0_3.rect t)).set
  rw [View.set_slice_whole, Rect.mem_set_unit]
  intro a
  match a with
  | ⟨0, _⟩ => show win0_3.index t 0 * 1 ≤ (i 0).val ∧ (i 0).val < win0_3.index t 0 * 1 + 1; rw [e0]; omega
  | ⟨1, _⟩ => show win0_3.index t 1 * 19 ≤ (i 1).val ∧ (i 1).val < win0_3.index t 1 * 19 + 19; rw [e1]; omega
  | ⟨2, _⟩ => show win0_3.index t 2 * 1 ≤ (i 2).val ∧ (i 2).val < win0_3.index t 2 * 1 + 1; rw [e2]; omega
  | ⟨3, _⟩ => show win0_3.index t 3 * 1 ≤ (i 3).val ∧ (i 3).val < win0_3.index t 3 * 1 + 1; rw [e3]; omega

/-- What a core's last point writes back is that core's row of the array of count shares. -/
theorem flushed3_eq (c : Dev nD) (hfin : ∀ i, scores m c i = (((scores m c i).toReal : ℝ) : EReal)) (t : Fin cfg0.N)
    (hf : (cfg0.win 3).flush t = true) :
    (dats m 0 c).flushed 3 t = ((cfg0.win 3).blk t).view.read (Elt Ideal) (coreArr tCount (scores m c) (labels m c)) := by
  have h1 : t.val % 16 = 15 := (flush0_3 t).mp hf
  have h0 : ¬t.val % 16 = 0 := by omega
  have hN : t.val < 32 := lt_of_lt_of_eq t.isLt (show cfg0.N = 32 from N_0)
  obtain ⟨e0, e1, e2, e3⟩ := (idx_out t).2.1
  show (cfg0.win 3).cut (grid0.coords t) ((dats m 0 c).after 3 t) = _
  rw [after0_3, count_out m c t h0 h1, ← count_next m c t h0]
  show (Pieces.lead (outsAt0 m c t.val t.isLt).2.2.2.2.2.2.1 : S1x19x1x1.Idx → EReal) = _
  funext j
  obtain ⟨u, cl, v, v', rfl⟩ : ∃ (u : Fin 1) (cl : Fin 19) (v v' : Fin 1), j = ix4 u cl v v' := ⟨j 0, j 1, j 2, j 3, eq_ix4 j⟩
  refine (lead_eq_row tCount (scores m c) (labels m c) t.val h1 hN (outsAt0 m c t.val t.isLt).2.2.2.2.2.2.1
    (count_partial m c hfin t.val t.isLt) u cl v v').trans ?_
  rw [View.read_apply]
  show coreArr tCount (scores m c) (labels m c) _ = coreArr tCount (scores m c) (labels m c) _
  congr 1
  funext a
  apply Fin.ext
  match a with
  | ⟨0, _⟩ => show t.val / 16 = win0_3.index t 0 * 1 + 1 * u.val; rw [e0]; omega
  | ⟨1, _⟩ => show cl.val = win0_3.index t 1 * 19 + 1 * cl.val; rw [e1]; omega
  | ⟨2, _⟩ => show (0 : Fin 1).val = win0_3.index t 2 * 1 + 1 * v.val; rw [e2]; omega
  | ⟨3, _⟩ => show (0 : Fin 1).val = win0_3.index t 3 * 1 + 1 * v'.val; rw [e3]; omega

/-- The count array after the run: the two cores' last points cover its two rows. -/
theorem final3 (c : Dev nD) (hfin : ∀ i, scores m c i = (((scores m c i).toReal : ℝ) : EReal)) :
    (dats m 0 c).arrAt 3 cfg0.N = coreArr tCount (scores m c) (labels m c) :=
  (dats m 0 c).arrAt_eq_of_cover 3 (coreArr tCount (scores m c) (labels m c)) (flushed3_eq m c hfin) fun i =>
    ⟨⟨16 * (i 0).val + 15, lastPoint_lt (i 0)⟩, (flush0_3 _).mpr (by show (16 * (i 0).val + 15) % 16 = 15; omega),
      mem_blk3 _ i (by show (i 0).val = (16 * (i 0).val + 15) / 16; omega)⟩

/-! ### The probability mass -/

/-- A core's first point leaves the probability-mass accumulator at zero plus its block's sum. -/
theorem prob_first (c : Dev nD) (t : Fin cfg0.N) (h0 : t.val % 16 = 0) :
    (outsAt0 m c t.val t.isLt).2.2.2.2.2.2.2.1 = Pieces.accProb (xblk m c t) (tblk m c t) Pieces.zeroAcc := by
  have h1 : ¬t.val % 16 = 15 := by omega
  rw [outsAt0_A m c t h0 h1]
  dsimp only
  exact Pieces.first_accProb c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (xblk m c t) (tblk m c t)

/-- Every other point adds its block's sum to what the point before left in the probability-mass accumulator. -/
theorem prob_next (c : Dev nD) (t : Fin cfg0.N) (h0 : ¬t.val % 16 = 0) :
    (outsAt0 m c t.val t.isLt).2.2.2.2.2.2.2.1 = Pieces.accProb (xblk m c t) (tblk m c t) (before m c t).2.2.2.2.2.2.2.1 := by
  by_cases h1 : t.val % 16 = 15
  · rw [outsAt0_C m c t h0 h1]
    dsimp only
    exact Pieces.last_accProb c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (xblk m c t) (tblk m c t) (before m c t).2.2.2.2.2.1 (before m c t).2.2.2.2.2.2.1 (before m c t).2.2.2.2.2.2.2.1 (before m c t).2.2.2.2.2.2.2.2.1 (before m c t).2.2.2.2.2.2.2.2.2
  · rw [outsAt0_B m c t h0 h1]
    dsimp only
    exact Pieces.mid_accProb c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (xblk m c t) (tblk m c t) (before m c t).2.2.2.2.2.1 (before m c t).2.2.2.2.2.2.1 (before m c t).2.2.2.2.2.2.2.1 (before m c t).2.2.2.2.2.2.2.2.1 (before m c t).2.2.2.2.2.2.2.2.2

/-- A core's last point stores the updated probability-mass accumulator, with a leading unit axis, in the output block. -/
theorem prob_out (c : Dev nD) (t : Fin cfg0.N) (h0 : ¬t.val % 16 = 0) (h1 : t.val % 16 = 15) :
    (outsAt0 m c t.val t.isLt).2.2.1 = Pieces.lead (Pieces.accProb (xblk m c t) (tblk m c t) (before m c t).2.2.2.2.2.2.2.1) := by
  rw [outsAt0_C m c t h0 h1]
  dsimp only
  exact Pieces.out_accProb c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (xblk m c t) (tblk m c t) (before m c t).2.2.2.2.2.1 (before m c t).2.2.2.2.2.2.1 (before m c t).2.2.2.2.2.2.2.1 (before m c t).2.2.2.2.2.2.2.2.1 (before m c t).2.2.2.2.2.2.2.2.2

/-- After point `n` the probability-mass accumulator holds the shares of the core's points up to `n`. -/
theorem prob_partial (c : Dev nD) (hfin : ∀ i, scores m c i = (((scores m c i).toReal : ℝ) : EReal)) (n : ℕ) (h : n < cfg0.N)
    (cl : Fin 19) :
    (outsAt0 m c n h).2.2.2.2.2.2.2.1 (ix3 cl 0 0)
      = ((∑ s ∈ Finset.range (n % 16 + 1), pointSum tProb (scores m c) (labels m c) (n - n % 16 + s) cl : ℝ) : EReal) :=
  partial_sum m tProb Pieces.accProb (fun xr x0 x1 hx prev cl => BlockValue.accProb_apply xr x0 x1 hx prev cl) c hfin
    (fun n h => (outsAt0 m c n h).2.2.2.2.2.2.2.1) (fun t h0 => prob_first m c t h0) (fun t h0 => prob_next m c t h0) n h cl

/-- An index of the probability-mass array lies in point `t`'s block when its core coordinate is `t / 16`. -/
theorem mem_blk4 (t : Fin cfg0.N) (i : S2x19x1x1.Idx) (h : (i 0).val = t.val / 16) : i ∈ ((cfg0.win 4).blk t).view.set := by
  obtain ⟨e0, e1, e2, e3⟩ := (idx_out t).2.2.1
  have h1 : (i 1).val < 19 := (i 1).isLt
  have h2 : (i 2).val < 1 := (i 2).isLt
  have h3 : (i 3).val < 1 := (i 3).isLt
  show i ∈ ((View.whole main_v0_2).slice (win0_4.rect t)).set
  rw [View.set_slice_whole, Rect.mem_set_unit]
  intro a
  match a with
  | ⟨0, _⟩ => show win0_4.index t 0 * 1 ≤ (i 0).val ∧ (i 0).val < win0_4.index t 0 * 1 + 1; rw [e0]; omega
  | ⟨1, _⟩ => show win0_4.index t 1 * 19 ≤ (i 1).val ∧ (i 1).val < win0_4.index t 1 * 19 + 19; rw [e1]; omega
  | ⟨2, _⟩ => show win0_4.index t 2 * 1 ≤ (i 2).val ∧ (i 2).val < win0_4.index t 2 * 1 + 1; rw [e2]; omega
  | ⟨3, _⟩ => show win0_4.index t 3 * 1 ≤ (i 3).val ∧ (i 3).val < win0_4.index t 3 * 1 + 1; rw [e3]; omega

/-- What a core's last point writes back is that core's row of the array of probability-mass shares. -/
theorem flushed4_eq (c : Dev nD) (hfin : ∀ i, scores m c i = (((scores m c i).toReal : ℝ) : EReal)) (t : Fin cfg0.N)
    (hf : (cfg0.win 4).flush t = true) :
    (dats m 0 c).flushed 4 t = ((cfg0.win 4).blk t).view.read (Elt Ideal) (coreArr tProb (scores m c) (labels m c)) := by
  have h1 : t.val % 16 = 15 := (flush0_4 t).mp hf
  have h0 : ¬t.val % 16 = 0 := by omega
  have hN : t.val < 32 := lt_of_lt_of_eq t.isLt (show cfg0.N = 32 from N_0)
  obtain ⟨e0, e1, e2, e3⟩ := (idx_out t).2.2.1
  show (cfg0.win 4).cut (grid0.coords t) ((dats m 0 c).after 4 t) = _
  rw [after0_4, prob_out m c t h0 h1, ← prob_next m c t h0]
  show (Pieces.lead (outsAt0 m c t.val t.isLt).2.2.2.2.2.2.2.1 : S1x19x1x1.Idx → EReal) = _
  funext j
  obtain ⟨u, cl, v, v', rfl⟩ : ∃ (u : Fin 1) (cl : Fin 19) (v v' : Fin 1), j = ix4 u cl v v' := ⟨j 0, j 1, j 2, j 3, eq_ix4 j⟩
  refine (lead_eq_row tProb (scores m c) (labels m c) t.val h1 hN (outsAt0 m c t.val t.isLt).2.2.2.2.2.2.2.1
    (prob_partial m c hfin t.val t.isLt) u cl v v').trans ?_
  rw [View.read_apply]
  show coreArr tProb (scores m c) (labels m c) _ = coreArr tProb (scores m c) (labels m c) _
  congr 1
  funext a
  apply Fin.ext
  match a with
  | ⟨0, _⟩ => show t.val / 16 = win0_4.index t 0 * 1 + 1 * u.val; rw [e0]; omega
  | ⟨1, _⟩ => show cl.val = win0_4.index t 1 * 19 + 1 * cl.val; rw [e1]; omega
  | ⟨2, _⟩ => show (0 : Fin 1).val = win0_4.index t 2 * 1 + 1 * v.val; rw [e2]; omega
  | ⟨3, _⟩ => show (0 : Fin 1).val = win0_4.index t 3 * 1 + 1 * v'.val; rw [e3]; omega

/-- The probability-mass array after the run: the two cores' last points cover its two rows. -/
theorem final4 (c : Dev nD) (hfin : ∀ i, scores m c i = (((scores m c i).toReal : ℝ) : EReal)) :
    (dats m 0 c).arrAt 4 cfg0.N = coreArr tProb (scores m c) (labels m c) :=
  (dats m 0 c).arrAt_eq_of_cover 4 (coreArr tProb (scores m c) (labels m c)) (flushed4_eq m c hfin) fun i =>
    ⟨⟨16 * (i 0).val + 15, lastPoint_lt (i 0)⟩, (flush0_4 _).mpr (by show (16 * (i 0).val + 15) % 16 = 15; omega),
      mem_blk4 _ i (by show (i 0).val = (16 * (i 0).val + 15) / 16; omega)⟩

/-! ### The cross-entropy numerator -/

/-- A core's first point leaves the cross-entropy accumulator at zero plus its block's sum. -/
theorem ce_first (c : Dev nD) (t : Fin cfg0.N) (h0 : t.val % 16 = 0) :
    (outsAt0 m c t.val t.isLt).2.2.2.2.2.2.2.2.1 = Pieces.accCe (xblk m c t) (tblk m c t) Pieces.zeroAcc := by
  have h1 : ¬t.val % 16 = 15 := by omega
  rw [outsAt0_A m c t h0 h1]
  dsimp only
  exact Pieces.first_accCe c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (xblk m c t) (tblk m c t)

/-- Every other point adds its block's sum to what the point before left in the cross-entropy accumulator. -/
theorem ce_next (c : Dev nD) (t : Fin cfg0.N) (h0 : ¬t.val % 16 = 0) :
    (outsAt0 m c t.val t.isLt).2.2.2.2.2.2.2.2.1 = Pieces.accCe (xblk m c t) (tblk m c t) (before m c t).2.2.2.2.2.2.2.2.1 := by
  by_cases h1 : t.val % 16 = 15
  · rw [outsAt0_C m c t h0 h1]
    dsimp only
    exact Pieces.last_accCe c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (xblk m c t) (tblk m c t) (before m c t).2.2.2.2.2.1 (before m c t).2.2.2.2.2.2.1 (before m c t).2.2.2.2.2.2.2.1 (before m c t).2.2.2.2.2.2.2.2.1 (before m c t).2.2.2.2.2.2.2.2.2
  · rw [outsAt0_B m c t h0 h1]
    dsimp only
    exact Pieces.mid_accCe c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (xblk m c t) (tblk m c t) (before m c t).2.2.2.2.2.1 (before m c t).2.2.2.2.2.2.1 (before m c t).2.2.2.2.2.2.2.1 (before m c t).2.2.2.2.2.2.2.2.1 (before m c t).2.2.2.2.2.2.2.2.2

/-- A core's last point stores the updated cross-entropy accumulator, with a leading unit axis, in the output block. -/
theorem ce_out (c : Dev nD) (t : Fin cfg0.N) (h0 : ¬t.val % 16 = 0) (h1 : t.val % 16 = 15) :
    (outsAt0 m c t.val t.isLt).2.2.2.1 = Pieces.lead (Pieces.accCe (xblk m c t) (tblk m c t) (before m c t).2.2.2.2.2.2.2.2.1) := by
  rw [outsAt0_C m c t h0 h1]
  dsimp only
  exact Pieces.out_accCe c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (xblk m c t) (tblk m c t) (before m c t).2.2.2.2.2.1 (before m c t).2.2.2.2.2.2.1 (before m c t).2.2.2.2.2.2.2.1 (before m c t).2.2.2.2.2.2.2.2.1 (before m c t).2.2.2.2.2.2.2.2.2

/-- After point `n` the cross-entropy accumulator holds the shares of the core's points up to `n`. -/
theorem ce_partial (c : Dev nD) (hfin : ∀ i, scores m c i = (((scores m c i).toReal : ℝ) : EReal)) (n : ℕ) (h : n < cfg0.N)
    (cl : Fin 19) :
    (outsAt0 m c n h).2.2.2.2.2.2.2.2.1 (ix3 cl 0 0)
      = ((∑ s ∈ Finset.range (n % 16 + 1), pointSum tCe (scores m c) (labels m c) (n - n % 16 + s) cl : ℝ) : EReal) :=
  partial_sum m tCe Pieces.accCe (fun xr x0 x1 hx prev cl => BlockValue.accCe_apply xr x0 x1 hx prev cl) c hfin
    (fun n h => (outsAt0 m c n h).2.2.2.2.2.2.2.2.1) (fun t h0 => ce_first m c t h0) (fun t h0 => ce_next m c t h0) n h cl

/-- An index of the cross-entropy array lies in point `t`'s block when its core coordinate is `t / 16`. -/
theorem mem_blk5 (t : Fin cfg0.N) (i : S2x19x1x1.Idx) (h : (i 0).val = t.val / 16) : i ∈ ((cfg0.win 5).blk t).view.set := by
  obtain ⟨e0, e1, e2, e3⟩ := (idx_out t).2.2.2.1
  have h1 : (i 1).val < 19 := (i 1).isLt
  have h2 : (i 2).val < 1 := (i 2).isLt
  have h3 : (i 3).val < 1 := (i 3).isLt
  show i ∈ ((View.whole main_v0_3).slice (win0_5.rect t)).set
  rw [View.set_slice_whole, Rect.mem_set_unit]
  intro a
  match a with
  | ⟨0, _⟩ => show win0_5.index t 0 * 1 ≤ (i 0).val ∧ (i 0).val < win0_5.index t 0 * 1 + 1; rw [e0]; omega
  | ⟨1, _⟩ => show win0_5.index t 1 * 19 ≤ (i 1).val ∧ (i 1).val < win0_5.index t 1 * 19 + 19; rw [e1]; omega
  | ⟨2, _⟩ => show win0_5.index t 2 * 1 ≤ (i 2).val ∧ (i 2).val < win0_5.index t 2 * 1 + 1; rw [e2]; omega
  | ⟨3, _⟩ => show win0_5.index t 3 * 1 ≤ (i 3).val ∧ (i 3).val < win0_5.index t 3 * 1 + 1; rw [e3]; omega

/-- What a core's last point writes back is that core's row of the array of cross-entropy shares. -/
theorem flushed5_eq (c : Dev nD) (hfin : ∀ i, scores m c i = (((scores m c i).toReal : ℝ) : EReal)) (t : Fin cfg0.N)
    (hf : (cfg0.win 5).flush t = true) :
    (dats m 0 c).flushed 5 t = ((cfg0.win 5).blk t).view.read (Elt Ideal) (coreArr tCe (scores m c) (labels m c)) := by
  have h1 : t.val % 16 = 15 := (flush0_5 t).mp hf
  have h0 : ¬t.val % 16 = 0 := by omega
  have hN : t.val < 32 := lt_of_lt_of_eq t.isLt (show cfg0.N = 32 from N_0)
  obtain ⟨e0, e1, e2, e3⟩ := (idx_out t).2.2.2.1
  show (cfg0.win 5).cut (grid0.coords t) ((dats m 0 c).after 5 t) = _
  rw [after0_5, ce_out m c t h0 h1, ← ce_next m c t h0]
  show (Pieces.lead (outsAt0 m c t.val t.isLt).2.2.2.2.2.2.2.2.1 : S1x19x1x1.Idx → EReal) = _
  funext j
  obtain ⟨u, cl, v, v', rfl⟩ : ∃ (u : Fin 1) (cl : Fin 19) (v v' : Fin 1), j = ix4 u cl v v' := ⟨j 0, j 1, j 2, j 3, eq_ix4 j⟩
  refine (lead_eq_row tCe (scores m c) (labels m c) t.val h1 hN (outsAt0 m c t.val t.isLt).2.2.2.2.2.2.2.2.1
    (ce_partial m c hfin t.val t.isLt) u cl v v').trans ?_
  rw [View.read_apply]
  show coreArr tCe (scores m c) (labels m c) _ = coreArr tCe (scores m c) (labels m c) _
  congr 1
  funext a
  apply Fin.ext
  match a with
  | ⟨0, _⟩ => show t.val / 16 = win0_5.index t 0 * 1 + 1 * u.val; rw [e0]; omega
  | ⟨1, _⟩ => show cl.val = win0_5.index t 1 * 19 + 1 * cl.val; rw [e1]; omega
  | ⟨2, _⟩ => show (0 : Fin 1).val = win0_5.index t 2 * 1 + 1 * v.val; rw [e2]; omega
  | ⟨3, _⟩ => show (0 : Fin 1).val = win0_5.index t 3 * 1 + 1 * v'.val; rw [e3]; omega

/-- The cross-entropy array after the run: the two cores' last points cover its two rows. -/
theorem final5 (c : Dev nD) (hfin : ∀ i, scores m c i = (((scores m c i).toReal : ℝ) : EReal)) :
    (dats m 0 c).arrAt 5 cfg0.N = coreArr tCe (scores m c) (labels m c) :=
  (dats m 0 c).arrAt_eq_of_cover 5 (coreArr tCe (scores m c) (labels m c)) (flushed5_eq m c hfin) fun i =>
    ⟨⟨16 * (i 0).val + 15, lastPoint_lt (i 0)⟩, (flush0_5 _).mpr (by show (16 * (i 0).val + 15) % 16 = 15; omega),
      mem_blk5 _ i (by show (i 0).val = (16 * (i 0).val + 15) / 16; omega)⟩

/-! ### The focal numerator -/

/-- A core's first point leaves the focal accumulator at zero plus its block's sum. -/
theorem focal_first (c : Dev nD) (t : Fin cfg0.N) (h0 : t.val % 16 = 0) :
    (outsAt0 m c t.val t.isLt).2.2.2.2.2.2.2.2.2 = Pieces.accFocal (xblk m c t) (tblk m c t) Pieces.zeroAcc := by
  have h1 : ¬t.val % 16 = 15 := by omega
  rw [outsAt0_A m c t h0 h1]
  dsimp only
  exact Pieces.first_accFocal c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (xblk m c t) (tblk m c t)

/-- Every other point adds its block's sum to what the point before left in the focal accumulator. -/
theorem focal_next (c : Dev nD) (t : Fin cfg0.N) (h0 : ¬t.val % 16 = 0) :
    (outsAt0 m c t.val t.isLt).2.2.2.2.2.2.2.2.2 = Pieces.accFocal (xblk m c t) (tblk m c t) (before m c t).2.2.2.2.2.2.2.2.2 := by
  by_cases h1 : t.val % 16 = 15
  · rw [outsAt0_C m c t h0 h1]
    dsimp only
    exact Pieces.last_accFocal c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (xblk m c t) (tblk m c t) (before m c t).2.2.2.2.2.1 (before m c t).2.2.2.2.2.2.1 (before m c t).2.2.2.2.2.2.2.1 (before m c t).2.2.2.2.2.2.2.2.1 (before m c t).2.2.2.2.2.2.2.2.2
  · rw [outsAt0_B m c t h0 h1]
    dsimp only
    exact Pieces.mid_accFocal c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (xblk m c t) (tblk m c t) (before m c t).2.2.2.2.2.1 (before m c t).2.2.2.2.2.2.1 (before m c t).2.2.2.2.2.2.2.1 (before m c t).2.2.2.2.2.2.2.2.1 (before m c t).2.2.2.2.2.2.2.2.2

/-- A core's last point stores the updated focal accumulator, with a leading unit axis, in the output block. -/
theorem focal_out (c : Dev nD) (t : Fin cfg0.N) (h0 : ¬t.val % 16 = 0) (h1 : t.val % 16 = 15) :
    (outsAt0 m c t.val t.isLt).2.2.2.2.1 = Pieces.lead (Pieces.accFocal (xblk m c t) (tblk m c t) (before m c t).2.2.2.2.2.2.2.2.2) := by
  rw [outsAt0_C m c t h0 h1]
  dsimp only
  exact Pieces.out_accFocal c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (xblk m c t) (tblk m c t) (before m c t).2.2.2.2.2.1 (before m c t).2.2.2.2.2.2.1 (before m c t).2.2.2.2.2.2.2.1 (before m c t).2.2.2.2.2.2.2.2.1 (before m c t).2.2.2.2.2.2.2.2.2

/-- After point `n` the focal accumulator holds the shares of the core's points up to `n`. -/
theorem focal_partial (c : Dev nD) (hfin : ∀ i, scores m c i = (((scores m c i).toReal : ℝ) : EReal)) (n : ℕ) (h : n < cfg0.N)
    (cl : Fin 19) :
    (outsAt0 m c n h).2.2.2.2.2.2.2.2.2 (ix3 cl 0 0)
      = ((∑ s ∈ Finset.range (n % 16 + 1), pointSum (tFocal eps) (scores m c) (labels m c) (n - n % 16 + s) cl : ℝ) : EReal) :=
  partial_sum m (tFocal eps) Pieces.accFocal (fun xr x0 x1 hx prev cl => BlockValue.accFocal_apply xr x0 x1 hx prev cl) c hfin
    (fun n h => (outsAt0 m c n h).2.2.2.2.2.2.2.2.2) (fun t h0 => focal_first m c t h0) (fun t h0 => focal_next m c t h0) n h cl

/-- An index of the focal array lies in point `t`'s block when its core coordinate is `t / 16`. -/
theorem mem_blk6 (t : Fin cfg0.N) (i : S2x19x1x1.Idx) (h : (i 0).val = t.val / 16) : i ∈ ((cfg0.win 6).blk t).view.set := by
  obtain ⟨e0, e1, e2, e3⟩ := (idx_out t).2.2.2.2
  have h1 : (i 1).val < 19 := (i 1).isLt
  have h2 : (i 2).val < 1 := (i 2).isLt
  have h3 : (i 3).val < 1 := (i 3).isLt
  show i ∈ ((View.whole main_v0_4).slice (win0_6.rect t)).set
  rw [View.set_slice_whole, Rect.mem_set_unit]
  intro a
  match a with
  | ⟨0, _⟩ => show win0_6.index t 0 * 1 ≤ (i 0).val ∧ (i 0).val < win0_6.index t 0 * 1 + 1; rw [e0]; omega
  | ⟨1, _⟩ => show win0_6.index t 1 * 19 ≤ (i 1).val ∧ (i 1).val < win0_6.index t 1 * 19 + 19; rw [e1]; omega
  | ⟨2, _⟩ => show win0_6.index t 2 * 1 ≤ (i 2).val ∧ (i 2).val < win0_6.index t 2 * 1 + 1; rw [e2]; omega
  | ⟨3, _⟩ => show win0_6.index t 3 * 1 ≤ (i 3).val ∧ (i 3).val < win0_6.index t 3 * 1 + 1; rw [e3]; omega

/-- What a core's last point writes back is that core's row of the array of focal shares. -/
theorem flushed6_eq (c : Dev nD) (hfin : ∀ i, scores m c i = (((scores m c i).toReal : ℝ) : EReal)) (t : Fin cfg0.N)
    (hf : (cfg0.win 6).flush t = true) :
    (dats m 0 c).flushed 6 t = ((cfg0.win 6).blk t).view.read (Elt Ideal) (coreArr (tFocal eps) (scores m c) (labels m c)) := by
  have h1 : t.val % 16 = 15 := (flush0_6 t).mp hf
  have h0 : ¬t.val % 16 = 0 := by omega
  have hN : t.val < 32 := lt_of_lt_of_eq t.isLt (show cfg0.N = 32 from N_0)
  obtain ⟨e0, e1, e2, e3⟩ := (idx_out t).2.2.2.2
  show (cfg0.win 6).cut (grid0.coords t) ((dats m 0 c).after 6 t) = _
  rw [after0_6, focal_out m c t h0 h1, ← focal_next m c t h0]
  show (Pieces.lead (outsAt0 m c t.val t.isLt).2.2.2.2.2.2.2.2.2 : S1x19x1x1.Idx → EReal) = _
  funext j
  obtain ⟨u, cl, v, v', rfl⟩ : ∃ (u : Fin 1) (cl : Fin 19) (v v' : Fin 1), j = ix4 u cl v v' := ⟨j 0, j 1, j 2, j 3, eq_ix4 j⟩
  refine (lead_eq_row (tFocal eps) (scores m c) (labels m c) t.val h1 hN (outsAt0 m c t.val t.isLt).2.2.2.2.2.2.2.2.2
    (focal_partial m c hfin t.val t.isLt) u cl v v').trans ?_
  rw [View.read_apply]
  show coreArr (tFocal eps) (scores m c) (labels m c) _ = coreArr (tFocal eps) (scores m c) (labels m c) _
  congr 1
  funext a
  apply Fin.ext
  match a with
  | ⟨0, _⟩ => show t.val / 16 = win0_6.index t 0 * 1 + 1 * u.val; rw [e0]; omega
  | ⟨1, _⟩ => show cl.val = win0_6.index t 1 * 19 + 1 * cl.val; rw [e1]; omega
  | ⟨2, _⟩ => show (0 : Fin 1).val = win0_6.index t 2 * 1 + 1 * v.val; rw [e2]; omega
  | ⟨3, _⟩ => show (0 : Fin 1).val = win0_6.index t 3 * 1 + 1 * v'.val; rw [e3]; omega

/-- The focal array after the run: the two cores' last points cover its two rows. -/
theorem final6 (c : Dev nD) (hfin : ∀ i, scores m c i = (((scores m c i).toReal : ℝ) : EReal)) :
    (dats m 0 c).arrAt 6 cfg0.N = coreArr (tFocal eps) (scores m c) (labels m c) :=
  (dats m 0 c).arrAt_eq_of_cover 6 (coreArr (tFocal eps) (scores m c) (labels m c)) (flushed6_eq m c hfin) fun i =>
    ⟨⟨16 * (i 0).val + 15, lastPoint_lt (i 0)⟩, (flush0_6 _).mpr (by show (16 * (i 0).val + 15) % 16 = 15; omega),
      mem_blk6 _ i (by show (i 0).val = (16 * (i 0).val + 15) / 16; omega)⟩

/-! ## The five output arrays after the run -/

/-- The intersection output after the run. -/
theorem out_inter (c : Dev nD)
    (hfin : ∀ i, m ((c : Thread nD τ).loc main_arg0) i = (((m ((c : Thread nD τ).loc main_arg0) i).toReal : ℝ) : EReal))
    (core : Fin 2) (cl : Fin 19) :
    (dats m 0 c).arrAt 2 cfg0.N (ix4 core cl 0 0)
      = ((coreSum tInter (m ((c : Thread nD τ).loc main_arg0)) (m ((c : Thread nD τ).loc main_arg1)) core cl : ℝ) : EReal) := by
  exact congrFun (final2 m c hfin) (ix4 core cl 0 0)

/-- The count output after the run. -/
theorem out_count (c : Dev nD)
    (hfin : ∀ i, m ((c : Thread nD τ).loc main_arg0) i = (((m ((c : Thread nD τ).loc main_arg0) i).toReal : ℝ) : EReal))
    (core : Fin 2) (cl : Fin 19) :
    (dats m 0 c).arrAt 3 cfg0.N (ix4 core cl 0 0)
      = ((coreSum tCount (m ((c : Thread nD τ).loc main_arg0)) (m ((c : Thread nD τ).loc main_arg1)) core cl : ℝ) : EReal) := by
  exact congrFun (final3 m c hfin) (ix4 core cl 0 0)

/-- The probability-mass output after the run. -/
theorem out_prob (c : Dev nD)
    (hfin : ∀ i, m ((c : Thread nD τ).loc main_arg0) i = (((m ((c : Thread nD τ).loc main_arg0) i).toReal : ℝ) : EReal))
    (core : Fin 2) (cl : Fin 19) :
    (dats m 0 c).arrAt 4 cfg0.N (ix4 core cl 0 0)
      = ((coreSum tProb (m ((c : Thread nD τ).loc main_arg0)) (m ((c : Thread nD τ).loc main_arg1)) core cl : ℝ) : EReal) := by
  exact congrFun (final4 m c hfin) (ix4 core cl 0 0)

/-- The cross-entropy output after the run. -/
theorem out_ce (c : Dev nD)
    (hfin : ∀ i, m ((c : Thread nD τ).loc main_arg0) i = (((m ((c : Thread nD τ).loc main_arg0) i).toReal : ℝ) : EReal))
    (core : Fin 2) (cl : Fin 19) :
    (dats m 0 c).arrAt 5 cfg0.N (ix4 core cl 0 0)
      = ((coreSum tCe (m ((c : Thread nD τ).loc main_arg0)) (m ((c : Thread nD τ).loc main_arg1)) core cl : ℝ) : EReal) := by
  exact congrFun (final5 m c hfin) (ix4 core cl 0 0)

/-- The focal output after the run. -/
theorem out_focal (c : Dev nD)
    (hfin : ∀ i, m ((c : Thread nD τ).loc main_arg0) i = (((m ((c : Thread nD τ).loc main_arg0) i).toReal : ℝ) : EReal))
    (core : Fin 2) (cl : Fin 19) :
    (dats m 0 c).arrAt 6 cfg0.N (ix4 core cl 0 0)
      = ((coreSum (tFocal eps) (m ((c : Thread nD τ).loc main_arg0)) (m ((c : Thread nD τ).loc main_arg1)) core cl : ℝ) : EReal) := by
  exact congrFun (final6 m c hfin) (ix4 core cl 0 0)

end Cert.KernelIdeal.Grid

end
-- ==== Proof.KernelValue.lean ====
/-
  The kernel program's result.  After the region, the host adds the two cores' rows of each output, weights the
  per-class sums and runs the closing stretch; with the outputs at the cores' shares of the specification's totals,
  the result is the loss of those totals, and the run leaves the four arguments as they were.
-/
import proofs.«411635_j77653008712127_2_alg».proof.Proof.Grid
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.FocalDice Cert.KernelIdeal.Grid

/-! ## The host's arithmetic on the outputs, as values -/

/-- The two cores' rows of an output added, as a per-class vector. -/
def rows (o : FVec Ideal S2x19x1x1 .f32) : FVec Ideal S19 .f32 :=
  shapeCast S19 (Host.reduceAdd o (constant (F := Ideal) S_ .f32 0x00000000#32) reducesTo_S2x19x1x1_S19x1x1_d0 h_S_) shapeCasts_S19x1x1_S19

/-- A per-class vector weighted class by class and summed. -/
def dotw (a v : FVec Ideal S19 .f32) : FVec Ideal S_ .f32 :=
  Host.reduceAdd (mulf a v) (constant (F := Ideal) S_ .f32 0x00000000#32) reducesTo_S19_S_d0 h_S_

/-- A per-class index is its one coordinate. -/
def idxEquiv1 {n : Nat} : (⟨1, ![n]⟩ : Shape).Idx ≃ Fin n where
  toFun i := i 0
  invFun := ix1
  left_inv i := (eq_ix1 i).symm
  right_inv _ := rfl

/-- A sum over per-class indices is the sum over the classes. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

theorem rows_apply (o : FVec Ideal S2x19x1x1 .f32) (cl : Fin 19) :
    rows o (ix1 cl) = o (ix4 0 cl 0 0) + o (ix4 1 cl 0 0) := by
  unfold rows
  rw [shapeCast_apply _ _ (ix1 cl) (ix3 cl 0 0) (by rw [Shape.rowMajor_val_three, Shape.rowMajor_val_one]; simp)]
  show Ideal.hostReduceAdd reducesTo_S2x19x1x1_S19x1x1_d0 o (Ideal.ofBits .f32 0x00000000#32) (ix3 cl 0 0) = _
  rw [Ideal.hostReduceAdd_single _ (by decide : S2x19x1x1.Reduces [0] S19x1x1), Ideal.ofBits_zero_f32, zero_add]
  have hl : ∀ k : Fin 2, (by decide : S2x19x1x1.Reduces [0] S19x1x1).lift (ix3 cl 0 0) k = ix4 k cl 0 0 := by
    intro k
    funext a
    match a with
    | ⟨0, _⟩ => exact Fin.ext rfl
    | ⟨1, _⟩ => exact Fin.ext rfl
    | ⟨2, _⟩ => exact Fin.ext rfl
    | ⟨3, _⟩ => exact Fin.ext rfl
  show ∑ k : Fin 2, o ((by decide : S2x19x1x1.Reduces [0] S19x1x1).lift (ix3 cl 0 0) k) = _
  rw [Fin.sum_univ_two, hl 0, hl 1]

/-- The added rows of an output whose entries are the cores' shares of a total are the total, class by class. -/
theorem rows_eq_classArr (o : FVec Ideal S2x19x1x1 .f32) (term : (Fin 19 → ℝ) → BitVec 32 → Fin 19 → ℝ)
    (x : FVec Ideal SLog .f32) (t : IVec SLab 32) (s : Fin 2 → Fin 19 → ℝ)
    (ho : ∀ core cl, o (ix4 core cl 0 0) = ((s core cl : ℝ) : EReal))
    (hs : ∀ cl, ∑ core : Fin 2, s core cl = total term (scoreR x) (labelW t) cl) :
    rows o = classArr term x t := by
  funext i
  obtain ⟨cl, rfl⟩ : ∃ cl : Fin 19, i = ix1 cl := ⟨i 0, eq_ix1 (n := 19) i⟩
  rw [rows_apply, ho, ho, ← EReal.coe_add, ← Fin.sum_univ_two (fun core => s core cl), hs]
  rfl

/-- Weighting a per-class total by a finite weight vector and summing. -/
theorem dotw_eq_weighted (a : FVec Ideal S19 .f32) (ha : ∀ i, a i = (((a i).toReal : ℝ) : EReal))
    (term : (Fin 19 → ℝ) → BitVec 32 → Fin 19 → ℝ) (x : FVec Ideal SLog .f32) (t : IVec SLab 32) :
    dotw a (classArr term x t) = weighted term x t a := by
  funext j
  unfold dotw
  show Ideal.hostReduceAdd reducesTo_S19_S_d0 (mulf a (classArr term x t)) (Ideal.ofBits .f32 0x00000000#32) j = _
  rw [Ideal.hostReduceAdd_total _ (fun b => b.elim0), Ideal.ofBits_zero_f32, zero_add, sum_idx1]
  show ∑ k : Fin 19, a (ix1 k) * ((total term (scoreR x) (labelW t) k : ℝ) : EReal) = ((∑ c : Fin 19, vecR a c * total term (scoreR x) (labelW t) c : ℝ) : EReal)
  rw [coe_sum]
  refine Finset.sum_congr rfl fun k _ => ?_
  rw [ha (ix1 k), EReal.coe_mul]
  rfl

/-- The closing stretch fed with the added rows of the five outputs is the loss of the totals, when each output holds the
    cores' shares of its total and both weight vectors are finite. -/
theorem chain_eq_loss (x : FVec Ideal SLog .f32) (t : IVec SLab 32) (cw al : FVec Ideal S19 .f32)
    (o0 o1 o2 o3 o4 : FVec Ideal S2x19x1x1 .f32) (s0 s1 s2 s3 s4 : Fin 2 → Fin 19 → ℝ)
    (ho0 : ∀ core cl, o0 (ix4 core cl 0 0) = ((s0 core cl : ℝ) : EReal))
    (ho1 : ∀ core cl, o1 (ix4 core cl 0 0) = ((s1 core cl : ℝ) : EReal))
    (ho2 : ∀ core cl, o2 (ix4 core cl 0 0) = ((s2 core cl : ℝ) : EReal))
    (ho3 : ∀ core cl, o3 (ix4 core cl 0 0) = ((s3 core cl : ℝ) : EReal))
    (ho4 : ∀ core cl, o4 (ix4 core cl 0 0) = ((s4 core cl : ℝ) : EReal))
    (hs0 : ∀ cl, ∑ core : Fin 2, s0 core cl = total tInter (scoreR x) (labelW t) cl)
    (hs1 : ∀ cl, ∑ core : Fin 2, s1 core cl = total tCount (scoreR x) (labelW t) cl)
    (hs2 : ∀ cl, ∑ core : Fin 2, s2 core cl = total tProb (scoreR x) (labelW t) cl)
    (hs3 : ∀ cl, ∑ core : Fin 2, s3 core cl = total tCe (scoreR x) (labelW t) cl)
    (hs4 : ∀ cl, ∑ core : Fin 2, s4 core cl = total (tFocal eps) (scoreR x) (labelW t) cl)
    (hcw : ∀ i, cw i = (((cw i).toReal : ℝ) : EReal)) (hal : ∀ i, al i = (((al i).toReal : ℝ) : EReal)) :
    tail bcast_S_S19 reducesTo_S19_S_d0 h_S_ (rows o0) (rows o1) (rows o2) (dotw cw (rows o3)) (dotw cw (rows o1))
        (dotw al (rows o4)) cw
      = loss bcast_S_S19 reducesTo_S19_S_d0 h_S_ x t cw al := by
  rw [rows_eq_classArr o0 tInter x t s0 ho0 hs0, rows_eq_classArr o1 tCount x t s1 ho1 hs1,
    rows_eq_classArr o2 tProb x t s2 ho2 hs2, rows_eq_classArr o3 tCe x t s3 ho3 hs3,
    rows_eq_classArr o4 (tFocal eps) x t s4 ho4 hs4, dotw_eq_weighted cw hcw, dotw_eq_weighted cw hcw,
    dotw_eq_weighted al hal]
  rfl

/-! ## The program's result and run -/

variable (m : (ℓ : Loc nD τ sig) → Buf (Elt Ideal) ℓ) (ρ : Dev nD → PrngReg)

set_option maxRecDepth 8192 in
set_option maxHeartbeats 2000000 in
/-- The result buffer after the host operations is the closing stretch, fed with the added rows of the five output arrays
    (the dice sums as they are, the cross-entropy and focal sums weighted by the two weight vectors). -/
theorem tail_term (dats : (p : Fin 1) → (c : Dev nD) → Dat τ (Elt Ideal) Unit ℕ (UR sig nD τ) ℕ (cfgs p) c) (c : Dev nD) :
    Pipeline.afterTail₀ cfgs dats 0 (V0 m) [hostOps1] c main_v38
      = tail bcast_S_S19 reducesTo_S19_S_d0 h_S_ (rows ((dats 0 c).arrAt 2 cfg0.N)) (rows ((dats 0 c).arrAt 3 cfg0.N))
          (rows ((dats 0 c).arrAt 4 cfg0.N))
          (dotw (m ((c : Thread nD τ).loc main_arg2)) (rows ((dats 0 c).arrAt 5 cfg0.N)))
          (dotw (m ((c : Thread nD τ).loc main_arg2)) (rows ((dats 0 c).arrAt 3 cfg0.N)))
          (dotw (m ((c : Thread nD τ).loc main_arg3)) (rows ((dats 0 c).arrAt 6 cfg0.N)))
          (m ((c : Thread nD τ).loc main_arg2)) := by
  unfold Pipeline.afterTail₀
  -- the five output arrays hold what the region leaves in them
  have e2 := Pipeline.withArrays_arr (cfgs 0).spec launch0.win.arr_inj c (V0 m c) (fun w => (dats 0 c).arrAt w (cfgs 0).N) 2
  have e3 := Pipeline.withArrays_arr (cfgs 0).spec launch0.win.arr_inj c (V0 m c) (fun w => (dats 0 c).arrAt w (cfgs 0).N) 3
  have e4 := Pipeline.withArrays_arr (cfgs 0).spec launch0.win.arr_inj c (V0 m c) (fun w => (dats 0 c).arrAt w (cfgs 0).N) 4
  have e5 := Pipeline.withArrays_arr (cfgs 0).spec launch0.win.arr_inj c (V0 m c) (fun w => (dats 0 c).arrAt w (cfgs 0).N) 5
  have e6 := Pipeline.withArrays_arr (cfgs 0).spec launch0.win.arr_inj c (V0 m c) (fun w => (dats 0 c).arrAt w (cfgs 0).N) 6
  -- the two weight vectors are no array of the pipeline: they hold what they held at launch
  have a2 := Pipeline.withArrays_of_ne (cfgs 0).spec c (V0 m c) (fun w => (dats 0 c).arrAt w (cfgs 0).N) main_arg2 (by exact (by decide : ∀ w, Pipeline.arrRef spec0 w ≠ main_arg2))
  have a3 := Pipeline.withArrays_of_ne (cfgs 0).spec c (V0 m c) (fun w => (dats 0 c).arrAt w (cfgs 0).N) main_arg3 (by exact (by decide : ∀ w, Pipeline.arrRef spec0 w ≠ main_arg3))
  have e2' : Pipeline.withArrays (cfgs 0).spec c (V0 m c) (fun w => (dats 0 c).arrAt w (cfgs 0).N) (Proc.devRef .tc main_v0_0) = (dats 0 c).arrAt 2 cfg0.N := e2
  have e3' : Pipeline.withArrays (cfgs 0).spec c (V0 m c) (fun w => (dats 0 c).arrAt w (cfgs 0).N) (Proc.devRef .tc main_v0_1) = (dats 0 c).arrAt 3 cfg0.N := e3
  have e4' : Pipeline.withArrays (cfgs 0).spec c (V0 m c) (fun w => (dats 0 c).arrAt w (cfgs 0).N) (Proc.devRef .tc main_v0_2) = (dats 0 c).arrAt 4 cfg0.N := e4
  have e5' : Pipeline.withArrays (cfgs 0).spec c (V0 m c) (fun w => (dats 0 c).arrAt w (cfgs 0).N) (Proc.devRef .tc main_v0_3) = (dats 0 c).arrAt 5 cfg0.N := e5
  have e6' : Pipeline.withArrays (cfgs 0).spec c (V0 m c) (fun w => (dats 0 c).arrAt w (cfgs 0).N) (Proc.devRef .tc main_v0_4) = (dats 0 c).arrAt 6 cfg0.N := e6
  have a2' : Pipeline.withArrays (cfgs 0).spec c (V0 m c) (fun w => (dats 0 c).arrAt w (cfgs 0).N) (Proc.devRef .tc main_arg2) = m ((c : Thread nD τ).loc main_arg2) := a2
  have a3' : Pipeline.withArrays (cfgs 0).spec c (V0 m c) (fun w => (dats 0 c).arrAt w (cfgs 0).N) (Proc.devRef .tc main_arg3) = m ((c : Thread nD τ).loc main_arg3) := a3
  clear e2 e3 e4 e5 e6 a2 a3
  generalize Pipeline.withArrays (cfgs 0).spec c (V0 m c) (fun w => (dats 0 c).arrAt w (cfgs 0).N) = WA at *
  -- the result buffer, read back through the operations one by one, is the stretch's term over those seven buffers
  show StableHlo.after hostOps1 WA (Proc.devRef .tc main_v38) = _
  unfold hostOps1
  after_results_simp
  rw [e2', e3', e4', e5', e6', a2', a3']
  rfl

/-- What the host operations after the region leave in the result, given finite scores and weights. -/
theorem result_eq (c : Dev nD)
    (h0 : ∀ i, m ((c : Thread nD τ).loc main_arg0) i = (((m ((c : Thread nD τ).loc main_arg0) i).toReal : ℝ) : EReal))
    (h2 : ∀ i, m ((c : Thread nD τ).loc main_arg2) i = (((m ((c : Thread nD τ).loc main_arg2) i).toReal : ℝ) : EReal))
    (h3 : ∀ i, m ((c : Thread nD τ).loc main_arg3) i = (((m ((c : Thread nD τ).loc main_arg3) i).toReal : ℝ) : EReal)) :
    Pipeline.afterTail₀ cfgs (dats m) 0 (V0 m) [hostOps1] c main_v38
      = loss bcast_S_S19 reducesTo_S19_S_d0 h_S_ (m ((c : Thread nD τ).loc main_arg0)) (m ((c : Thread nD τ).loc main_arg1))
          (m ((c : Thread nD τ).loc main_arg2)) (m ((c : Thread nD τ).loc main_arg3)) := by
  rw [tail_term m (dats m) c]
  -- each output array holds the two cores' shares of its total, and the shares add up to the total
  exact chain_eq_loss (m ((c : Thread nD τ).loc main_arg0)) (m ((c : Thread nD τ).loc main_arg1))
    (m ((c : Thread nD τ).loc main_arg2)) (m ((c : Thread nD τ).loc main_arg3)) _ _ _ _ _
    (coreSum tInter (m ((c : Thread nD τ).loc main_arg0)) (m ((c : Thread nD τ).loc main_arg1)))
    (coreSum tCount (m ((c : Thread nD τ).loc main_arg0)) (m ((c : Thread nD τ).loc main_arg1)))
    (coreSum tProb (m ((c : Thread nD τ).loc main_arg0)) (m ((c : Thread nD τ).loc main_arg1)))
    (coreSum tCe (m ((c : Thread nD τ).loc main_arg0)) (m ((c : Thread nD τ).loc main_arg1)))
    (coreSum (tFocal eps) (m ((c : Thread nD τ).loc main_arg0)) (m ((c : Thread nD τ).loc main_arg1)))
    (out_inter m c h0) (out_count m c h0) (out_prob m c h0) (out_ce m c h0) (out_focal m c h0)
    (coreSum_add tInter _ _) (coreSum_add tCount _ _) (coreSum_add tProb _ _) (coreSum_add tCe _ _)
    (coreSum_add (tFocal eps) _ _) h2 h3

/-- The kernel program's run: it ends, with the result at the loss of the specification's totals and the arguments unchanged. -/
theorem run
    (h0 : ∀ c : Dev nD, ∀ i, m ((c : Thread nD τ).loc main_arg0) i = (((m ((c : Thread nD τ).loc main_arg0) i).toReal : ℝ) : EReal))
    (h2 : ∀ c : Dev nD, ∀ i, m ((c : Thread nD τ).loc main_arg2) i = (((m ((c : Thread nD τ).loc main_arg2) i).toReal : ℝ) : EReal))
    (h3 : ∀ c : Dev nD, ∀ i, m ((c : Thread nD τ).loc main_arg3) i = (((m ((c : Thread nD τ).loc main_arg3) i).toReal : ℝ) : EReal)) :
    θ_run defs (onTc (τ := τ) (main (F := Ideal))) ⟨m, fun _ => 0, ρ⟩ (fun r => ∀ c : Dev nD,
      r.2.mem ((c : Thread nD τ).loc main_v38)
          = loss bcast_S_S19 reducesTo_S19_S_d0 h_S_ (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  -- the frame run's post, read at the result and at the four arguments: the two staged inputs are the pipeline's input
  -- arrays, which no point writes; the weights and the result are buffers outside the pipeline, left as the host
  -- operations after the region leave them
  (θ_run defs _ _).mono (fun _ h c =>
    ⟨((h c).2 main_v38 (Pipeline.mem_restRefs_of main_v38 (by decide) (by decide))).trans (result_eq m c (h0 c) (h2 c) (h3 c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.RefLookup.lean ====
/-
  The reference's three indexed operations read at one element, for labels that are class words: the gather of a
  19-vector by label picks the label's entry; the take along the class axis picks the label's class at the same image
  and pixel; and the scatter-add into 19 classes adds, to class `c`, exactly the updates whose label is `c`.
-/
import proofs.«411635_j77653008712127_2_alg».proof.ReferenceIdeal
import Idealize.ShloMosaic.PureOps.Ideal
import Idealize.ShloMosaic.Lib.ValueIdx
import Mathlib.Algebra.BigOperators.Group.Finset.Basic
import Mathlib.Algebra.BigOperators.Group.Finset.Defs

noncomputable section

open scoped BigOperators

namespace Cert.ReferenceIdeal.Lookup

open Idealize.ShloMosaic Idealize.ShloMosaic.ValueIdx Cert.ReferenceIdeal

variable [Cert.ReferenceIdeal.Facts]

omit [Cert.ReferenceIdeal.Facts] in
/-- A class number's 32-bit word, read signed, is the class number: numbers below 19 are below 2 ^ 31. -/
theorem toInt_classWord (k : Fin 19) : (BitVec.ofNat 32 k.val).toInt = (k.val : Int) := by
  have hk := k.isLt
  rw [BitVec.toInt_eq_toNat_cond, BitVec.toNat_ofNat, Nat.mod_eq_of_lt (by omega), if_pos (by omega)]

/-- The gather of a 19-vector by a label that is class `k`'s word reads entry `k`. -/
theorem gather_class {α : Type} (x : S19.Idx → α) (idx : IVec S8x512x512x1 32) (b : Fin 8) (h w : Fin 512) (k : Fin 19)
    (hk : idx (ix4 b h w 0) = BitVec.ofNat 32 k.val) :
    Host.gather gather_S19_S8x512x512x1_S8x512x512_n_0_n_n_0_3_1 x idx (ix3 b h w) = x (ix1 k) := by
  unfold Host.gather
  congr 1
  funext a
  obtain rfl : a = 0 := Subsingleton.elim _ _
  refine Fin.ext ?_
  show gather_S19_S8x512x512x1_S8x512x512_n_0_n_n_0_3_1.start (ix3 b h w) idx 0
    + gather_S19_S8x512x512x1_S8x512x512_n_0_n_n_0_3_1.batchCoord (ix3 b h w) 0
    + gather_S19_S8x512x512x1_S8x512x512_n_0_n_n_0_3_1.offCoord (ix3 b h w) 0 = k.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S19_S8x512x512x1_S8x512x512_n_0_n_n_0_3_1.startIndexMap
    from List.mem_singleton.mpr rfl)]
  have hsi : gather_S19_S8x512x512x1_S8x512x512_n_0_n_n_0_3_1.siIdx (ix3 b h w)
      ⟨List.idxOf (0 : Fin 1) gather_S19_S8x512x512x1_S8x512x512_n_0_n_n_0_3_1.startIndexMap,
        List.idxOf_lt_length_iff.2 (List.mem_singleton.mpr rfl)⟩ = ix4 b h w 0 := by
    funext c; refine Fin.ext ?_
    match c with
    | ⟨0, _⟩ => rfl
    | ⟨1, _⟩ => rfl
    | ⟨2, _⟩ => rfl
    | ⟨3, _⟩ => rfl
  rw [hsi, hk, toInt_classWord]
  have hk19 := k.isLt
  show min ((k.val : Int)).toNat (19 - 1) = k.val
  omega

/-- The take along the class axis by a label that is class `k`'s word reads class `k` at the same image and pixel. -/
theorem gather_along {α : Type} (x : S8x19x512x512.Idx → α) (idx : IVec S8x1x512x512x1 32) (b : Fin 8) (h w : Fin 512) (k : Fin 19)
    (hk : idx (ix5 b 0 h w 0) = BitVec.ofNat 32 k.val) :
    Host.gather gather_S8x19x512x512_S8x1x512x512x1_S8x1x512x512_n_1_023_023_1_4_1111 x idx (ix4 b 0 h w) = x (ix4 b k h w) := by
  unfold Host.gather
  congr 1
  funext a
  refine Fin.ext ?_
  show gather_S8x19x512x512_S8x1x512x512x1_S8x1x512x512_n_1_023_023_1_4_1111.start (ix4 b 0 h w) idx a + gather_S8x19x512x512_S8x1x512x512x1_S8x1x512x512_n_1_023_023_1_4_1111.batchCoord (ix4 b 0 h w) a
    + gather_S8x19x512x512_S8x1x512x512x1_S8x1x512x512_n_1_023_023_1_4_1111.offCoord (ix4 b 0 h w) a = (ix4 b k h w a).val
  match a with
  | ⟨0, hlt⟩ =>
    have hm : (⟨0, hlt⟩ : Fin S8x19x512x512.rank) ∈ gather_S8x19x512x512_S8x1x512x512x1_S8x1x512x512_n_1_023_023_1_4_1111.operandBatchingDims :=
      show (⟨0, hlt⟩ : Fin S8x19x512x512.rank) ∈ [0, 2, 3] from List.mem_cons.mpr (Or.inl rfl)
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  | ⟨2, hlt⟩ =>
    have hm : (⟨2, hlt⟩ : Fin S8x19x512x512.rank) ∈ gather_S8x19x512x512_S8x1x512x512x1_S8x1x512x512_n_1_023_023_1_4_1111.operandBatchingDims :=
      show (⟨2, hlt⟩ : Fin S8x19x512x512.rank) ∈ [0, 2, 3] from List.mem_cons.mpr (Or.inr (List.mem_cons.mpr (Or.inl rfl)))
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  | ⟨3, hlt⟩ =>
    have hm : (⟨3, hlt⟩ : Fin S8x19x512x512.rank) ∈ gather_S8x19x512x512_S8x1x512x512x1_S8x1x512x512_n_1_023_023_1_4_1111.operandBatchingDims :=
      show (⟨3, hlt⟩ : Fin S8x19x512x512.rank) ∈ [0, 2, 3] from List.mem_cons.mpr (Or.inr (List.mem_cons.mpr (Or.inr (List.mem_cons.mpr (Or.inl rfl)))))
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  | ⟨1, _⟩ =>
    have hm : (⟨1, by decide⟩ : Fin S8x19x512x512.rank) ∈ gather_S8x19x512x512_S8x1x512x512x1_S8x1x512x512_n_1_023_023_1_4_1111.startIndexMap := List.mem_singleton.mpr rfl
    rw [GatherDims.batchCoord_eq_zero _ _ _ (show (⟨1, by decide⟩ : Fin S8x19x512x512.rank) ∉ [0, 2, 3] by decide),
      GatherDims.offCoord_eq_zero _ _ _ (fun h => ((GatherDims.mem_sKept _ _).mp h).1 (List.mem_singleton.mpr rfl))]
    simp only [Nat.add_zero]
    unfold GatherDims.start
    rw [dif_pos hm]
    have hsi : gather_S8x19x512x512_S8x1x512x512x1_S8x1x512x512_n_1_023_023_1_4_1111.siIdx (ix4 b 0 h w)
        ⟨List.idxOf (⟨1, by decide⟩ : Fin S8x19x512x512.rank) gather_S8x19x512x512_S8x1x512x512x1_S8x1x512x512_n_1_023_023_1_4_1111.startIndexMap,
          List.idxOf_lt_length_iff.2 hm⟩ = ix5 b 0 h w 0 := by
      funext c; refine Fin.ext ?_
      match c with
      | ⟨0, _⟩ => rfl
      | ⟨1, _⟩ => rfl
      | ⟨2, _⟩ => rfl
      | ⟨3, _⟩ => rfl
      | ⟨4, _⟩ => rfl
    rw [hsi, hk, toInt_classWord]
    have hk19 := k.isLt
    show min ((k.val : Int)).toNat (19 - 1) = k.val
    omega

/-- The scatter-add's landing place: update `p` lands on class `c` exactly when its index word, read signed, is `c`.
    The start on the one operand axis is the index word read signed, the window coordinate on that (inserted) axis is
    `0`, and the landing place exists when the start is in `[0, 19)`. -/
theorem resultIdx_class (idx : IVec S2097152x1 32) (p : Fin 2097152) (c : Fin 19) :
    scatter_S19_S2097152x1_S2097152_n_0_0_1.resultIdx? (ix1 p) idx = some (ix1 c) ↔ (idx (ix2 p 0)).toInt = (c.val : Int) := by
  have hc := c.isLt
  have hstart : ∀ a : Fin S19.rank, scatter_S19_S2097152x1_S2097152_n_0_0_1.start (ix1 p) idx a = (idx (ix2 p 0)).toInt := by
    intro a
    obtain rfl : a = 0 := Subsingleton.elim _ _
    have hm : (0 : Fin S19.rank) ∈ scatter_S19_S2097152x1_S2097152_n_0_0_1.scatterDimsToOperandDims := List.mem_singleton.mpr rfl
    unfold ScatterDims.start
    rw [dif_pos hm]
    have hsi : scatter_S19_S2097152x1_S2097152_n_0_0_1.siIdx (ix1 p)
        ⟨List.idxOf (0 : Fin S19.rank) scatter_S19_S2097152x1_S2097152_n_0_0_1.scatterDimsToOperandDims, List.idxOf_lt_length_iff.2 hm⟩ = ix2 p 0 := by
      funext e; refine Fin.ext ?_
      match e with
      | ⟨0, _⟩ => rfl
      | ⟨1, _⟩ => rfl
    rw [hsi]
  have hwin : ∀ a : Fin S19.rank, scatter_S19_S2097152x1_S2097152_n_0_0_1.window (ix1 p) a = 0 := by
    intro a
    obtain rfl : a = 0 := Subsingleton.elim _ _
    unfold ScatterDims.window
    have hn : (0 : Fin S19.rank) ∉ scatter_S19_S2097152x1_S2097152_n_0_0_1.sKept := show (0 : Fin S19.rank) ∉ S19.kept [0] by decide
    rw [dif_neg hn]
  have hsize : ∀ a : Fin S19.rank, S19.size a = 19 := by
    intro a
    obtain rfl : a = 0 := Subsingleton.elim _ _
    rfl
  unfold ScatterDims.resultIdx?
  split
  · rename_i hb
    constructor
    · intro he
      have h0 := congrArg Fin.val (congrFun (Option.some.inj he) 0)
      have h1 : (scatter_S19_S2097152x1_S2097152_n_0_0_1.start (ix1 p) idx 0 + (scatter_S19_S2097152x1_S2097152_n_0_0_1.window (ix1 p) 0 : Nat)).toNat = c.val := h0
      have hb0 := hb 0
      rw [hstart, hwin, hsize] at hb0
      rw [hstart, hwin] at h1
      omega
    · intro he
      congr 1
      funext a
      obtain rfl : a = 0 := Subsingleton.elim _ _
      refine Fin.ext ?_
      show (scatter_S19_S2097152x1_S2097152_n_0_0_1.start (ix1 p) idx 0 + (scatter_S19_S2097152x1_S2097152_n_0_0_1.window (ix1 p) 0 : Nat)).toNat = c.val
      rw [hstart, hwin]
      omega
  · rename_i hb
    constructor
    · intro he
      exact absurd he (by simp)
    · intro he
      exfalso
      apply hb
      intro a
      rw [hstart, hwin, hsize]
      omega

/-- The scatter-add into 19 classes, read at class `c`: the operand there plus every update whose index word, read
    signed, is `c`. -/
theorem scatterAdd_class (x : S19.Idx → EReal) (idx : IVec S2097152x1 32) (upd : S2097152.Idx → EReal) (c : Fin 19) :
    Ideal.hostScatterAdd scatter_S19_S2097152x1_S2097152_n_0_0_1 x idx upd (ix1 c)
      = x (ix1 c) + ∑ p : Fin 2097152, if (idx (ix2 p 0)).toInt = (c.val : Int) then upd (ix1 p) else 0 := by
  -- the rank-1 update indices are their one coordinate
  let e : Fin 2097152 ≃ S2097152.Idx :=
    { toFun := fun p => ix1 p, invFun := fun j => j 0, left_inv := fun _ => rfl, right_inv := fun j => (eq_ix1 j).symm }
  unfold Ideal.hostScatterAdd
  refine congrArg (fun z => x (ix1 c) + z) ?_
  rw [Finset.sum_filter, ← Equiv.sum_comp e]
  refine Finset.sum_congr rfl (fun p _ => ?_)
  show (if scatter_S19_S2097152x1_S2097152_n_0_0_1.resultIdx? (ix1 p) idx = some (ix1 c) then upd (ix1 p) else 0) = _
  by_cases hp : (idx (ix2 p 0)).toInt = (c.val : Int)
  · rw [if_pos ((resultIdx_class idx p c).2 hp), if_pos hp]
  · rw [if_neg (fun h => hp ((resultIdx_class idx p c).1 h)), if_neg hp]

end Cert.ReferenceIdeal.Lookup

end
-- ==== Proof.RefPixel.lean ====
/-
  The reference, pixel by pixel.  Its log-softmax at image `b`, class `c`, pixel `(h, w)` is the specification's
  log-probability of the pixel's 19 scores, its exponential the probability; the values it takes along the class axis
  at the pixel's label are those of the label's class; the weights it gathers by label are the label's entries; and
  the two summands it builds per pixel — the weighted negative log-probability, and the focal term — are real numbers
  written with the label's class.
-/
import proofs.«411635_j77653008712127_2_alg».proof.Proof.RefRead
import proofs.«411635_j77653008712127_2_alg».proof.Proof.Tail
import proofs.«411635_j77653008712127_2_alg».proof.Proof.SumLaws
import proofs.«411635_j77653008712127_2_alg».proof.Proof.RefLookup
import Idealize.ShloMosaic.Lib.ValueIdx
import Idealize.ShloMosaic.Lib.Pipeline.Value
import Idealize.ShloMosaic.PureOps.Ideal.Laws
import Mathlib.Algebra.BigOperators.Group.Finset.Basic
import Mathlib.Analysis.SpecialFunctions.Pow.Real
import Mathlib.Data.EReal.Basic
import Mathlib.Data.EReal.Operations
import Mathlib.Order.MinMax

noncomputable section

open scoped BigOperators

namespace Cert.ReferenceIdeal.RefPixel

open Idealize.ShloMosaic Idealize.ShloMosaic.ValueIdx Cert.ReferenceIdeal Cert.ReferenceIdeal.Read Cert.FocalDice

/-- The class a label word names (meaningful for a word that is a class's). -/
def clsOf (t : BitVec 32) : Fin 19 := ⟨t.toNat % 19, Nat.mod_lt _ (by decide)⟩

/-- A label word that is some class's word is the word of `clsOf` of it. -/
theorem clsOf_spec (t : BitVec 32) (h : ∃ k : Fin 19, t = BitVec.ofNat 32 k.val) : t = BitVec.ofNat 32 (clsOf t).val := by
  obtain ⟨k, rfl⟩ := h
  have hk := k.isLt
  refine congrArg (BitVec.ofNat 32) ?_
  show k.val = (BitVec.ofNat 32 k.val).toNat % 19
  rw [BitVec.toNat_ofNat, Nat.mod_eq_of_lt (show k.val < 2 ^ 32 by omega), Nat.mod_eq_of_lt hk]

/-- The word `0xFF800000` is `-∞`. -/
theorem ofBits_neginf : Ideal.ofBits .f32 0xFF800000#32 = (⊥ : EReal) := by
  simp [Ideal.ofBits, Ideal.ieee]

/-! ## Index equations at a pixel's coordinates -/

theorem idx_rowmax (b : Fin 8) (c : Fin 19) (h w : Fin 512) :
    idx_main_call0_v3 (idx_main_call0_v4 (ix4 b c h w)) = ix3 b h w := by
  funext a; refine Fin.ext ?_
  match a with
  | ⟨0, _⟩ => rfl
  | ⟨1, _⟩ => rfl
  | ⟨2, _⟩ => rfl

theorem idx_rowsum (b : Fin 8) (c : Fin 19) (h w : Fin 512) :
    idx_main_call0_v8 (idx_main_call0_v10 (ix4 b c h w)) = ix3 b h w := by
  funext a; refine Fin.ext ?_
  match a with
  | ⟨0, _⟩ => rfl
  | ⟨1, _⟩ => rfl
  | ⟨2, _⟩ => rfl

theorem idx_class (b : Fin 8) (k : Fin 19) (h w : Fin 512) :
    idx_main_call0_v7 (ix3 b h w) k = ix4 b k h w := by
  funext a; refine Fin.ext ?_
  match a with
  | ⟨0, _⟩ => rfl
  | ⟨1, _⟩ => rfl
  | ⟨2, _⟩ => rfl
  | ⟨3, _⟩ => rfl

/-! ## Signed compares of a class word, the negative-index fix-up, and a fold over a unit axis -/

theorem slt_zero_classWord (k : Fin 19) : IntOp.cmpi .slt (BitVec.ofNat 32 k.val) 0#32 = 0#1 := by
  have h : (BitVec.ofNat 32 k.val).slt 0#32 = false := by
    unfold BitVec.slt
    rw [Lookup.toInt_classWord]
    exact decide_eq_false (by show ¬ ((k.val : Int) < 0); omega)
  show BitVec.ofBool ((BitVec.ofNat 32 k.val).slt 0#32) = 0#1
  rw [h]; rfl

theorem sge_zero_classWord (k : Fin 19) : IntOp.cmpi .sge (BitVec.ofNat 32 k.val) 0#32 = 1#1 := by
  have h : (0#32 : BitVec 32).sle (BitVec.ofNat 32 k.val) = true := by
    unfold BitVec.sle
    rw [Lookup.toInt_classWord]
    exact decide_eq_true (by show ((0 : Int) ≤ (k.val : Int)); omega)
  show BitVec.ofBool ((0#32 : BitVec 32).sle (BitVec.ofNat 32 k.val)) = 1#1
  rw [h]; rfl

theorem sle_top_classWord (k : Fin 19) : IntOp.cmpi .sle (BitVec.ofNat 32 k.val) 18#32 = 1#1 := by
  have hk := k.isLt
  have h : (BitVec.ofNat 32 k.val).sle 18#32 = true := by
    unfold BitVec.sle
    rw [Lookup.toInt_classWord]
    exact decide_eq_true (by show ((k.val : Int) ≤ 18); omega)
  show BitVec.ofBool ((BitVec.ofNat 32 k.val).sle 18#32) = 1#1
  rw [h]; rfl

/-- The negative-index fix-up (`t < 0 ? t + 19 : t`) keeps a class word. -/
theorem fixup_classWord (k : Fin 19) :
    Scalar.select (IntOp.cmpi .slt (BitVec.ofNat 32 k.val) 0#32) (IntOp.addi (BitVec.ofNat 32 k.val) 19#32)
      (BitVec.ofNat 32 k.val) = BitVec.ofNat 32 k.val := by
  rw [slt_zero_classWord, select_zero]

instance : Std.Commutative (IntOp.andi (w := 1)) := ⟨fun a b => BitVec.and_comm a b⟩
instance : Std.Associative (IntOp.andi (w := 1)) := ⟨fun a b c => BitVec.and_assoc a b c⟩

/-- A fold over an axis of one coordinate is one application. -/
theorem fold_unit (f : BitVec 1 → BitVec 1 → BitVec 1) [Std.Commutative f] [Std.Associative f] (b : BitVec 1)
    (g : Fin 1 → BitVec 1) : (Finset.univ : Finset (Fin 1)).fold f b g = f (g 0) b := by
  rfl

/-! ## Index equations of the layout operations around the two lookups -/

theorem idx_squeeze (b : Fin 8) (h w : Fin 512) : idx_main_v3 (ix3 b h w) = ix4 b 0 h w := by
  have hb := b.isLt; have hh := h.isLt; have hw := w.isLt
  funext a; refine Fin.ext ?_
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

theorem idx_squeeze' (b : Fin 8) (h w : Fin 512) : idx_main_v38 (ix3 b h w) = ix4 b 0 h w := idx_squeeze b h w

theorem idx_expand (b : Fin 8) (h w : Fin 512) : idx_main_call1_v5 (ix5 b 0 h w 0) = ix4 b 0 h w := by
  have hb := b.isLt; have hh := h.isLt; have hw := w.isLt
  funext a; refine Fin.ext ?_
  match a with
  | ⟨0, _⟩ => show ((((b.val * 1 + 0) * 512 + h.val) * 512 + w.val) * 1 + 0) / 262144 = b.val; omega
  | ⟨1, _⟩ => rfl
  | ⟨2, _⟩ => show ((((b.val * 1 + 0) * 512 + h.val) * 512 + w.val) * 1 + 0) / 512 % 512 = h.val; omega
  | ⟨3, _⟩ => show ((((b.val * 1 + 0) * 512 + h.val) * 512 + w.val) * 1 + 0) % 512 = w.val; omega

theorem idx_expand' (b : Fin 8) (h w : Fin 512) : idx_main_call2_v5 (ix5 b 0 h w 0) = ix4 b 0 h w := idx_expand b h w

theorem idx_label (b : Fin 8) (h w : Fin 512) : idx_main_v1 (ix4 b 0 h w) = ix3 b h w := by
  funext a; refine Fin.ext ?_
  match a with
  | ⟨0, _⟩ => rfl
  | ⟨1, _⟩ => rfl
  | ⟨2, _⟩ => rfl

theorem idx_label' (b : Fin 8) (h w : Fin 512) : idx_main_v36 (ix4 b 0 h w) = ix3 b h w := idx_label b h w

theorem idx_label9 (b : Fin 8) (h w : Fin 512) : idx_main_v9 (ix4 b h w 0) = ix3 b h w := by
  funext a; refine Fin.ext ?_
  match a with
  | ⟨0, _⟩ => rfl
  | ⟨1, _⟩ => rfl
  | ⟨2, _⟩ => rfl

theorem idx_label24 (b : Fin 8) (h w : Fin 512) : idx_main_v24 (ix4 b h w 0) = ix3 b h w := idx_label9 b h w

/-! ## The conjunction over a unit axis -/

/-- A fold of `and` over an axis of one coordinate: the in-bounds flag of the one index component. -/
theorem and_core (v : IVec S8x1x512x512x1 1) (b : Fin 8) (h w : Fin 512) (hv : v (ix5 b 0 h w 0) = 1#1) :
    Host.reduce IntOp.andi v (constantI S_ 1 1#1) Gen.reducesTo_S8x1x512x512x1_S8x1x512x512_d4 Gen.h_S_ (ix4 b 0 h w) = 1#1 := by
  have hred : S8x1x512x512x1.Reduces [4] S8x1x512x512 := by decide
  rw [Host.reduce_eq_fold_single IntOp.andi _ _ _ hred _ (ix4 b 0 h w)]
  have hl : ∀ k, hred.lift (ix4 b 0 h w) k = ix5 b 0 h w 0 := by
    intro k
    funext a; refine Fin.ext ?_
    match a with
    | ⟨0, _⟩ => rfl
    | ⟨1, _⟩ => rfl
    | ⟨2, _⟩ => rfl
    | ⟨3, _⟩ => rfl
    | ⟨4, _⟩ =>
      show k.val = 0
      have hk : k.val < 1 := k.isLt
      omega
  rw [show (v ∘ hred.lift (ix4 b 0 h w)) = fun _ => v (ix5 b 0 h w 0) from funext fun k => congrArg v (hl k), hv]
  exact fold_unit IntOp.andi (1#1) (fun _ => 1#1)

/-! ## The two summands' arithmetic, on coerced reals -/

/-- `w · (−l)` on coerced reals. -/
theorem ce_arith (a l : ℝ) :
    FloatOps.mulf (F := Ideal) (φ := .f32) ((a : ℝ) : EReal) (FloatOps.hostNegf ((l : ℝ) : EReal)) = ((a * (0 - l) : ℝ) : EReal) := by
  rw [Ideal.hostNegf_def, Ideal.negf_def, Ideal.mulf_def, ← EReal.coe_neg, ← EReal.coe_mul]
  refine congrArg (fun r : ℝ => (r : EReal)) ?_
  ring

/-- `((−a) · (1 − max (exp l) ε)²) · l` on coerced reals, with `p = exp l`. -/
theorem focal_arith (a l p e : ℝ) (hp : Real.exp l = p) (he : Ideal.ofBits .f32 0x322BCC77#32 = ((e : ℝ) : EReal)) :
    FloatOps.mulf (F := Ideal) (φ := .f32) (FloatOps.mulf (FloatOps.hostNegf ((a : ℝ) : EReal))
      (FloatOps.hostPowf (FloatOps.subf (FloatOps.ofBits .f32 0x3F800000#32)
        (FloatOps.maximumf (FloatOps.hostUnary .exp ((l : ℝ) : EReal)) (FloatOps.ofBits .f32 0x322BCC77#32)))
        (FloatOps.ofBits .f32 0x40000000#32))) ((l : ℝ) : EReal)
      = ((a * (((1 - max p e) * (1 - max p e)) * (0 - l)) : ℝ) : EReal) := by
  have hmax : max ((p : ℝ) : EReal) ((e : ℝ) : EReal) = ((max p e : ℝ) : EReal) :=
    (EReal.coe_strictMono.monotone.map_max).symm
  simp only [Ideal.ofBits_def, ofBits_one, ofBits_two, he, Ideal.hostUnary_exp_def, Ideal.exp_coe, hp,
    Ideal.maximumf_def, hmax, Ideal.subf_def, ← EReal.coe_sub, Ideal.hostPowf_def, Ideal.pow_coe_coe, Ideal.hostNegf_def,
    Ideal.negf_def, ← EReal.coe_neg, Ideal.mulf_def, ← EReal.coe_mul]
  refine congrArg (fun r : ℝ => (r : EReal)) ?_
  rw [Real.rpow_eq_pow, Real.rpow_two]
  ring

variable (x0 : FVec Ideal S8x19x512x512 .f32) (x1 : IVec S8x512x512 32) (x2 x3 : FVec Ideal S19 .f32)

/-- The 19 scores of pixel `(b, h, w)`. -/
def px (b : Fin 8) (h w : Fin 512) : Fin 19 → ℝ := fun c => scoreR x0 b c h w

/-- The class of pixel `(b, h, w)`'s label. -/
def lc (b : Fin 8) (h w : Fin 512) : Fin 19 := clsOf (labelW x1 b h w)

variable (hx0 : ∀ i, x0 i = (((x0 i).toReal : ℝ) : EReal)) (hx1 : ∀ i, ∃ k : Fin 19, x1 i = BitVec.ofNat 32 k.val)
  (hx2 : ∀ i, x2 i = (((x2 i).toReal : ℝ) : EReal)) (hx3 : ∀ i, x3 i = (((x3 i).toReal : ℝ) : EReal))

include hx0 in
/-- A score is the coerced real score of its pixel and class. -/
theorem score_apply (b : Fin 8) (c : Fin 19) (h w : Fin 512) :
    x0 (ix4 b c h w) = ((px x0 b h w c : ℝ) : EReal) := hx0 (ix4 b c h w)

include hx0 in
/-- The maximum over the class axis, from `-∞`, then joined with `-∞`: the pixel's largest score. -/
theorem rowmax_core (b : Fin 8) (h w : Fin 512) :
    FloatOps.maximumf (F := Ideal) (φ := .f32) (FloatOps.ofBits .f32 0xFF800000#32)
      (Host.reduce FloatOps.maximumf x0 (constant (F := Ideal) S_ .f32 0xFF800000#32)
        Gen.reducesTo_S8x19x512x512_S8x512x512_d1 Gen.h_S_ (ix3 b h w))
      = ((vmax (px x0 b h w) : ℝ) : EReal) := by
  have hred : S8x19x512x512.Reduces [1] S8x512x512 := by decide
  rw [Host.reduce_eq_fold_single FloatOps.maximumf x0 _ _ hred _ (ix3 b h w)]
  have hf : (x0 ∘ hred.lift (ix3 b h w)) = fun k : Fin 19 => ((px x0 b h w k : ℝ) : EReal) := by
    funext k
    show x0 (hred.lift (ix3 b h w) k) = _
    have hl : hred.lift (ix3 b h w) k = ix4 b k h w := by
      funext a; refine Fin.ext ?_
      match a with
      | ⟨0, _⟩ => rfl
      | ⟨1, _⟩ => rfl
      | ⟨2, _⟩ => rfl
      | ⟨3, _⟩ => rfl
    rw [hl]
    exact score_apply x0 hx0 b k h w
  rw [hf]
  show max (Ideal.ofBits .f32 0xFF800000#32) ((Finset.univ : Finset (Fin 19)).fold max (Ideal.ofBits .f32 0xFF800000#32)
    (fun k => ((px x0 b h w k : ℝ) : EReal))) = _
  rw [ofBits_neginf, fold_max_coe (px x0 b h w)]
  exact max_eq_right bot_le

include hx0 in
/-- The class maximum the log-softmax subtracts is the pixel's largest score. -/
theorem rowmax_apply (b : Fin 8) (h w : Fin 512) :
    val_main_call0_v2 (F := Ideal) x0 (ix3 b h w) = ((vmax (px x0 b h w) : ℝ) : EReal) := by
  rw [val_main_call0_v2_apply, val_main_call0_v1_apply, val_main_call0_cst_0_apply]
  unfold val_main_call0_v0
  exact rowmax_core x0 hx0 b h w

include hx0 in
/-- The shifted score. -/
theorem shifted_apply (b : Fin 8) (c : Fin 19) (h w : Fin 512) :
    val_main_call0_v5 (F := Ideal) x0 (ix4 b c h w) = ((vsh (px x0 b h w) c : ℝ) : EReal) := by
  rw [val_main_call0_v5_apply, val_main_call0_v4_apply, val_main_call0_v3_apply, idx_rowmax, rowmax_apply x0 hx0,
    score_apply x0 hx0, Ideal.subf_def, ← EReal.coe_sub]
  rfl

include hx0 in
/-- The partition sum. -/
theorem rowsum_apply (b : Fin 8) (h w : Fin 512) :
    val_main_call0_v7 (F := Ideal) x0 (ix3 b h w) = ((vse (px x0 b h w) : ℝ) : EReal) := by
  rw [val_main_call0_v7_apply, val_main_call0_cst_1_apply, Ideal.ofBits_def, ofBits_zero, zero_add]
  have hterm : ∀ k : Fin 19, val_main_call0_v6 (F := Ideal) x0 (idx_main_call0_v7 (ix3 b h w) k)
      = ((Real.exp (vsh (px x0 b h w) k) : ℝ) : EReal) := by
    intro k
    rw [val_main_call0_v6_apply, idx_class, shifted_apply x0 hx0, Ideal.hostUnary_exp_def, Ideal.exp_coe]
  rw [Finset.sum_congr rfl (fun k _ => hterm k), ← coe_sum]
  rfl

include hx0 in
/-- The logarithm of the partition sum. -/
theorem logsum_apply (b : Fin 8) (c : Fin 19) (h w : Fin 512) :
    val_main_call0_v10 (F := Ideal) x0 (ix4 b c h w) = ((Real.log (vse (px x0 b h w)) : ℝ) : EReal) := by
  rw [val_main_call0_v10_apply, val_main_call0_v9_apply, val_main_call0_v8_apply, idx_rowsum, rowsum_apply x0 hx0,
    Ideal.hostUnary_log_def, Ideal.log_coe, if_neg (not_le.2 (vse_pos _))]

include hx0 in
/-- The log-softmax at an element is the pixel's log-probability of that class. -/
theorem logp_apply (b : Fin 8) (c : Fin 19) (h w : Fin 512) :
    val_main_v0 (F := Ideal) x0 (ix4 b c h w) = ((vlp (px x0 b h w) c : ℝ) : EReal) := by
  rw [val_main_v0_apply, shifted_apply x0 hx0, logsum_apply x0 hx0, Ideal.subf_def, ← EReal.coe_sub]
  rfl

include hx0 in
/-- Its exponential is the pixel's probability of that class. -/
theorem prob_apply (b : Fin 8) (c : Fin 19) (h w : Fin 512) :
    val_main_v35 (F := Ideal) x0 (ix4 b c h w) = ((vpr (px x0 b h w) c : ℝ) : EReal) := by
  rw [val_main_v35_apply, logp_apply x0 hx0, Ideal.hostUnary_exp_def, Ideal.exp_coe, exp_vlp]

include hx1 in
/-- A pixel's label word is the word of its class. -/
theorem label_apply (b : Fin 8) (h w : Fin 512) : x1 (ix3 b h w) = BitVec.ofNat 32 (lc x1 b h w).val :=
  clsOf_spec (x1 (ix3 b h w)) (hx1 (ix3 b h w))

include hx1 in
/-- The index word the first take-along-axis gathers by is the label's class word. -/
theorem idxword1_apply (b : Fin 8) (h w : Fin 512) :
    val_main_call1_v5 (F := Ideal) x1 (ix5 b 0 h w 0) = BitVec.ofNat 32 (lc x1 b h w).val := by
  rw [val_main_call1_v5_apply, idx_expand, val_main_call1_v4_apply, val_main_call1_v1_apply, val_main_call1_v3_apply,
    val_main_v1_apply, idx_label, val_main_call1_v0_apply, val_main_call1_c_apply, val_main_call1_v2_apply,
    val_main_call1_c_0_apply, label_apply x1 hx1]
  exact fixup_classWord _

include hx1 in
/-- The index word the second take-along-axis gathers by is the label's class word. -/
theorem idxword2_apply (b : Fin 8) (h w : Fin 512) :
    val_main_call2_v5 (F := Ideal) x1 (ix5 b 0 h w 0) = BitVec.ofNat 32 (lc x1 b h w).val := by
  rw [val_main_call2_v5_apply, idx_expand', val_main_call2_v4_apply, val_main_call2_v1_apply, val_main_call2_v3_apply,
    val_main_v36_apply, idx_label', val_main_call2_v0_apply, val_main_call2_c_apply, val_main_call2_v2_apply,
    val_main_call2_c_0_apply, label_apply x1 hx1]
  exact fixup_classWord _

include hx1 in
/-- The first take-along-axis's in-bounds flag is set: a class word is in `[0, 18]`. -/
theorem inb1_apply (b : Fin 8) (h w : Fin 512) : val_main_call1_v12 (F := Ideal) x1 (ix4 b 0 h w) = 1#1 := by
  have hv : val_main_call1_v11 (F := Ideal) x1 (ix5 b 0 h w 0) = 1#1 := by
    rw [val_main_call1_v11_apply, val_main_call1_v7_apply, val_main_call1_v10_apply,
      idxword1_apply x1 hx1, val_main_call1_v6_apply, val_main_call1_c_2_apply, val_main_call1_v9_apply,
      val_main_call1_v8_apply, val_main_call1_c_1_apply, sge_zero_classWord, sle_top_classWord]
    rfl
  unfold val_main_call1_v12
  exact and_core _ b h w hv

include hx1 in
/-- The second take-along-axis's in-bounds flag is set. -/
theorem inb2_apply (b : Fin 8) (h w : Fin 512) : val_main_call2_v12 (F := Ideal) x1 (ix4 b 0 h w) = 1#1 := by
  have hv : val_main_call2_v11 (F := Ideal) x1 (ix5 b 0 h w 0) = 1#1 := by
    rw [val_main_call2_v11_apply, val_main_call2_v7_apply, val_main_call2_v10_apply,
      idxword2_apply x1 hx1, val_main_call2_v6_apply, val_main_call2_c_2_apply, val_main_call2_v9_apply,
      val_main_call2_v8_apply, val_main_call2_c_1_apply, sge_zero_classWord, sle_top_classWord]
    rfl
  unfold val_main_call2_v12
  exact and_core _ b h w hv

include hx0 hx1 in
/-- The log-probability taken at the pixel's label. -/
theorem logpt_apply (b : Fin 8) (h w : Fin 512) :
    val_main_v3 (F := Ideal) x0 x1 (ix3 b h w) = ((vlp (px x0 b h w) (lc x1 b h w) : ℝ) : EReal) := by
  rw [val_main_v3_apply, idx_squeeze, val_main_v2_apply, inb1_apply x1 hx1, select_one]
  unfold val_main_call1_v13
  rw [Lookup.gather_along _ _ b h w (lc x1 b h w) (idxword1_apply x1 hx1 b h w)]
  exact logp_apply x0 hx0 b _ h w

include hx0 hx1 in
/-- The probability taken at the pixel's label. -/
theorem pt_apply (b : Fin 8) (h w : Fin 512) :
    val_main_v38 (F := Ideal) x0 x1 (ix3 b h w) = ((vpr (px x0 b h w) (lc x1 b h w) : ℝ) : EReal) := by
  rw [val_main_v38_apply, idx_squeeze', val_main_v37_apply, inb2_apply x1 hx1, select_one]
  unfold val_main_call2_v13
  rw [Lookup.gather_along _ _ b h w (lc x1 b h w) (idxword2_apply x1 hx1 b h w)]
  exact prob_apply x0 hx0 b _ h w

include hx1 in
/-- The class weight gathered at the pixel's label. -/
theorem wt_apply (b : Fin 8) (h w : Fin 512) :
    val_main_v10 (F := Ideal) x1 x2 (ix3 b h w) = x2 (ix1 (lc x1 b h w)) := by
  have hk : val_main_v9 (F := Ideal) x1 (ix4 b h w 0) = BitVec.ofNat 32 (lc x1 b h w).val := by
    rw [val_main_v9_apply, idx_label9, val_main_v8_apply, val_main_v5_apply, val_main_v7_apply, val_main_v4_apply,
      val_main_c_apply, val_main_v6_apply, val_main_c_0_apply, label_apply x1 hx1]
    exact fixup_classWord _
  unfold val_main_v10
  exact Lookup.gather_class _ _ b h w (lc x1 b h w) hk

include hx1 in
/-- The focal weight gathered at the pixel's label. -/
theorem at_apply (b : Fin 8) (h w : Fin 512) :
    val_main_v25 (F := Ideal) x1 x3 (ix3 b h w) = x3 (ix1 (lc x1 b h w)) := by
  have hk : val_main_v24 (F := Ideal) x1 (ix4 b h w 0) = BitVec.ofNat 32 (lc x1 b h w).val := by
    rw [val_main_v24_apply, idx_label24, val_main_v23_apply, val_main_v20_apply, val_main_v22_apply, val_main_v19_apply,
      val_main_c_3_apply, val_main_v21_apply, val_main_c_4_apply, label_apply x1 hx1]
    exact fixup_classWord _
  unfold val_main_v25
  exact Lookup.gather_class _ _ b h w (lc x1 b h w) hk

include hx0 hx1 hx2 in
/-- The cross-entropy summand of a pixel: its label's weight times the negative log-probability at the label. -/
theorem ceTerm_apply (b : Fin 8) (h w : Fin 512) :
    val_main_v12 (F := Ideal) x0 x1 x2 (ix3 b h w)
      = ((vecR x2 (lc x1 b h w) * (0 - vlp (px x0 b h w) (lc x1 b h w)) : ℝ) : EReal) := by
  have hw2 : x2 (ix1 (lc x1 b h w)) = ((vecR x2 (lc x1 b h w) : ℝ) : EReal) := hx2 (ix1 (lc x1 b h w))
  rw [val_main_v12_apply, wt_apply x1 x2 hx1, val_main_v11_apply, logpt_apply x0 x1 hx0 hx1, hw2]
  exact ce_arith _ _

include hx0 hx1 hx3 in
/-- The focal summand of a pixel: its label's weight times `(1 − max p ε)²` times the negative log-probability, at the label. -/
theorem focalTerm_apply (b : Fin 8) (h w : Fin 512) :
    val_main_v32 (F := Ideal) x0 x1 x3 (ix3 b h w)
      = ((vecR x3 (lc x1 b h w) * (((1 - max (vpr (px x0 b h w) (lc x1 b h w)) eps) * (1 - max (vpr (px x0 b h w) (lc x1 b h w)) eps))
          * (0 - vlp (px x0 b h w) (lc x1 b h w))) : ℝ) : EReal) := by
  have hw3 : x3 (ix1 (lc x1 b h w)) = ((vecR x3 (lc x1 b h w) : ℝ) : EReal) := hx3 (ix1 (lc x1 b h w))
  rw [val_main_v32_apply, val_main_v31_apply, val_main_v26_apply, at_apply x1 x3 hx1, val_main_v30_apply,
    val_main_v28_apply, val_main_v27_apply, val_main_cst_5_apply, val_main_v18_apply, val_main_v16_apply,
    val_main_v17_apply, val_main_cst_2_apply, val_main_v29_apply, val_main_cst_6_apply,
    logpt_apply x0 x1 hx0 hx1, hw3]
  exact focal_arith _ _ _ _ (exp_vlp _ _) ofBits_eps

end Cert.ReferenceIdeal.RefPixel

end
-- ==== Proof.RefTotals.lean ====
/-
  The reference's six sums are the specification's.  Its three per-class vectors — the scatter-added probabilities
  at the labels, the scatter-added ones, the probabilities summed over images and pixels — are the per-class totals of
  `hot·p`, `hot` and `p`; its three scalars — sums over all pixels of a label-gathered weight times a per-pixel value —
  are the class-weighted totals of `hot·(−lp)`, `hot` and the focal term, because gathering by label and weighting the
  indicator sums are the same thing for labels in range.  So its result is the shared closing stretch of those totals.
-/
import proofs.«411635_j77653008712127_2_alg».proof.Proof.RefPixel

noncomputable section

open scoped BigOperators

namespace Cert.ReferenceIdeal.RefTotals

open Idealize.ShloMosaic Idealize.ShloMosaic.ValueIdx Cert.ReferenceIdeal Cert.ReferenceIdeal.Read Cert.FocalDice
  Cert.ReferenceIdeal.RefPixel Cert.ReferenceIdeal.Gen

/-! ## Sums over index types as sums over coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

/-- The triple sum over images, rows and columns is one sum over the pixels. -/
theorem sum_pixels {M : Type*} [AddCommMonoid M] (f : Fin 8 → Fin 512 → Fin 512 → M) :
    ∑ b, ∑ h, ∑ w, f b h w = ∑ p : Fin 8 × Fin 512 × Fin 512, f p.1 p.2.1 p.2.2 := by
  rw [Fintype.sum_prod_type]
  refine Finset.sum_congr rfl (fun b _ => ?_)
  rw [Fintype.sum_prod_type]

/-- The coercion of a triple real sum. -/
theorem coe_sum3 (f : Fin 8 → Fin 512 → Fin 512 → ℝ) :
    ((∑ b, ∑ h, ∑ w, f b h w : ℝ) : EReal) = ∑ b, ∑ h, ∑ w, ((f b h w : ℝ) : EReal) := by
  rw [coe_sum]
  refine Finset.sum_congr rfl (fun b _ => ?_)
  rw [coe_sum]
  refine Finset.sum_congr rfl (fun h _ => ?_)
  rw [coe_sum]

/-- A whole-array sum from zero of a per-pixel array of real numbers is the coerced triple sum. -/
theorem total_scalar (y : (⟨3, ![8, 512, 512]⟩ : Shape).Idx → EReal) (f : Fin 8 → Fin 512 → Fin 512 → ℝ)
    (hy : ∀ b h w, y (ix3 b h w) = ((f b h w : ℝ) : EReal)) :
    (0 : EReal) + ∑ j, y j = ((∑ b, ∑ h, ∑ w, f b h w : ℝ) : EReal) := by
  rw [zero_add, sum_idx3, coe_sum3]
  exact Finset.sum_congr rfl (fun b _ => Finset.sum_congr rfl (fun h _ => Finset.sum_congr rfl (fun w _ => hy b h w)))

/-- Gathering by label, summed over the pixels, is the class-weighted sum of the indicator totals. -/
theorem gather_total (t : Fin 8 → Fin 512 → Fin 512 → BitVec 32) (cls : Fin 8 → Fin 512 → Fin 512 → Fin 19)
    (ht : ∀ b h w, t b h w = BitVec.ofNat 32 (cls b h w).val) (g : Fin 19 → ℝ)
    (a : Fin 8 → Fin 512 → Fin 512 → Fin 19 → ℝ) :
    ∑ b, ∑ h, ∑ w, g (cls b h w) * a b h w (cls b h w)
      = ∑ c : Fin 19, g c * ∑ b, ∑ h, ∑ w, hot (t b h w) c * a b h w c := by
  refine (sum_pixels _).trans ?_
  refine (sum_gather_eq (P := Fin 8 × Fin 512 × Fin 512) (fun p => t p.1 p.2.1 p.2.2) (fun p => cls p.1 p.2.1 p.2.2)
    (fun p => ht p.1 p.2.1 p.2.2) g (fun p c => a p.1 p.2.1 p.2.2 c)).trans ?_
  refine Finset.sum_congr rfl (fun c _ => ?_)
  exact congrArg (fun z => g c * z) (sum_pixels (fun b h w => hot (t b h w) c * a b h w c)).symm

/-! ## The flat pixel number -/

/-- A flat pixel number below 8 · 512 · 512 is an image, a row and a column, row-major. -/
def flatEquiv : Fin 2097152 ≃ Fin 8 × Fin 512 × Fin 512 where
  toFun p := (⟨p.val / 262144, by have := p.isLt; omega⟩, ⟨p.val / 512 % 512, by omega⟩, ⟨p.val % 512, by omega⟩)
  invFun q := ⟨(q.1.val * 512 + q.2.1.val) * 512 + q.2.2.val, by
    have := q.1.isLt; have := q.2.1.isLt; have := q.2.2.isLt; omega⟩
  left_inv p := by
    apply Fin.ext
    have := p.isLt
    show (p.val / 262144 * 512 + p.val / 512 % 512) * 512 + p.val % 512 = p.val
    omega
  right_inv q := by
    obtain ⟨b, h, w⟩ := q
    have := b.isLt; have := h.isLt; have := w.isLt
    refine Prod.ext (Fin.ext ?_) (Prod.ext (Fin.ext ?_) (Fin.ext ?_))
    · show ((b.val * 512 + h.val) * 512 + w.val) / 262144 = b.val
      omega
    · show ((b.val * 512 + h.val) * 512 + w.val) / 512 % 512 = h.val
      omega
    · show ((b.val * 512 + h.val) * 512 + w.val) % 512 = w.val
      omega

/-- The image, the row and the column of a flat pixel number. -/
def fb (p : Fin 2097152) : Fin 8 := (flatEquiv p).1
def fh (p : Fin 2097152) : Fin 512 := (flatEquiv p).2.1
def fw (p : Fin 2097152) : Fin 512 := (flatEquiv p).2.2

/-- A sum over the flat pixel numbers of a function of the pixel's coordinates is the triple sum. -/
theorem sum_flat {M : Type*} [AddCommMonoid M] (f : Fin 8 → Fin 512 → Fin 512 → M) :
    ∑ p : Fin 2097152, f (fb p) (fh p) (fw p) = ∑ b, ∑ h, ∑ w, f b h w := by
  rw [sum_pixels]
  exact Equiv.sum_comp flatEquiv (fun q => f q.1 q.2.1 q.2.2)

/-! ## Class words -/

/-- A class word is not negative: the wrap-around select keeps it. -/
theorem select_class {α : Type} (k : Fin 19) (A B : α) :
    Scalar.select (IntOp.cmpi .slt (BitVec.ofNat 32 k.val) 0#32) A B = B := by
  have h : ∀ k : Fin 19, IntOp.cmpi .slt (BitVec.ofNat 32 k.val) 0#32 = 0#1 := by decide
  rw [h k, select_zero]

/-- One scatter-add summand: an update that carries a per-class quantity at its label's class lands on class c
    exactly when the label is c, so it is the indicator times the quantity at c. -/
theorem scatter_term (t : BitVec 32) (k c : Fin 19) (ht : t = BitVec.ofNat 32 k.val) (u : Fin 19 → ℝ) (v : EReal)
    (hv : v = ((u k : ℝ) : EReal)) :
    (if t.toInt = (c.val : Int) then v else 0) = ((hot t c * u c : ℝ) : EReal) := by
  rw [hot_eq t k c ht]
  subst ht
  rw [Lookup.toInt_classWord]
  by_cases h : c = k
  · subst h
    rw [if_pos rfl, if_pos rfl, one_mul, hv]
  · rw [if_neg (fun e => h (Fin.ext (by omega))), if_neg h, zero_mul, EReal.coe_zero]

/-! ## The sum over images and pixels into classes -/

/-- The sum over axes 0, 2, 3 of a rank-4 array, read at class c. -/
theorem reduce_class (hr : S8x19x512x512.ReducesTo [0, 2, 3] S19) (y : S8x19x512x512.Idx → EReal) (init : EReal)
    (c : Fin 19) :
    Ideal.hostReduceAdd hr y init (ix1 c) = init + ∑ b : Fin 8, ∑ h : Fin 512, ∑ w : Fin 512, y (ix4 b c h w) := by
  unfold Ideal.hostReduceAdd
  refine congrArg (fun z => init + z) ?_
  -- an index reduces to class c exactly when its class coordinate is c
  have hdrop : ∀ i : S8x19x512x512.Idx, hr.drop i = ix1 c ↔ i 1 = c := by
    intro i
    have hv : (hr.drop i 0 : Nat) = i 1 := Shape.ReducesTo.drop_apply_val hr i 0
    constructor
    · intro e; rw [e] at hv; exact Fin.ext hv.symm
    · intro e; funext b; have hb : b = 0 := Subsingleton.elim _ _; subst hb; exact Fin.ext (by rw [hv, e])
  have hback : ∀ i : S8x19x512x512.Idx, i 1 = c → ix4 (i 0) c (i 2) (i 3) = i := fun i h1 => by
    funext a; match a with
    | ⟨0, _⟩ => rfl
    | ⟨1, _⟩ => exact h1.symm
    | ⟨2, _⟩ => rfl
    | ⟨3, _⟩ => rfl
  -- those indices are the pixels, one for each image, row and column
  rw [sum_pixels]
  refine Finset.sum_bij' (fun i _ => ((i 0, i 2, i 3) : Fin 8 × Fin 512 × Fin 512)) (fun q _ => ix4 q.1 c q.2.1 q.2.2)
    (fun _ _ => Finset.mem_univ _)
    (fun q _ => Finset.mem_filter.2 ⟨Finset.mem_univ _, (hdrop _).2 rfl⟩)
    (fun i hi => hback i ((hdrop i).1 (Finset.mem_filter.1 hi).2)) (fun _ _ => rfl) ?_
  intro i hi
  exact (congrArg y (hback i ((hdrop i).1 (Finset.mem_filter.1 hi).2))).symm

/-- The sum over images and pixels into classes, as the host states it. -/
theorem reduceAdd_apply (hr : S8x19x512x512.ReducesTo [0, 2, 3] S19) (hu : 0 < S_.numel)
    (y : FVec Ideal S8x19x512x512 .f32) (init : FVec Ideal S_ .f32) (c : Fin 19) :
    Host.reduceAdd y init hr hu (ix1 c)
      = init (Shape.Idx.first hu) + ∑ b : Fin 8, ∑ h : Fin 512, ∑ w : Fin 512, y (ix4 b c h w) :=
  reduce_class hr y _ c

/-- The scatter-add into classes, as the host states it, read at class c: the operand there plus every update whose
    index word, read signed, is c. -/
theorem scatterAdd_apply (x : FVec Ideal S19 .f32) (idx : IVec S2097152x1 32) (upd : FVec Ideal S2097152 .f32)
    (c : Fin 19) :
    Host.scatterAdd scatter_S19_S2097152x1_S2097152_n_0_0_1 x idx upd (ix1 c)
      = x (ix1 c) + ∑ p : Fin 2097152, if (idx (ix2 p 0)).toInt = (c.val : Int) then upd (ix1 p) else 0 :=
  Lookup.scatterAdd_class x idx upd c

/-! ## The specification's arrays at an index -/

theorem classArr_apply (term : (Fin 19 → ℝ) → BitVec 32 → Fin 19 → ℝ) (x : FVec Ideal SLog .f32) (t : IVec SLab 32)
    (c : Fin 19) : classArr term x t (ix1 c) = ((total term (scoreR x) (labelW t) c : ℝ) : EReal) := rfl

theorem weighted_apply (term : (Fin 19 → ℝ) → BitVec 32 → Fin 19 → ℝ) (x : FVec Ideal SLog .f32) (t : IVec SLab 32)
    (a : FVec Ideal SCls .f32) (i : SNil.Idx) :
    weighted term x t a i = ((∑ c : Fin 19, vecR a c * total term (scoreR x) (labelW t) c : ℝ) : EReal) := rfl

/-! ## The reference's stages -/

variable (x0 : FVec Ideal S8x19x512x512 .f32) (x1 : IVec S8x512x512 32) (x2 x3 : FVec Ideal S19 .f32)
variable (hx0 : ∀ i, x0 i = (((x0 i).toReal : ℝ) : EReal)) (hx1 : ∀ i, ∃ k : Fin 19, x1 i = BitVec.ofNat 32 k.val)
  (hx2 : ∀ i, x2 i = (((x2 i).toReal : ℝ) : EReal)) (hx3 : ∀ i, x3 i = (((x3 i).toReal : ℝ) : EReal))

include hx1 in
/-- Every pixel's label is the word of its class. -/
theorem label_class (b : Fin 8) (h w : Fin 512) : labelW x1 b h w = BitVec.ofNat 32 (lc x1 b h w).val :=
  clsOf_spec _ (hx1 (ix3 b h w))

/-- The five totals, written with the pixel's scores. -/
theorem total_tInter (c : Fin 19) : total tInter (scoreR x0) (labelW x1) c
    = ∑ b, ∑ h, ∑ w, hot (labelW x1 b h w) c * vpr (px x0 b h w) c := by
  unfold total tInter px; rfl

theorem total_tCount (c : Fin 19) : total tCount (scoreR x0) (labelW x1) c = ∑ b, ∑ h, ∑ w, hot (labelW x1 b h w) c := by
  unfold total tCount; rfl

theorem total_tProb (c : Fin 19) : total tProb (scoreR x0) (labelW x1) c = ∑ b, ∑ h, ∑ w, vpr (px x0 b h w) c := by
  unfold total tProb px; rfl

theorem total_tCe (c : Fin 19) : total tCe (scoreR x0) (labelW x1) c
    = ∑ b, ∑ h, ∑ w, hot (labelW x1 b h w) c * (0 - vlp (px x0 b h w) c) := by
  unfold total tCe px; rfl

theorem total_tFocal (c : Fin 19) : total (tFocal eps) (scoreR x0) (labelW x1) c
    = ∑ b, ∑ h, ∑ w, hot (labelW x1 b h w) c * ((1 - max (vpr (px x0 b h w) c) eps) * (1 - max (vpr (px x0 b h w) c) eps))
        * (0 - vlp (px x0 b h w) c) := by
  unfold total tFocal px; rfl

/-- The flat labels at a flat pixel number are the label of its image, row and column. -/
theorem flat_label (p : Fin 2097152) : val_main_v39 (F := Ideal) x1 (ix1 p) = labelW x1 (fb p) (fh p) (fw p) := by
  rw [val_main_v39_apply]
  have hj : idx_main_v39 (ix1 p) = ix3 (fb p) (fh p) (fw p) := by
    funext a; match a with
    | ⟨0, _⟩ => rfl
    | ⟨1, _⟩ => rfl
    | ⟨2, _⟩ => rfl
  rw [hj]
  rfl

include hx1 in
/-- The first scatter's index word at a flat pixel number is that pixel's label. -/
theorem idx_inter (p : Fin 2097152) :
    val_main_v47 (F := Ideal) x1 (ix2 p 0) = labelW x1 (fb p) (fh p) (fw p) := by
  have hi : idx_main_v47 (ix2 p 0) = ix1 p := by
    funext a; match a with
    | ⟨0, _⟩ => rfl
  rw [val_main_v47_apply, hi, val_main_v46_apply, val_main_v43_apply, val_main_v42_apply, val_main_c_10_apply,
    flat_label, label_class x1 hx1]
  exact select_class _ _ _

include hx1 in
/-- The second scatter's index word likewise. -/
theorem idx_counts (p : Fin 2097152) :
    val_main_v55 (F := Ideal) x1 (ix2 p 0) = labelW x1 (fb p) (fh p) (fw p) := by
  have hi : idx_main_v55 (ix2 p 0) = ix1 p := by
    funext a; match a with
    | ⟨0, _⟩ => rfl
  rw [val_main_v55_apply, hi, val_main_v54_apply, val_main_v51_apply, val_main_v50_apply, val_main_c_13_apply,
    flat_label, label_class x1 hx1]
  exact select_class _ _ _

include hx0 hx1 in
/-- The first scatter's update at a flat pixel number is the probability at that pixel's label. -/
theorem upd_inter (p : Fin 2097152) :
    val_main_v41 (F := Ideal) x0 x1 (ix1 p)
      = ((vpr (px x0 (fb p) (fh p) (fw p)) (lc x1 (fb p) (fh p) (fw p)) : ℝ) : EReal) := by
  rw [val_main_v41_apply]
  have hj : idx_main_v41 (ix1 p) = ix3 (fb p) (fh p) (fw p) := by
    funext a; match a with
    | ⟨0, _⟩ => rfl
    | ⟨1, _⟩ => rfl
    | ⟨2, _⟩ => rfl
  rw [hj]
  exact pt_apply x0 x1 hx0 hx1 _ _ _

include hx0 hx1 in
theorem ref_inter : val_main_v48 (F := Ideal) x0 x1 = classArr tInter x0 x1 := by
  funext i
  obtain ⟨c, rfl⟩ : ∃ c, i = ix1 c := ⟨i 0, eq_ix1 i⟩
  rw [classArr_apply, total_tInter]
  unfold val_main_v48
  rw [scatterAdd_apply]
  have h0 : val_main_v40 (F := Ideal) (ix1 c) = 0 := by
    rw [val_main_v40_apply]; exact ofBits_zero
  rw [h0, zero_add]
  -- each update is the indicator of its pixel's label times the pixel's probability of class c
  have hs : ∀ p : Fin 2097152,
      (if (val_main_v47 (F := Ideal) x1 (ix2 p 0)).toInt = (c.val : Int) then val_main_v41 (F := Ideal) x0 x1 (ix1 p) else 0)
        = ((hot (labelW x1 (fb p) (fh p) (fw p)) c * vpr (px x0 (fb p) (fh p) (fw p)) c : ℝ) : EReal) := by
    intro p
    rw [idx_inter x1 hx1 p]
    exact scatter_term _ _ c (label_class x1 hx1 _ _ _) (fun k => vpr (px x0 (fb p) (fh p) (fw p)) k) _
      (upd_inter x0 x1 hx0 hx1 p)
  rw [Finset.sum_congr rfl (fun p _ => hs p),
    sum_flat (fun b h w => ((hot (labelW x1 b h w) c * vpr (px x0 b h w) c : ℝ) : EReal))]
  exact (coe_sum3 (fun b h w => hot (labelW x1 b h w) c * vpr (px x0 b h w) c)).symm

include hx1 in
theorem ref_counts : val_main_v57 (F := Ideal) x1 = classArr tCount x0 x1 := by
  funext i
  obtain ⟨c, rfl⟩ : ∃ c, i = ix1 c := ⟨i 0, eq_ix1 i⟩
  rw [classArr_apply, total_tCount]
  unfold val_main_v57
  rw [scatterAdd_apply]
  have h0 : val_main_v49 (F := Ideal) (ix1 c) = 0 := by
    rw [val_main_v49_apply]; exact ofBits_zero
  rw [h0, zero_add]
  -- each update is one, landing on its pixel's label
  have hs : ∀ p : Fin 2097152,
      (if (val_main_v55 (F := Ideal) x1 (ix2 p 0)).toInt = (c.val : Int) then val_main_v56 (F := Ideal) (ix1 p) else 0)
        = ((hot (labelW x1 (fb p) (fh p) (fw p)) c : ℝ) : EReal) := by
    intro p
    rw [idx_counts x1 hx1 p]
    have h1 : val_main_v56 (F := Ideal) (ix1 p) = (((fun _ : Fin 19 => (1 : ℝ)) (lc x1 (fb p) (fh p) (fw p)) : ℝ) : EReal) := by
      rw [val_main_v56_apply]; exact ofBits_one
    rw [scatter_term _ _ c (label_class x1 hx1 _ _ _) (fun _ => (1 : ℝ)) _ h1, mul_one]
  rw [Finset.sum_congr rfl (fun p _ => hs p), sum_flat (fun b h w => ((hot (labelW x1 b h w) c : ℝ) : EReal))]
  exact (coe_sum3 (fun b h w => hot (labelW x1 b h w) c)).symm

include hx0 in
theorem ref_probs : val_main_v58 (F := Ideal) x0 = classArr tProb x0 x1 := by
  funext i
  obtain ⟨c, rfl⟩ : ∃ c, i = ix1 c := ⟨i 0, eq_ix1 i⟩
  rw [classArr_apply, total_tProb]
  unfold val_main_v58
  have h0 : val_main_cst_16 (F := Ideal) (Shape.Idx.first Gen.h_S_) = 0 := ofBits_zero
  rw [reduceAdd_apply, h0, zero_add, coe_sum3]
  exact Finset.sum_congr rfl (fun b _ => Finset.sum_congr rfl (fun h _ => Finset.sum_congr rfl (fun w _ =>
    prob_apply x0 hx0 b c h w)))

include hx0 hx1 hx2 in
theorem ref_cenum : val_main_v13 (F := Ideal) x0 x1 x2 = weighted tCe x0 x1 x2 := by
  funext i
  have h0 : val_main_cst (F := Ideal) (Shape.Idx.first Gen.h_S_) = 0 := ofBits_zero
  rw [val_main_v13_apply, h0, weighted_apply]
  refine (total_scalar _ (fun b h w => vecR x2 (lc x1 b h w) * (0 - vlp (px x0 b h w) (lc x1 b h w)))
    (fun b h w => ceTerm_apply x0 x1 x2 hx0 hx1 hx2 b h w)).trans ?_
  refine congrArg (fun r : ℝ => (r : EReal)) ?_
  refine (gather_total (labelW x1) (lc x1) (label_class x1 hx1) (vecR x2)
    (fun b h w c => 0 - vlp (px x0 b h w) c)).trans ?_
  exact Finset.sum_congr rfl (fun c _ => congrArg (fun z => vecR x2 c * z) (total_tCe x0 x1 c).symm)

include hx1 hx2 in
theorem ref_cewt : val_main_v14 (F := Ideal) x1 x2 = weighted tCount x0 x1 x2 := by
  funext i
  have h0 : val_main_cst_1 (F := Ideal) (Shape.Idx.first Gen.h_S_) = 0 := ofBits_zero
  rw [val_main_v14_apply, h0, weighted_apply]
  refine (total_scalar _ (fun b h w => vecR x2 (lc x1 b h w)) (fun b h w => ?_)).trans ?_
  · rw [wt_apply x1 x2 hx1 b h w]
    exact hx2 _
  · refine congrArg (fun r : ℝ => (r : EReal)) ?_
    have hg := gather_total (labelW x1) (lc x1) (label_class x1 hx1) (vecR x2) (fun _ _ _ _ => 1)
    simp only [mul_one] at hg
    refine hg.trans ?_
    exact Finset.sum_congr rfl (fun c _ => congrArg (fun z => vecR x2 c * z) (total_tCount x0 x1 c).symm)

include hx0 hx1 hx3 in
theorem ref_fnum : val_main_v33 (F := Ideal) x0 x1 x3 = weighted (tFocal eps) x0 x1 x3 := by
  funext i
  have h0 : val_main_cst_7 (F := Ideal) (Shape.Idx.first Gen.h_S_) = 0 := ofBits_zero
  rw [val_main_v33_apply, h0, weighted_apply]
  refine (total_scalar _ (fun b h w => vecR x3 (lc x1 b h w) * (((1 - max (vpr (px x0 b h w) (lc x1 b h w)) eps)
      * (1 - max (vpr (px x0 b h w) (lc x1 b h w)) eps)) * (0 - vlp (px x0 b h w) (lc x1 b h w))))
    (fun b h w => focalTerm_apply x0 x1 x3 hx0 hx1 hx3 b h w)).trans ?_
  refine congrArg (fun r : ℝ => (r : EReal)) ?_
  refine (gather_total (labelW x1) (lc x1) (label_class x1 hx1) (vecR x3)
    (fun b h w c => ((1 - max (vpr (px x0 b h w) c) eps) * (1 - max (vpr (px x0 b h w) c) eps))
      * (0 - vlp (px x0 b h w) c))).trans ?_
  refine Finset.sum_congr rfl (fun c _ => congrArg (fun z => vecR x3 c * z) ?_)
  -- the focal term brackets its three factors from the left
  rw [total_tFocal]
  exact Finset.sum_congr rfl (fun b _ => Finset.sum_congr rfl (fun h _ => Finset.sum_congr rfl (fun w _ =>
    (mul_assoc _ _ _).symm)))

/-- The reference's closing stretch is the shared one, of its own six sums. -/
theorem chain_eq : val_main_v78 (F := Ideal) x0 x1 x2 x3
    = tail Gen.bcast_S_S19 Gen.reducesTo_S19_S_d0 Gen.h_S_ (val_main_v48 (F := Ideal) x0 x1) (val_main_v57 (F := Ideal) x1)
        (val_main_v58 (F := Ideal) x0) (val_main_v13 (F := Ideal) x0 x1 x2) (val_main_v14 (F := Ideal) x1 x2)
        (val_main_v33 (F := Ideal) x0 x1 x3) x2 := by
  unfold val_main_v78 val_main_v77 val_main_v76 val_main_v75 val_main_v74 val_main_v73 val_main_v72 val_main_v71
    val_main_v70 val_main_v69 val_main_v68 val_main_v67 val_main_v66 val_main_v65 val_main_v64 val_main_v63 val_main_v62
    val_main_v61 val_main_v60 val_main_v59 val_main_v34 val_main_v15 tail
  generalize val_main_v48 (F := Ideal) x0 x1 = a1
  generalize val_main_v57 (F := Ideal) x1 = a2
  generalize val_main_v58 (F := Ideal) x0 = a3
  generalize val_main_v13 (F := Ideal) x0 x1 x2 = a4
  generalize val_main_v14 (F := Ideal) x1 x2 = a5
  generalize val_main_v33 (F := Ideal) x0 x1 x3 = a6
  rfl

include hx0 hx1 hx2 hx3 in
/-- The reference's result is the loss of the specification's totals. -/
theorem result_eq : val_main_v78 (F := Ideal) x0 x1 x2 x3 = loss bcast_S_S19 reducesTo_S19_S_d0 h_S_ x0 x1 x2 x3 := by
  rw [chain_eq, ref_inter x0 x1 hx0 hx1, ref_counts x0 x1 hx1, ref_probs x0 x1 hx0, ref_cenum x0 x1 x2 hx0 hx1 hx2,
    ref_cewt x0 x1 x2 hx1 hx2, ref_fnum x0 x1 x3 hx0 hx1 hx3]
  unfold loss
  rfl

end Cert.ReferenceIdeal.RefTotals

end
-- ==== Proof.lean ====
/-
  The kernel — one pass over the scores that accumulates five per-class sums across a 2 × 4 × 4 grid and closes with a
  few operations on 19-vectors — against the reference — a log-softmax followed by gathers, scatter-adds and whole-array
  sums.  Both compute the loss of the same five per-class totals (Proof/Spec.lean, Proof/Tail.lean): the kernel because
  each output row is one core's share of a total (Proof/Grid.lean, Proof/KernelValue.lean), the reference because, for
  labels that are class words, gathering by label and scattering by label are sums against the label's indicator
  (Proof/RefPixel.lean, Proof/RefTotals.lean).  The precondition supplies what both need: finite scores and weights, and
  labels in range (Proof/PreFacts.lean).  The ideal pass rewrote nothing, so the idealization conjunct is trivial.
-/
import proofs.«411635_j77653008712127_2_alg».proof.Defs
import proofs.«411635_j77653008712127_2_alg».proof.Proof.Gen.Kernel
import proofs.«411635_j77653008712127_2_alg».proof.Proof.KernelFrame
import proofs.«411635_j77653008712127_2_alg».proof.Proof.Gen.KernelIdeal
import proofs.«411635_j77653008712127_2_alg».proof.Proof.KernelIdealFrame
import proofs.«411635_j77653008712127_2_alg».proof.Proof.Gen.ReferenceIdeal
import proofs.«411635_j77653008712127_2_alg».proof.Proof.RefRunValue
import proofs.«411635_j77653008712127_2_alg».proof.Proof.Gen.Pre_finite_inputs
import proofs.«411635_j77653008712127_2_alg».proof.Proof.PreFacts
import proofs.«411635_j77653008712127_2_alg».proof.Proof.KernelValue
import proofs.«411635_j77653008712127_2_alg».proof.Proof.RefTotals
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the loss of the specification's totals of arguments that agree. -/
theorem algebraic : Cert.algebraic_KernelIdeal_ReferenceIdeal := by
  intro m ρ m' ρ' hpre hagree
  have hf := fun c => Cert.Pre_finite_inputs.Decode.facts_of_pre _ _ _ _ (hpre c)
  refine ⟨_, Cert.KernelIdeal.KernelValue.run m ρ (fun c => (hf c).1) (fun c => (hf c).2.1) (fun c => (hf c).2.2.1), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.RefTotals.result_eq _ _ _ _ (hf c).1 (hf c).2.2.2 (hf c).2.1 (hf c).2.2.1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
